-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x8192 : Shape := ⟨2, ![16384, 8192]⟩
abbrev S256x256 : Shape := ⟨2, ![256, 256]⟩
abbrev S256x1 : Shape := ⟨2, ![256, 1]⟩
abbrev S8192x16384 : Shape := ⟨2, ![8192, 16384]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S16384x1 : Shape := ⟨2, ![16384, 1]⟩
abbrev S16384 : Shape := ⟨1, ![16384]⟩

class Facts : Prop where
  transposes_S16384x8192_S8192x16384_1_0 : S16384x8192.Transposes [1, 0] S8192x16384
  reducesTo_S16384x8192_S8192_d0 : S16384x8192.ReducesTo [0] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x1_S1x8192_1_0 : S8192x1.Transposes [1, 0] S1x8192
  bcast_S1x8192_S16384x8192_0_1 : S1x8192.BroadcastsInDim S16384x8192 (![0, 1] : Fin 2 → Fin S16384x8192.rank)
  bcast_S16384x1_S16384x8192_0_1 : S16384x1.BroadcastsInDim S16384x8192 (![0, 1] : Fin 2 → Fin S16384x8192.rank)
  bcast_S_S16384x8192 : S_.BroadcastsInDim S16384x8192 (![] : Fin 0 → Fin S16384x8192.rank)
  reducesTo_S16384x8192_S16384_d1 : S16384x8192.ReducesTo [1] S16384
  bcast_S16384_S16384x1_0 : S16384.BroadcastsInDim S16384x1 (![0] : Fin 1 → Fin S16384x1.rank)
  bcast_S_S8192x1 : S_.BroadcastsInDim S8192x1 (![] : Fin 0 → Fin S8192x1.rank)
  reducesTo_S8192x1_S_d0_1 : S8192x1.ReducesTo [0, 1] S_
  bcast_S_S16384x1 : S_.BroadcastsInDim S16384x1 (![] : Fin 0 → Fin S16384x1.rank)
  reducesTo_S16384x1_S_d0_1 : S16384x1.ReducesTo [0, 1] S_
  bcast_S_S16384x256 : S_.BroadcastsInDim S16384x256 (![] : Fin 0 → Fin S16384x256.rank)
  reducesTo_S16384x256_S_d0_1 : S16384x256.ReducesTo [0, 1] S_
  reducesTo_S16384x8192_S_d0_1 : S16384x8192.ReducesTo [0, 1] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  dot_S16384x256_S256x256_S16384x256_1_0_0_1_n_n_wf : DotDims.WF S16384x256 S256x256 S16384x256 [1] [0] [0] [1] [] []
  dot_S8192x16384_S16384x256_S8192x256_1_0_0_1_n_n_wf : DotDims.WF S8192x16384 S16384x256 S8192x256 [1] [0] [0] [1] [] []
  dot_S256x256_S256x1_S256x1_1_0_0_1_n_n_wf : DotDims.WF S256x256 S256x1 S256x1 [1] [0] [0] [1] [] []
  dot_S8192x256_S256x1_S8192x1_1_0_0_1_n_n_wf : DotDims.WF S8192x256 S256x1 S8192x1 [1] [0] [0] [1] [] []
  dot_S16384x256_S256x1_S16384x1_1_0_0_1_n_n_wf : DotDims.WF S16384x256 S256x1 S16384x1 [1] [0] [0] [1] [] []

variable [Facts]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S8192x16384_S16384x256_S8192x256_1_0_0_1_n_n : DotDims S8192x16384 S16384x256 S8192x256 where
  lhsContracting := [1]
  rhsContracting := [0]
  lhsNonContracting := [0]
  rhsNonContracting := [1]
  lhsBatch := []
  rhsBatch := []
  wf := dot_S8192x16384_S16384x256_S8192x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def fn_part3 {F : FTy → Type} [FloatOps F] (main_arg4 : FVec F S256x256 .f32) (main_arg5 : FVec F S256x1 .f32) (main_arg6 : FVec F S256x1 .f32) (main_v50 : IVec S_ 1) (main_v53 : IVec S256x256 1) (main_c_15 : IVec S_ 1) : IVec S_ 1 :=
  let main_v54 : IVec S_ 1 := (fun x v => Host.reduce IntOp.andi x v reducesTo_S256x256_S_d0_1 h_S_) main_v53 main_c_15
  let main_v55 : IVec S_ 1 := andi main_v50 main_v54
  let main_v56 : FVec F S256x256 .f32 := Host.absf main_arg4
  let main_cst_16 : FVec F S_ .f32 := constant S_ .f32 0x7F800000#32
  let main_v57 : FVec F S256x256 .f32 := broadcastInDim S256x256 ![] bcast_S_S256x256 main_cst_16
  let main_v58 : IVec S256x256 1 := cmpf .olt main_v56 main_v57
  let main_c_17 : IVec S_ 1 := constantI S_ 1 1#1
  let main_v59 : IVec S_ 1 := (fun x v => Host.reduce IntOp.andi x v reducesTo_S256x256_S_d0_1 h_S_) main_v58 main_c_17
  let main_v60 : IVec S_ 1 := andi main_v55 main_v59
  let main_v61 : FVec F S256x1 .f32 := Host.absf main_arg5
  let main_cst_18 : FVec F S_ .f32 := constant S_ .f32 0x7F800000#32
  let main_v62 : FVec F S256x1 .f32 := broadcastInDim S256x1 ![] bcast_S_S256x1 main_cst_18
  let main_v63 : IVec S256x1 1 := cmpf .olt main_v61 main_v62
  let main_c_19 : IVec S_ 1 := constantI S_ 1 1#1
  let main_v64 : IVec S_ 1 := (fun x v => Host.reduce IntOp.andi x v reducesTo_S256x1_S_d0_1 h_S_) main_v63 main_c_19
  let main_v65 : IVec S_ 1 := andi main_v60 main_v64
  let main_v66 : FVec F S256x1 .f32 := Host.absf main_arg6
  let main_cst_20 : FVec F S_ .f32 := constant S_ .f32 0x7F800000#32
  let main_v67 : FVec F S256x1 .f32 := broadcastInDim S256x1 ![] bcast_S_S256x1 main_cst_20
  let main_v68 : IVec S256x1 1 := cmpf .olt main_v66 main_v67
  let main_c_21 : IVec S_ 1 := constantI S_ 1 1#1
  let main_v69 : IVec S_ 1 := (fun x v => Host.reduce IntOp.andi x v reducesTo_S256x1_S_d0_1 h_S_) main_v68 main_c_21
  let main_v70 : IVec S_ 1 := andi main_v65 main_v69
  main_v70

def fn_part2 {F : FTy → Type} [FloatOps F] (main_arg1 : FVec F S16384x8192 .f32) (main_arg2 : FVec F S256x256 .f32) (main_arg3 : FVec F S256x256 .f32) (main_arg4 : FVec F S256x256 .f32) (main_arg5 : FVec F S256x1 .f32) (main_arg6 : FVec F S256x1 .f32) (main_v35 : IVec S_ 1) (main_v36 : FVec F S16384x256 .f32) (main_cst_8 : FVec F S_ .f32) : IVec S_ 1 :=
  let main_v37 : FVec F S16384x256 .f32 := broadcastInDim S16384x256 ![] bcast_S_S16384x256 main_cst_8
  let main_v38 : IVec S16384x256 1 := cmpf .olt main_v36 main_v37
  let main_c_9 : IVec S_ 1 := constantI S_ 1 1#1
  let main_v39 : IVec S_ 1 := (fun x v => Host.reduce IntOp.andi x v reducesTo_S16384x256_S_d0_1 h_S_) main_v38 main_c_9
  let main_v40 : IVec S_ 1 := andi main_v35 main_v39
  let main_v41 : FVec F S16384x8192 .f32 := Host.absf main_arg1
  let main_cst_10 : FVec F S_ .f32 := constant S_ .f32 0x7F800000#32
  let main_v42 : FVec F S16384x8192 .f32 := broadcastInDim S16384x8192 ![] bcast_S_S16384x8192 main_cst_10
  let main_v43 : IVec S16384x8192 1 := cmpf .olt main_v41 main_v42
  let main_c_11 : IVec S_ 1 := constantI S_ 1 1#1
  let main_v44 : IVec S_ 1 := (fun x v => Host.reduce IntOp.andi x v reducesTo_S16384x8192_S_d0_1 h_S_) main_v43 main_c_11
  let main_v45 : IVec S_ 1 := andi main_v40 main_v44
  let main_v46 : FVec F S256x256 .f32 := Host.absf main_arg2
  let main_cst_12 : FVec F S_ .f32 := constant S_ .f32 0x7F800000#32
  let main_v47 : FVec F S256x256 .f32 := broadcastInDim S256x256 ![] bcast_S_S256x256 main_cst_12
  let main_v48 : IVec S256x256 1 := cmpf .olt main_v46 main_v47
  let main_c_13 : IVec S_ 1 := constantI S_ 1 1#1
  let main_v49 : IVec S_ 1 := (fun x v => Host.reduce IntOp.andi x v reducesTo_S256x256_S_d0_1 h_S_) main_v48 main_c_13
  let main_v50 : IVec S_ 1 := andi main_v45 main_v49
  let main_v51 : FVec F S256x256 .f32 := Host.absf main_arg3
  let main_cst_14 : FVec F S_ .f32 := constant S_ .f32 0x7F800000#32
  let main_v52 : FVec F S256x256 .f32 := broadcastInDim S256x256 ![] bcast_S_S256x256 main_cst_14
  let main_v53 : IVec S256x256 1 := cmpf .olt main_v51 main_v52
  let main_c_15 : IVec S_ 1 := constantI S_ 1 1#1
  fn_part3 (F := F) main_arg4 main_arg5 main_arg6 main_v50 main_v53 main_c_15

def fn_part1 {F : FTy → Type} [FloatOps F] (main_arg0 : FVec F S16384x256 .f32) (main_arg1 : FVec F S16384x8192 .f32) (main_arg2 : FVec F S256x256 .f32) (main_arg3 : FVec F S256x256 .f32) (main_arg4 : FVec F S256x256 .f32) (main_arg5 : FVec F S256x1 .f32) (main_arg6 : FVec F S256x1 .f32) (main_v4 : FVec F S8192x1 .f32) (main_v19 : FVec F S16384x8192 .f32) (main_cst_2 : FVec F S_ .f32) : IVec S_ 1 :=
  let main_v20 : FVec F S16384x8192 .f32 := broadcastInDim S16384x8192 ![] bcast_S_S16384x8192 main_cst_2
  let main_v21 : IVec S16384x8192 1 := cmpf .oge main_v19 main_v20
  let main_cst_3 : FVec F S_ .f32 := constant S_ .f32 0x3DCCCCCD#32
  let main_v22 : FVec F S16384x8192 .f32 := broadcastInDim S16384x8192 ![] bcast_S_S16384x8192 main_cst_3
  let main_v23 : FVec F S16384x8192 .f32 := mulf main_v22 main_v19
  let main_v24 : FVec F S16384x8192 .f32 := select main_v21 main_v19 main_v23
  let main_v25 : FVec F S16384x8192 .f32 := Host.exp main_v24
  let main_v26 : FVec F S16384x8192 .f32 := mulf main_v25 main_arg1
  let main_cst_4 : FVec F S_ .f32 := constant S_ .f32 0x00000000#32
  let main_v27 : FVec F S16384 .f32 := (fun x v => Host.reduceAdd x v reducesTo_S16384x8192_S16384_d1 h_S_) main_v26 main_cst_4
  let main_v28 : FVec F S16384x1 .f32 := broadcastInDim S16384x1 ![0] bcast_S16384_S16384x1_0 main_v27
  let main_cst_5 : FVec F S_ .f32 := constant S_ .f32 0x00000000#32
  let main_v29 : FVec F S8192x1 .f32 := broadcastInDim S8192x1 ![] bcast_S_S8192x1 main_cst_5
  let main_v30 : IVec S8192x1 1 := cmpf .une main_v4 main_v29
  let main_c : IVec S_ 1 := constantI S_ 1 1#1
  let main_v31 : IVec S_ 1 := (fun x v => Host.reduce IntOp.andi x v reducesTo_S8192x1_S_d0_1 h_S_) main_v30 main_c
  let main_cst_6 : FVec F S_ .f32 := constant S_ .f32 0x00000000#32
  let main_v32 : FVec F S16384x1 .f32 := broadcastInDim S16384x1 ![] bcast_S_S16384x1 main_cst_6
  let main_v33 : IVec S16384x1 1 := cmpf .une main_v28 main_v32
  let main_c_7 : IVec S_ 1 := constantI S_ 1 1#1
  let main_v34 : IVec S_ 1 := (fun x v => Host.reduce IntOp.andi x v reducesTo_S16384x1_S_d0_1 h_S_) main_v33 main_c_7
  let main_v35 : IVec S_ 1 := andi main_v31 main_v34
  let main_v36 : FVec F S16384x256 .f32 := Host.absf main_arg0
  let main_cst_8 : FVec F S_ .f32 := constant S_ .f32 0x7F800000#32
  fn_part2 (F := F) main_arg1 main_arg2 main_arg3 main_arg4 main_arg5 main_arg6 main_v35 main_v36 main_cst_8

def fn {F : FTy → Type} [FloatOps F] (main_arg0 : FVec F S16384x256 .f32) (main_arg1 : FVec F S16384x8192 .f32) (main_arg2 : FVec F S256x256 .f32) (main_arg3 : FVec F S256x256 .f32) (main_arg4 : FVec F S256x256 .f32) (main_arg5 : FVec F S256x1 .f32) (main_arg6 : FVec F S256x1 .f32) : IVec S_ 1 :=
  let main_v0 : FVec F S8192x16384 .f32 := (transpose S8192x16384 [1, 0] · transposes_S16384x8192_S8192x16384_1_0) main_arg1
  let main_v1 : FVec F S16384x256 .f32 := (fun l r => Host.dotGeneral dot_S16384x256_S256x256_S16384x256_1_0_0_1_n_n none l r) main_arg0 main_arg2
  let main_v2 : FVec F S8192x256 .f32 := (fun l r => Host.dotGeneral dot_S8192x16384_S16384x256_S8192x256_1_0_0_1_n_n none l r) main_v0 main_v1
  let main_cst : FVec F S_ .f32 := constant S_ .f32 0x00000000#32
  let main_v3 : FVec F S8192 .f32 := (fun x v => Host.reduceAdd x v reducesTo_S16384x8192_S8192_d0 h_S_) main_arg1 main_cst
  let main_v4 : FVec F S8192x1 .f32 := broadcastInDim S8192x1 ![0] bcast_S8192_S8192x1_0 main_v3
  let main_v5 : FVec F S8192x256 .f32 := broadcastInDim S8192x256 ![0, 1] bcast_S8192x1_S8192x256_0_1 main_v4
  let main_v6 : FVec F S8192x256 .f32 := Host.divf main_v2 main_v5
  let main_v7 : FVec F S256x1 .f32 := (fun l r => Host.dotGeneral dot_S256x256_S256x1_S256x1_1_0_0_1_n_n none l r) main_arg3 main_arg6
  let main_v8 : FVec F S8192x1 .f32 := (fun l r => Host.dotGeneral dot_S8192x256_S256x1_S8192x1_1_0_0_1_n_n none l r) main_v6 main_v7
  let main_v9 : FVec F S1x8192 .f32 := (transpose S1x8192 [1, 0] · transposes_S8192x1_S1x8192_1_0) main_v8
  let main_v10 : FVec F S256x1 .f32 := (fun l r => Host.dotGeneral dot_S256x256_S256x1_S256x1_1_0_0_1_n_n none l r) main_arg4 main_arg5
  let main_v11 : FVec F S16384x1 .f32 := (fun l r => Host.dotGeneral dot_S16384x256_S256x1_S16384x1_1_0_0_1_n_n none l r) main_arg0 main_v10
  let main_v12 : FVec F S16384x8192 .f32 := broadcastInDim S16384x8192 ![0, 1] bcast_S1x8192_S16384x8192_0_1 main_v9
  let main_v13 : FVec F S16384x8192 .f32 := broadcastInDim S16384x8192 ![0, 1] bcast_S16384x1_S16384x8192_0_1 main_v11
  let main_v14 : FVec F S16384x8192 .f32 := addf main_v12 main_v13
  let main_cst_0 : FVec F S_ .f32 := constant S_ .f32 0x41000000#32
  let main_v15 : FVec F S16384x8192 .f32 := broadcastInDim S16384x8192 ![] bcast_S_S16384x8192 main_cst_0
  let main_v16 : FVec F S16384x8192 .f32 := Host.divf main_v14 main_v15
  let main_v17 : FVec F S16384x8192 .f32 := Host.tanh main_v16
  let main_cst_1 : FVec F S_ .f32 := constant S_ .f32 0x41000000#32
  let main_v18 : FVec F S16384x8192 .f32 := broadcastInDim S16384x8192 ![] bcast_S_S16384x8192 main_cst_1
  let main_v19 : FVec F S16384x8192 .f32 := mulf main_v17 main_v18
  let main_cst_2 : FVec F S_ .f32 := constant S_ .f32 0x00000000#32
  fn_part1 (F := F) main_arg0 main_arg1 main_arg2 main_arg3 main_arg4 main_arg5 main_arg6 main_v4 main_v19 main_cst_2
-- ==== Kernel.lean ====
abbrev S16384x256 : Shape := ⟨2, ![16384, 256]⟩
abbrev S16384x8192 : Shape := ⟨2, ![16384, 8192]⟩
abbrev S256x256 : Shape := ⟨2, ![256, 256]⟩
abbrev S256x1 : Shape := ⟨2, ![256, 1]⟩
abbrev S8192x256 : Shape := ⟨2, ![8192, 256]⟩
abbrev S1x8192 : Shape := ⟨2, ![1, 8192]⟩
abbrev S1024x2048 : Shape := ⟨2, ![1024, 2048]⟩
abbrev S1024x256 : Shape := ⟨2, ![1024, 256]⟩
abbrev S2048x256 : Shape := ⟨2, ![2048, 256]⟩
abbrev S1x2048 : Shape := ⟨2, ![1, 2048]⟩
abbrev S2048 : Shape := ⟨1, ![2048]⟩
abbrev S8192x1 : Shape := ⟨2, ![8192, 1]⟩
abbrev S16384x1 : Shape := ⟨2, ![16384, 1]⟩
abbrev S2048x512 : Shape := ⟨2, ![2048, 512]⟩
abbrev S1x512 : Shape := ⟨2, ![1, 512]⟩
abbrev S2048x1 : Shape := ⟨2, ![2048, 1]⟩
abbrev S512x256 : Shape := ⟨2, ![512, 256]⟩

abbrev nBuf : Space → Nat
  | .hbm => 22
  | .vmem => 21
  | .smem => 0
  | _ => 0

abbrev bufTy : (tb : Table) → Fin (tcTables nBuf tb) → BufTy
  | .hbm, ⟨0, _⟩ => ⟨S16384x256, .f32⟩
  | .hbm, ⟨1, _⟩ => ⟨S16384x8192, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x1, .f32⟩
  | .hbm, ⟨6, _⟩ => ⟨S256x1, .f32⟩
  | .hbm, ⟨7, _⟩ => ⟨S16384x256, .f32⟩
  | .hbm, ⟨8, _⟩ => ⟨S16384x256, .bf16⟩
  | .hbm, ⟨9, _⟩ => ⟨S8192x256, .f32⟩
  | .hbm, ⟨10, _⟩ => ⟨S1x8192, .f32⟩
  | .hbm, ⟨11, _⟩ => ⟨S8192x1, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .bf16⟩
  | .hbm, ⟨16, _⟩ => ⟨S256x1, .f32⟩
  | .hbm, ⟨17, _⟩ => ⟨S8192x1, .f32⟩
  | .hbm, ⟨18, _⟩ => ⟨S1x8192, .f32⟩
  | .hbm, ⟨19, _⟩ => ⟨S256x1, .f32⟩
  | .hbm, ⟨20, _⟩ => ⟨S16384x1, .f32⟩
  | .hbm, ⟨21, _⟩ => ⟨S16384x256, .f32⟩
  | .local _ .vmem, ⟨0, _⟩ => ⟨S1024x2048, .f32⟩
  | .local _ .vmem, ⟨1, _⟩ => ⟨S1024x2048, .f32⟩
  | .local _ .vmem, ⟨2, _⟩ => ⟨S1024x256, .bf16⟩
  | .local _ .vmem, ⟨3, _⟩ => ⟨S1024x256, .bf16⟩
  | .local _ .vmem, ⟨4, _⟩ => ⟨S2048x256, .f32⟩
  | .local _ .vmem, ⟨5, _⟩ => ⟨S2048x256, .f32⟩
  | .local _ .vmem, ⟨6, _⟩ => ⟨S1x2048, .f32⟩
  | .local _ .vmem, ⟨7, _⟩ => ⟨S1x2048, .f32⟩
  | .local _ .vmem, ⟨8, _⟩ => ⟨S2048x256, .f32⟩
  | .local _ .vmem, ⟨9, _⟩ => ⟨S1x2048, .f32⟩
  | .local _ .vmem, ⟨10, _⟩ => ⟨S2048x512, .f32⟩
  | .local _ .vmem, ⟨11, _⟩ => ⟨S2048x512, .f32⟩
  | .local _ .vmem, ⟨12, _⟩ => ⟨S8192x256, .bf16⟩
  | .local _ .vmem, ⟨13, _⟩ => ⟨S1x512, .f32⟩
  | .local _ .vmem, ⟨14, _⟩ => ⟨S1x512, .f32⟩
  | .local _ .vmem, ⟨15, _⟩ => ⟨S2048x1, .f32⟩
  | .local _ .vmem, ⟨16, _⟩ => ⟨S2048x1, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 16], ![false, false]⟩

def k1_mult1 (i : grid1.Coords) : BitVec 32 :=
  let arg1 : BitVec 32 := BitVec.ofNat 32 (i 1).val
  let c512_i32 : BitVec 32 := 512#32
  let v32 : BitVec 32 := Scalar.muli arg1 c512_i32
  v32
def k1_off1 (i : grid1.Coords) : Fin 2 → Nat :=
  let arg1 : BitVec 32 := BitVec.ofNat 32 (i 1).val
  let c512_i32 : BitVec 32 := 512#32
  let v32 : BitVec 32 := Scalar.muli arg1 c512_i32
  let v33 : BitVec 32 := v32
  let v34 : Index := Scalar.indexCast v33
  let c0_14 : Index := 0#32
  ![v34.toNat, 0]
def k1_cond2 (i : grid1.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_20 : BitVec 32 := 0#32
  let v45 : BitVec 1 := Scalar.cmpi .ne v44 c0_i32_20
  v45

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x2048_S2048 : S1024x2048.Reduces [0] S2048
  shapeCasts_S2048_S1x2048 : S2048.ShapeCasts S1x2048
  shapeCasts_S1x8192_S8192x1 : S1x8192.ShapeCasts S8192x1
  bcast_S8192x1_S8192x256_0_1 : S8192x1.BroadcastsInDim S8192x256 (![0, 1] : Fin 2 → Fin S8192x256.rank)
  transposes_S8192x1_S1x8192_1_0 : S8192x1.Transposes [1, 0] S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  broadcasts_S2048x1_S2048x512 : S2048x1.Broadcasts S2048x512
  reduces_S2048x512_S2048 : S2048x512.Reduces [1] S2048
  shapeCasts_S2048_S2048x1 : S2048.ShapeCasts S2048x1
  h_S512x256 : 0 < S512x256.numel
  shapeCasts_S512x256_S512x256 : S512x256.ShapeCasts S512x256
  broadcasts_S2048x1_S2048x256 : S2048x1.Broadcasts S2048x256
  dot_S16384x256_S256x256_S16384x256_1_0_0_1_n_n_wf : DotDims.WF S16384x256 S256x256 S16384x256 [1] [0] [0] [1] [] []
  dot_S1024x2048_S1024x256_S2048x256_0_0_1_1_n_n_wf : DotDims.WF S1024x2048 S1024x256 S2048x256 [0] [0] [1] [1] [] []
  dot_S8192x256_S256x256_S8192x256_1_0_0_1_n_n_wf : DotDims.WF S8192x256 S256x256 S8192x256 [1] [0] [0] [1] [] []
  dot_S256x256_S256x1_S256x1_1_0_0_1_n_n_wf : DotDims.WF S256x256 S256x1 S256x1 [1] [0] [0] [1] [] []
  dot_S8192x256_S256x1_S8192x1_1_0_0_1_n_n_wf : DotDims.WF S8192x256 S256x1 S8192x1 [1] [0] [0] [1] [] []
  dot_S16384x256_S256x1_S16384x1_1_0_0_1_n_n_wf : DotDims.WF S16384x256 S256x1 S16384x1 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x8192.size a
  hwx0_0 : ∀ i : grid0.Coords, EltTy.bits .f32 = 32 ∨ (Rect.block (s := S16384x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .bf16 = 32 ∨ (Rect.block (s := S16384x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S512x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S16384x8192.size a
  hwx1_0 : ∀ i : grid1.Coords, EltTy.bits .f32 = 32 ∨ (Rect.block (s := S16384x8192) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x8192.size a
  hwx1_2 : ∀ i : grid1.Coords, EltTy.bits .f32 = 32 ∨ (Rect.block (s := S1x8192) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S16384x1.size a
  hwx1_3 : ∀ i : grid1.Coords, EltTy.bits .f32 = 32 ∨ (Rect.block (s := S16384x1) S2048x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S16384x256.size a
  hwx1_4 : ∀ i : grid1.Coords, EltTy.bits .f32 = 32 ∨ (Rect.block (s := S16384x256) S2048x256.size (cc1_transform_4 i) (hinb1_4 i)).WholeWords (EltTy.packing .f32)

variable [Facts₀]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S1024x2048_S1024x256_S2048x256_0_0_1_1_n_n : DotDims S1024x2048 S1024x256 S2048x256 where
  lhsContracting := [0]
  rhsContracting := [0]
  lhsNonContracting := [1]
  rhsNonContracting := [1]
  lhsBatch := []
  rhsBatch := []
  wf := dot_S1024x2048_S1024x256_S2048x256_0_0_1_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2048x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x256 : Shape := ⟨2, ![16384, 256]⟩
abbrev S16384x8192 : Shape := ⟨2, ![16384, 8192]⟩
abbrev S256x256 : Shape := ⟨2, ![256, 256]⟩
abbrev S256x1 : Shape := ⟨2, ![256, 1]⟩
abbrev S8192x16384 : Shape := ⟨2, ![8192, 16384]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S16384x1 : Shape := ⟨2, ![16384, 1]⟩
abbrev S16384 : Shape := ⟨1, ![16384]⟩

abbrev nBuf : Space → Nat
  | .hbm => 53
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x8192, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x1, .f32⟩
  | .hbm, ⟨6, _⟩ => ⟨S256x1, .f32⟩
  | .hbm, ⟨7, _⟩ => ⟨S8192x16384, .f32⟩
  | .hbm, ⟨8, _⟩ => ⟨S16384x256, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x256, .f32⟩
  | .hbm, ⟨14, _⟩ => ⟨S8192x256, .f32⟩
  | .hbm, ⟨15, _⟩ => ⟨S256x1, .f32⟩
  | .hbm, ⟨16, _⟩ => ⟨S8192x1, .f32⟩
  | .hbm, ⟨17, _⟩ => ⟨S1x8192, .f32⟩
  | .hbm, ⟨18, _⟩ => ⟨S256x1, .f32⟩
  | .hbm, ⟨19, _⟩ => ⟨S16384x1, .f32⟩
  | .hbm, ⟨20, _⟩ => ⟨S16384x8192, .f32⟩
  | .hbm, ⟨21, _⟩ => ⟨S16384x8192, .f32⟩
  | .hbm, ⟨22, _⟩ => ⟨S16384x8192, .f32⟩
  | .hbm, ⟨23, _⟩ => ⟨S_, .f32⟩
  | .hbm, ⟨24, _⟩ => ⟨S16384x8192, .f32⟩
  | .hbm, ⟨25, _⟩ => ⟨S16384x8192, .f32⟩
  | .hbm, ⟨26, _⟩ => ⟨S16384x8192, .f32⟩
  | .hbm, ⟨27, _⟩ => ⟨S_, .f32⟩
  | .hbm, ⟨28, _⟩ => ⟨S16384x8192, .f32⟩
  | .hbm, ⟨29, _⟩ => ⟨S16384x8192, .f32⟩
  | .hbm, ⟨30, _⟩ => ⟨S_, .f32⟩
  | .hbm, ⟨31, _⟩ => ⟨S16384x8192, .f32⟩
  | .hbm, ⟨32, _⟩ => ⟨S16384x8192, .i1⟩
  | .hbm, ⟨33, _⟩ => ⟨S_, .f32⟩
  | .hbm, ⟨34, _⟩ => ⟨S16384x8192, .f32⟩
  | .hbm, ⟨35, _⟩ => ⟨S16384x8192, .f32⟩
  | .hbm, ⟨36, _⟩ => ⟨S16384x8192, .f32⟩
  | .hbm, ⟨37, _⟩ => ⟨S16384x8192, .f32⟩
  | .hbm, ⟨38, _⟩ => ⟨S16384x8192, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x8192, .f32⟩
  | .hbm, ⟨43, _⟩ => ⟨S16384x8192, .f32⟩
  | .hbm, ⟨44, _⟩ => ⟨S8192x256, .f32⟩
  | .hbm, ⟨45, _⟩ => ⟨S16384x256, .f32⟩
  | .hbm, ⟨46, _⟩ => ⟨S_, .f32⟩
  | .hbm, ⟨47, _⟩ => ⟨S16384x256, .f32⟩
  | .hbm, ⟨48, _⟩ => ⟨S16384x256, .i1⟩
  | .hbm, ⟨49, _⟩ => ⟨S_, .f32⟩
  | .hbm, ⟨50, _⟩ => ⟨S16384x256, .f32⟩
  | .hbm, ⟨51, _⟩ => ⟨S16384x256, .f32⟩
  | .hbm, ⟨52, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  transposes_S16384x8192_S8192x16384_1_0 : S16384x8192.Transposes [1, 0] S8192x16384
  reducesTo_S16384x8192_S8192_d0 : S16384x8192.ReducesTo [0] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x1_S1x8192_1_0 : S8192x1.Transposes [1, 0] S1x8192
  bcast_S1x8192_S16384x8192_0_1 : S1x8192.BroadcastsInDim S16384x8192 (![0, 1] : Fin 2 → Fin S16384x8192.rank)
  bcast_S16384x1_S16384x8192_0_1 : S16384x1.BroadcastsInDim S16384x8192 (![0, 1] : Fin 2 → Fin S16384x8192.rank)
  bcast_S_S16384x8192 : S_.BroadcastsInDim S16384x8192 (![] : Fin 0 → Fin S16384x8192.rank)
  reducesTo_S16384x8192_S16384_d1 : S16384x8192.ReducesTo [1] S16384
  bcast_S16384_S16384x1_0 : S16384.BroadcastsInDim S16384x1 (![0] : Fin 1 → Fin S16384x1.rank)
  bcast_S_S16384x256 : S_.BroadcastsInDim S16384x256 (![] : Fin 0 → Fin S16384x256.rank)
  dot_S16384x256_S256x256_S16384x256_1_0_0_1_n_n_wf : DotDims.WF S16384x256 S256x256 S16384x256 [1] [0] [0] [1] [] []
  dot_S8192x16384_S16384x256_S8192x256_1_0_0_1_n_n_wf : DotDims.WF S8192x16384 S16384x256 S8192x256 [1] [0] [0] [1] [] []
  dot_S256x256_S256x1_S256x1_1_0_0_1_n_n_wf : DotDims.WF S256x256 S256x1 S256x1 [1] [0] [0] [1] [] []
  dot_S8192x256_S256x1_S8192x1_1_0_0_1_n_n_wf : DotDims.WF S8192x256 S256x1 S8192x1 [1] [0] [0] [1] [] []
  dot_S16384x256_S256x1_S16384x1_1_0_0_1_n_n_wf : DotDims.WF S16384x256 S256x1 S16384x1 [1] [0] [0] [1] [] []
  dot_S8192x256_S256x256_S8192x256_1_0_0_1_n_n_wf : DotDims.WF S8192x256 S256x256 S8192x256 [1] [0] [0] [1] [] []
  dot_S16384x8192_S8192x256_S16384x256_1_0_0_1_n_n_wf : DotDims.WF S16384x8192 S8192x256 S16384x256 [1] [0] [0] [1] [] []

variable [Facts₀]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S8192x16384_S16384x256_S8192x256_1_0_0_1_n_n : DotDims S8192x16384 S16384x256 S8192x256 where
  lhsContracting := [1]
  rhsContracting := [0]
  lhsNonContracting := [0]
  rhsNonContracting := [1]
  lhsBatch := []
  rhsBatch := []
  wf := dot_S8192x16384_S16384x256_S8192x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S16384x8192_S8192x256_S16384x256_1_0_0_1_n_n : DotDims S16384x8192 S8192x256 S16384x256 where
  lhsContracting := [1]
  rhsContracting := [0]
  lhsNonContracting := [0]
  rhsNonContracting := [1]
  lhsBatch := []
  rhsBatch := []
  wf := dot_S16384x8192_S8192x256_S16384x256_1_0_0_1_n_n_wf

class Facts : Prop extends Facts₀ where

variable [Facts]
-- ==== Proof.Spec.lean ====
/-
  The mathematics both programs compute, index by index over the extended reals, as functions of the seven
  argument arrays: node features x [16384, 256], incidence H [16384, 8192], the three weight matrices
  w1, w2, w3 [256, 256] and the two attention vectors a1, a2 [256, 1].

    xw n d   = Σ_k x n k · w1 k d                      projected node features
    enum e d = Σ_n H n e · xw n d                      node → hyperedge aggregate
    deg e    = Σ_n H n e                               hyperedge degree
    en e d   = enum e d / deg e                        normalised hyperedge features
    ev e d   = Σ_k en e k · w2 k d
    esc e    = Σ_k en e k · (Σ_j w2 k j · a2 j)        hyperedge score
    xsc n    = Σ_k x n k · (Σ_j w3 k j · a1 j)         node score
    sc n e   = leaky (8 · tanh ((esc e + xsc n) / 8))  clamped, rectified logit
    hatt n e = exp (sc n e) · H n e                    masked weight
    den n    = Σ_e hatt n e                            softmax denominator

  The reference normalises the weights first and then aggregates; the kernel aggregates the raw weights and
  divides the aggregate once:
    refOut n d = leaky (Σ_e (hatt n e / den n) · ev e d)
    kerOut n d = leaky ((Σ_e hatt n e · ev e d) / den n)
  The two agree where every quantity is a real number and no divisor vanishes (`Admissible`).
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev Arr (a b : Nat) : Type := (⟨2, ![a, b]⟩ : Shape).Idx → EReal

/-- The leaky rectifier as both programs spell it: `z` where `z ≥ 0`, else `c · z` with `c` the f32 nearest 0.1. -/
def leaky (z : EReal) : EReal :=
  Scalar.select (Ideal.cmp .oge z (Ideal.ofBits .f32 0x00000000#32)) z (Ideal.ofBits .f32 0x3DCCCCCD#32 * z)

section
variable (x : Arr 16384 256) (H : Arr 16384 8192) (w1 w2 w3 : Arr 256 256) (a1 a2 : Arr 256 1)

def xw (n : Fin 16384) (d : Fin 256) : EReal := ∑ k : Fin 256, x (ix2 n k) * w1 (ix2 k d)
def enum (e : Fin 8192) (d : Fin 256) : EReal := ∑ n : Fin 16384, H (ix2 n e) * xw x w1 n d
def deg (e : Fin 8192) : EReal := ∑ n : Fin 16384, H (ix2 n e)
def en (e : Fin 8192) (d : Fin 256) : EReal := Ideal.div (enum x H w1 e d) (deg H e)
def ev (e : Fin 8192) (d : Fin 256) : EReal := ∑ k : Fin 256, en x H w1 e k * w2 (ix2 k d)
def wa2 (k : Fin 256) : EReal := ∑ j : Fin 256, w2 (ix2 k j) * a2 (ix2 j (0 : Fin 1))
def esc (e : Fin 8192) : EReal := ∑ k : Fin 256, en x H w1 e k * wa2 w2 a2 k
def wa1 (k : Fin 256) : EReal := ∑ j : Fin 256, w3 (ix2 k j) * a1 (ix2 j (0 : Fin 1))
def xsc (n : Fin 16384) : EReal := ∑ k : Fin 256, x (ix2 n k) * wa1 w3 a1 k
def sc (n : Fin 16384) (e : Fin 8192) : EReal :=
  leaky (Ideal.tanh ((esc x H w1 w2 a2 e + xsc x w3 a1 n) * ((1 / 8 : ℝ) : EReal)) * ((8 : ℝ) : EReal))
def hatt (n : Fin 16384) (e : Fin 8192) : EReal := Ideal.exp (sc x H w1 w2 w3 a1 a2 n e) * H (ix2 n e)
def den (n : Fin 16384) : EReal := ∑ e : Fin 8192, hatt x H w1 w2 w3 a1 a2 n e

/-- The reference's result: the normalised weights aggregated. -/
def refOut : Arr 16384 256 := fun i =>
  leaky (∑ e : Fin 8192, Ideal.div (hatt x H w1 w2 w3 a1 a2 (i 0) e) (den x H w1 w2 w3 a1 a2 (i 0)) * ev x H w1 w2 e (i 1))
/-- The kernel's result: the raw weights aggregated, then one division. -/
def kerOut : Arr 16384 256 := fun i =>
  leaky (Ideal.div (∑ e : Fin 8192, hatt x H w1 w2 w3 a1 a2 (i 0) e * ev x H w1 w2 e (i 1)) (den x H w1 w2 w3 a1 a2 (i 0)))

/-- An extended real that is a real number. -/
def Fin' (z : EReal) : Prop := z ≠ ⊤ ∧ z ≠ ⊥

/-- Every input entry is a real number, every hyperedge has nonzero degree and every softmax denominator is
    nonzero: the inputs on which the reference divides by nothing that vanishes. -/
structure Admissible : Prop where
  x_fin : ∀ i, Fin' (x i)
  H_fin : ∀ i, Fin' (H i)
  w1_fin : ∀ i, Fin' (w1 i)
  w2_fin : ∀ i, Fin' (w2 i)
  w3_fin : ∀ i, Fin' (w3 i)
  a1_fin : ∀ i, Fin' (a1 i)
  a2_fin : ∀ i, Fin' (a2 i)
  deg_ne : ∀ e, deg H e ≠ 0
  den_ne : ∀ n, den x H w1 w2 w3 a1 a2 n ≠ 0

end

end Cert.Spec

end
-- ==== Proof.SpecLaw.lean ====
/-
  The two results of the specification agree on admissible inputs.

  Under `Admissible` every intermediate quantity is a real number: finite sums and products of reals are
  real, a quotient by a nonzero real is a product with its reciprocal, the hyperbolic tangent of any
  extended real is a real in [-1, 1], the rectifier maps reals to reals (its slope is a finite constant),
  and the exponential of a real is a real.  With b = den n a nonzero real, both results are the rectifier
  of a real number, and the two real numbers are
    Σ_e (hatt e · b⁻¹) · ev e   and   (Σ_e hatt e · ev e) · b⁻¹,
  which agree by distributivity in ℝ.
-/
import proofs.«421873_j14499809591691_3_alg».proof.Proof.Spec
import Mathlib.Data.EReal.Basic
import Mathlib.Data.EReal.Operations
import Mathlib.Data.EReal.Inv
import Mathlib.Algebra.BigOperators.Ring.Finset

noncomputable section

namespace Cert.Spec

open Idealize.ShloMosaic Idealize.ShloMosaic.ValueIdx

/-! ### Real-valued extended reals -/

theorem Fin'.coe (r : ℝ) : Fin' (r : EReal) := ⟨EReal.coe_ne_top r, EReal.coe_ne_bot r⟩

theorem Fin'.exists_real {z : EReal} (h : Fin' z) : ∃ r : ℝ, z = (r : EReal) := by
  lift z to ℝ using h
  exact ⟨z, rfl⟩

theorem Fin'.mul {a b : EReal} (ha : Fin' a) (hb : Fin' b) : Fin' (a * b) := by
  obtain ⟨r, rfl⟩ := ha.exists_real
  obtain ⟨s, rfl⟩ := hb.exists_real
  rw [← EReal.coe_mul]
  exact Fin'.coe _

theorem Fin'.add {a b : EReal} (ha : Fin' a) (hb : Fin' b) : Fin' (a + b) := by
  obtain ⟨r, rfl⟩ := ha.exists_real
  obtain ⟨s, rfl⟩ := hb.exists_real
  rw [← EReal.coe_add]
  exact Fin'.coe _

theorem Fin'.zero : Fin' (0 : EReal) := Fin'.coe 0

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.sum {ι : Type*} (s : Finset ι) (f : ι → EReal) (h : ∀ i, Fin' (f i)) :
    Fin' (∑ i ∈ s, f i) := by
  choose g hg using fun i => (h i).exists_real
  have : f = fun i => (g i : EReal) := funext hg
  rw [this, ← coe_sum]
  exact Fin'.coe _

/-- The quotient of a real by a nonzero real is a real. -/
theorem Fin'.div {a b : EReal} (ha : Fin' a) (hb : Fin' b) (h0 : b ≠ 0) : Fin' (Ideal.div a b) := by
  obtain ⟨s, rfl⟩ := hb.exists_real
  have hs : s ≠ 0 := by
    intro hs; apply h0; rw [hs]; rfl
  rw [Ideal.div_coe hs]
  exact ha.mul (Fin'.coe _)

/-- The hyperbolic tangent of any extended real is a real. -/
theorem Fin'.tanh (z : EReal) : Fin' (Ideal.tanh z) := by
  induction z using EReal.rec with
  | bot => rw [Ideal.tanh_bot, ← EReal.coe_one, ← EReal.coe_neg]; exact Fin'.coe _
  | top => rw [Ideal.tanh_top, ← EReal.coe_one]; exact Fin'.coe _
  | coe r => rw [Ideal.tanh_coe]; exact Fin'.coe _

/-- The exponential of a real is a real. -/
theorem Fin'.exp {z : EReal} (h : Fin' z) : Fin' (Ideal.exp z) := by
  obtain ⟨r, rfl⟩ := h.exists_real
  rw [Ideal.exp_coe]
  exact Fin'.coe _

/-- A binary pattern whose exponent field is not all ones denotes a real. -/
theorem Fin'.ieee (e m : Nat) {w : Nat} (b : BitVec w) (h : (b.extractLsb' m e).toNat ≠ 2 ^ e - 1) :
    Fin' (Ideal.ieee e m b) := by
  unfold Ideal.ieee
  simp only []
  rw [if_neg h]
  split_ifs <;> exact Fin'.coe _

/-- The rectifier's slope is a real. -/
theorem Fin'.slope : Fin' (Ideal.ofBits .f32 0x3DCCCCCD#32) := by
  show Fin' (Ideal.ieee 8 23 (0x3DCCCCCD#32 : BitVec 32))
  exact Fin'.ieee 8 23 _ (by decide)

/-- The rectifier maps reals to reals. -/
theorem Fin'.leaky {z : EReal} (h : Fin' z) : Fin' (leaky z) := by
  unfold Cert.Spec.leaky Scalar.select
  split_ifs
  · exact h
  · exact Fin'.slope.mul h

/-! ### Every intermediate quantity is a real -/

section
variable {x : Arr 16384 256} {H : Arr 16384 8192} {w1 w2 w3 : Arr 256 256} {a1 a2 : Arr 256 1}

theorem xw_fin (h : Admissible x H w1 w2 w3 a1 a2) (n : Fin 16384) (d : Fin 256) : Fin' (xw x w1 n d) :=
  Fin'.sum _ _ fun _ => (h.x_fin _).mul (h.w1_fin _)

theorem enum_fin (h : Admissible x H w1 w2 w3 a1 a2) (e : Fin 8192) (d : Fin 256) :
    Fin' (enum x H w1 e d) :=
  Fin'.sum _ _ fun _ => (h.H_fin _).mul (xw_fin h _ _)

theorem deg_fin (h : Admissible x H w1 w2 w3 a1 a2) (e : Fin 8192) : Fin' (deg H e) :=
  Fin'.sum _ _ fun _ => h.H_fin _

theorem en_fin (h : Admissible x H w1 w2 w3 a1 a2) (e : Fin 8192) (d : Fin 256) :
    Fin' (en x H w1 e d) :=
  (enum_fin h e d).div (deg_fin h e) (h.deg_ne e)

theorem ev_fin (h : Admissible x H w1 w2 w3 a1 a2) (e : Fin 8192) (d : Fin 256) :
    Fin' (ev x H w1 w2 e d) :=
  Fin'.sum _ _ fun _ => (en_fin h _ _).mul (h.w2_fin _)

theorem sc_fin (n : Fin 16384) (e : Fin 8192) : Fin' (sc x H w1 w2 w3 a1 a2 n e) :=
  ((Fin'.tanh _).mul (Fin'.coe _)).leaky

theorem hatt_fin (h : Admissible x H w1 w2 w3 a1 a2) (n : Fin 16384) (e : Fin 8192) :
    Fin' (hatt x H w1 w2 w3 a1 a2 n e) :=
  (sc_fin n e).exp.mul (h.H_fin _)

theorem den_fin (h : Admissible x H w1 w2 w3 a1 a2) (n : Fin 16384) :
    Fin' (den x H w1 w2 w3 a1 a2 n) :=
  Fin'.sum _ _ fun _ => hatt_fin h _ _

end

/-! ### Scaling each weight or scaling the aggregate -/

/-- For real-valued `f`, `g` and a real `c`: Σ (f e · c) · g e = (Σ f e · g e) · c. -/
theorem sum_scale {ι : Type*} (s : Finset ι) (f g : ι → EReal) (hf : ∀ i, Fin' (f i))
    (hg : ∀ i, Fin' (g i)) (c : ℝ) :
    ∑ i ∈ s, (f i * (c : EReal)) * g i = (∑ i ∈ s, f i * g i) * (c : EReal) := by
  choose f' hf' using fun i => (hf i).exists_real
  choose g' hg' using fun i => (hg i).exists_real
  have e1 : ∀ i, (f i * (c : EReal)) * g i = ((f' i * c * g' i : ℝ) : EReal) := fun i => by
    rw [hf' i, hg' i, EReal.coe_mul, EReal.coe_mul]
  have e2 : ∀ i, f i * g i = ((f' i * g' i : ℝ) : EReal) := fun i => by
    rw [hf' i, hg' i, EReal.coe_mul]
  rw [Finset.sum_congr rfl fun i _ => e1 i, Finset.sum_congr rfl fun i _ => e2 i, ← coe_sum, ← coe_sum,
    ← EReal.coe_mul, Finset.sum_mul]
  congr 1
  exact Finset.sum_congr rfl fun i _ => by ring

/-- On admissible inputs the kernel's result is the reference's. -/
theorem kerOut_eq_refOut (x : Arr 16384 256) (H : Arr 16384 8192) (w1 w2 w3 : Arr 256 256)
    (a1 a2 : Arr 256 1) (h : Admissible x H w1 w2 w3 a1 a2) :
    kerOut x H w1 w2 w3 a1 a2 = refOut x H w1 w2 w3 a1 a2 := by
  funext i
  unfold kerOut refOut
  obtain ⟨b, hb⟩ := (den_fin h (i 0)).exists_real
  have hb0 : b ≠ 0 := by
    intro hb0
    apply h.den_ne (i 0)
    rw [hb, hb0]; rfl
  refine congrArg leaky ?_
  rw [hb, Ideal.div_coe hb0]
  simp only [Ideal.div_coe hb0]
  exact (sum_scale _ _ _ (fun e => hatt_fin h (i 0) e) (fun e => ev_fin h e (i 1)) _).symm

end Cert.Spec

end
-- ==== Proof.RefSpec.lean ====
/-
  The reference program, read one operation at a time, computes the specification's functions: every host
  contraction is the finite sum it denotes, every broadcast or transpose is a change of coordinates, the quotient
  by the constant 8 is the product with 1/8, and the two rectifiers are the specification's `leaky`.
-/
import proofs.«421873_j14499809591691_3_alg».proof.Proof.Gen.ReferenceIdeal.Read
import proofs.«421873_j14499809591691_3_alg».proof.Proof.Spec

noncomputable section

namespace Cert.RefSpec

open Idealize.ShloMosaic Idealize.ShloMosaic.ValueIdx Cert.ReferenceIdeal Cert.ReferenceIdeal.Gen Cert.ReferenceIdeal.Read

/-- Two rank-2 indices with the same coordinates are equal. -/
macro "ix_ext2" : tactic =>
  `(tactic| exact funext fun a => Fin.ext (by match a with | ⟨0, _⟩ => rfl | ⟨1, _⟩ => rfl))

/-- The pattern of `8.0` denotes the real number 8. -/
theorem ofBits_eight : Ideal.ofBits .f32 0x41000000#32 = ((8 : ℝ) : EReal) := by
  simp [Ideal.ofBits, Ideal.ieee, -EReal.coe_mul]; norm_num

variable (x0 : (⟨S16384x256, .f32⟩ : BufTy).Contents (Elt Ideal)) (x1 : (⟨S16384x8192, .f32⟩ : BufTy).Contents (Elt Ideal))
  (x2 x3 x4 : (⟨S256x256, .f32⟩ : BufTy).Contents (Elt Ideal)) (x5 x6 : (⟨S256x1, .f32⟩ : BufTy).Contents (Elt Ideal))

/-! ## Projected features, aggregate, degree, normalised features -/

/-- The first contraction is the projection `xw`. -/
theorem xw_eq (n : Fin 16384) (d : Fin 256) : val_main_v1 (F := Ideal) x0 x2 (ix2 n d) = Spec.xw x0 x2 n d := by
  rw [val_main_v1_apply]
  refine Finset.sum_congr rfl fun k _ => ?_
  rw [show lidx_main_v1 (ix2 n d) k = ix2 n k by ix_ext2, show ridx_main_v1 (ix2 n d) k = ix2 k d by ix_ext2]

/-- The transposed incidence read at `(e, n)` is the incidence at `(n, e)`. -/
theorem v0_eq (e : Fin 8192) (n : Fin 16384) : val_main_v0 (F := Ideal) x1 (ix2 e n) = x1 (ix2 n e) := by
  rw [val_main_v0_apply, show idx_main_v0 (ix2 e n) = ix2 n e by ix_ext2]

/-- The second contraction is the aggregate `enum`. -/
theorem enum_eq (e : Fin 8192) (d : Fin 256) : val_main_v2 (F := Ideal) x0 x1 x2 (ix2 e d) = Spec.enum x0 x1 x2 e d := by
  rw [val_main_v2_apply]
  refine Finset.sum_congr rfl fun n _ => ?_
  rw [show lidx_main_v2 (ix2 e d) n = ix2 e n by ix_ext2, show ridx_main_v2 (ix2 e d) n = ix2 n d by ix_ext2, v0_eq, xw_eq]

/-- The column sum of the incidence, broadcast to a column, is the degree. -/
theorem deg_eq (i : S8192x1.Idx) : val_main_v4 (F := Ideal) x1 i = Spec.deg x1 (i 0) := by
  rw [val_main_v4_apply, val_main_v3_apply, val_main_cst_apply, Ideal.ofBits_def, Ideal.ofBits_zero_f32, zero_add]
  exact Finset.sum_congr rfl fun n _ => congrArg x1 (by ix_ext2)

/-- The quotient of the aggregate by the broadcast degree is `en`. -/
theorem en_eq (e : Fin 8192) (d : Fin 256) : val_main_v6 (F := Ideal) x0 x1 x2 (ix2 e d) = Spec.en x0 x1 x2 e d := by
  rw [val_main_v6_apply, val_main_v5_apply, deg_eq, enum_eq, Ideal.hostDivf_def]
  rfl

/-- The contraction of `en` with the second weight matrix is `ev`. -/
theorem ev_eq (e : Fin 8192) (d : Fin 256) : val_main_v31 (F := Ideal) x0 x1 x2 x3 (ix2 e d) = Spec.ev x0 x1 x2 x3 e d := by
  rw [val_main_v31_apply]
  refine Finset.sum_congr rfl fun k _ => ?_
  rw [show lidx_main_v31 (ix2 e d) k = ix2 e k by ix_ext2, show ridx_main_v31 (ix2 e d) k = ix2 k d by ix_ext2, en_eq]

/-! ## The two scores -/

theorem wa2_eq (k : Fin 256) : val_main_v7 (F := Ideal) x3 x6 (ix2 k (0 : Fin 1)) = Spec.wa2 x3 x6 k := by
  rw [val_main_v7_apply]
  refine Finset.sum_congr rfl fun j _ => ?_
  rw [show lidx_main_v7 (ix2 k (0 : Fin 1)) j = ix2 k j by ix_ext2, show ridx_main_v7 (ix2 k (0 : Fin 1)) j = ix2 j (0 : Fin 1) by ix_ext2]

theorem esc_eq (e : Fin 8192) : val_main_v8 (F := Ideal) x0 x1 x2 x3 x6 (ix2 e (0 : Fin 1)) = Spec.esc x0 x1 x2 x3 x6 e := by
  rw [val_main_v8_apply]
  refine Finset.sum_congr rfl fun k _ => ?_
  rw [show lidx_main_v8 (ix2 e (0 : Fin 1)) k = ix2 e k by ix_ext2, show ridx_main_v8 (ix2 e (0 : Fin 1)) k = ix2 k (0 : Fin 1) by ix_ext2, en_eq, wa2_eq]

theorem wa1_eq (k : Fin 256) : val_main_v10 (F := Ideal) x4 x5 (ix2 k (0 : Fin 1)) = Spec.wa1 x4 x5 k := by
  rw [val_main_v10_apply]
  refine Finset.sum_congr rfl fun j _ => ?_
  rw [show lidx_main_v10 (ix2 k (0 : Fin 1)) j = ix2 k j by ix_ext2, show ridx_main_v10 (ix2 k (0 : Fin 1)) j = ix2 j (0 : Fin 1) by ix_ext2]

theorem xsc_eq (n : Fin 16384) : val_main_v11 (F := Ideal) x0 x4 x5 (ix2 n (0 : Fin 1)) = Spec.xsc x0 x4 x5 n := by
  rw [val_main_v11_apply]
  refine Finset.sum_congr rfl fun k _ => ?_
  rw [show lidx_main_v11 (ix2 n (0 : Fin 1)) k = ix2 n k by ix_ext2, show ridx_main_v11 (ix2 n (0 : Fin 1)) k = ix2 k (0 : Fin 1) by ix_ext2, wa1_eq]

/-! ## The clamped logit, its rectifier, the weights and their sum -/

/-- Eight times the hyperbolic tangent of an eighth of the summed scores. -/
theorem v19_eq (n : Fin 16384) (e : Fin 8192) : val_main_v19 (F := Ideal) x0 x1 x2 x3 x4 x5 x6 (ix2 n e)
    = Ideal.tanh ((Spec.esc x0 x1 x2 x3 x6 e + Spec.xsc x0 x4 x5 n) * ((1 / 8 : ℝ) : EReal)) * ((8 : ℝ) : EReal) := by
  rw [val_main_v19_apply, val_main_v17_apply, val_main_v16_apply, val_main_v14_apply, val_main_v12_apply,
    val_main_v9_apply, val_main_v13_apply, val_main_v15_apply, val_main_v18_apply, val_main_cst_0_apply,
    val_main_cst_1_apply,
    show idx_main_v9 (idx_main_v12 (ix2 n e)) = ix2 e (0 : Fin 1) by ix_ext2,
    show idx_main_v13 (ix2 n e) = ix2 n (0 : Fin 1) by ix_ext2, esc_eq, xsc_eq]
  simp only [Ideal.mulf_def, Ideal.hostUnary_tanh_def, Ideal.hostDivf_def, Ideal.addf_def, Ideal.ofBits_def,
    ofBits_eight, Ideal.div_coe (by norm_num : (8 : ℝ) ≠ 0)]

/-- The first rectifier applied to the clamped logit is `sc`. -/
theorem sc_eq (n : Fin 16384) (e : Fin 8192) : val_main_v24 (F := Ideal) x0 x1 x2 x3 x4 x5 x6 (ix2 n e)
    = Spec.sc x0 x1 x2 x3 x4 x5 x6 n e := by
  rw [val_main_v24_apply, val_main_v21_apply, val_main_v23_apply, val_main_v20_apply, val_main_v22_apply,
    val_main_cst_2_apply, val_main_cst_3_apply, v19_eq]
  rfl

/-- The exponential of `sc` masked by the incidence is `hatt`. -/
theorem hatt_eq (n : Fin 16384) (e : Fin 8192) : val_main_v26 (F := Ideal) x0 x1 x2 x3 x4 x5 x6 (ix2 n e)
    = Spec.hatt x0 x1 x2 x3 x4 x5 x6 n e := by
  rw [val_main_v26_apply, val_main_v25_apply, sc_eq]
  simp only [Ideal.mulf_def, Ideal.hostUnary_exp_def, Spec.hatt]

/-- The row sum of the weights, broadcast to a column, is the denominator. -/
theorem den_eq' (n : Fin 16384) (z : Fin 1) : val_main_v28 (F := Ideal) x0 x1 x2 x3 x4 x5 x6 (ix2 n z)
    = Spec.den x0 x1 x2 x3 x4 x5 x6 n := by
  rw [val_main_v28_apply, val_main_v27_apply, val_main_cst_4_apply, Ideal.ofBits_def, Ideal.ofBits_zero_f32, zero_add]
  refine Finset.sum_congr rfl fun e _ => ?_
  rw [show idx_main_v27 (idx_main_v28 (ix2 n z)) e = ix2 n e by ix_ext2, hatt_eq]

theorem den_eq (i : S16384x1.Idx) : val_main_v28 (F := Ideal) x0 x1 x2 x3 x4 x5 x6 i
    = Spec.den x0 x1 x2 x3 x4 x5 x6 (i 0) := by
  obtain ⟨n, z, rfl⟩ : ∃ (n : Fin 16384) (z : Fin 1), i = ix2 n z := ⟨i 0, i 1, eq_ix2 i⟩
  exact den_eq' x0 x1 x2 x3 x4 x5 x6 n z

/-! ## The result -/

/-- The aggregate of the normalised weights. -/
theorem v32_eq (n : Fin 16384) (d : Fin 256) : val_main_v32 (F := Ideal) x0 x1 x2 x3 x4 x5 x6 (ix2 n d)
    = ∑ e : Fin 8192, Ideal.div (Spec.hatt x0 x1 x2 x3 x4 x5 x6 n e) (Spec.den x0 x1 x2 x3 x4 x5 x6 n)
        * Spec.ev x0 x1 x2 x3 e d := by
  rw [val_main_v32_apply]
  refine Finset.sum_congr rfl fun e _ => ?_
  rw [show lidx_main_v32 (ix2 n d) e = ix2 n e by ix_ext2, show ridx_main_v32 (ix2 n d) e = ix2 e d by ix_ext2,
    val_main_v30_apply, val_main_v29_apply, show idx_main_v29 (ix2 n e) = ix2 n (0 : Fin 1) by ix_ext2,
    den_eq', hatt_eq, ev_eq, Ideal.hostDivf_def]

/-- The reference's result is `refOut`. -/
theorem ref_eq : val_main_v37 (F := Ideal) x0 x1 x2 x3 x4 x5 x6 = Spec.refOut x0 x1 x2 x3 x4 x5 x6 := by
  funext i
  obtain ⟨n, d, rfl⟩ : ∃ (n : Fin 16384) (d : Fin 256), i = ix2 n d := ⟨i 0, i 1, eq_ix2 i⟩
  rw [val_main_v37_apply, val_main_v34_apply, val_main_v36_apply, val_main_v33_apply, val_main_v35_apply,
    val_main_cst_5_apply, val_main_cst_6_apply, v32_eq]
  rfl

end Cert.RefSpec

end
-- ==== Proof.PreFacts.lean ====
/-
  The precondition, decoded. The predicate computes, operation for operation as the reference does, the hyperedge
  degrees deg e = Σ_n H n e (an [8192, 1] array) and the softmax denominators den n = Σ_e exp (sc n e) · H n e (a
  [16384, 1] array), and answers the conjunction of: every deg e ≠ 0; every den n ≠ 0; and, for each of the seven
  arguments, every entry z has |z| < +∞. Each test is an "and" over all entries of an elementwise comparison, so the
  answer 1 gives the comparison at every index. Over the extended reals |z| = max z (−z) < ⊤ says z ≠ ⊤ and z ≠ ⊥,
  and "not equal to the word of 0.0" says the value is not 0. The degrees and denominators the predicate tests are the
  reference's own values of those operations: the same composition of the same operations on the same arguments.
-/
import proofs.«421873_j14499809591691_3_alg».proof.Pre_finite_inputs
import proofs.«421873_j14499809591691_3_alg».proof.Proof.Gen.Pre_finite_inputs
import proofs.«421873_j14499809591691_3_alg».proof.Proof.Gen.ReferenceIdeal.Read
import proofs.«421873_j14499809591691_3_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Idealize.ShloMosaic.ValueIdx

/-- A rank-0 array has one index. -/
instance : Subsingleton (⟨0, ![]⟩ : Shape).Idx := ⟨fun a b => funext fun d => d.elim0⟩

/-- The word 0x7F800000 denotes +∞. -/
theorem ofBits_inf : Ideal.ofBits .f32 0x7F800000#32 = (⊤ : EReal) := by simp [Ideal.ofBits, Ideal.ieee]

/-- |z| < +∞ says z is a real number. -/
theorem fin_of_abs_lt (z : EReal)
    (h : Ideal.cmp .olt (max z (-z)) (Ideal.ofBits .f32 0x7F800000#32) = 1#1) : Cert.Spec.Fin' z := by
  rw [ofBits_inf] at h
  change BitVec.ofBool (decide (max z (-z) < ⊤)) = 1#1 at h
  rw [StableHlo.Predicate.ofBool_eq_one_iff, decide_eq_true_eq, max_lt_iff] at h
  have h' := h
  refine ⟨ne_of_lt h'.1, ?_⟩
  intro hz
  subst hz
  simp at h'

/-- The comparison "not equal to the zero word" says the value is not zero. -/
theorem ne_zero_of_une (a : EReal)
    (h : Ideal.cmp .une a (Ideal.ofBits .f32 0x00000000#32) = 1#1) : a ≠ 0 := by
  rw [Ideal.ofBits_zero_f32] at h
  change BitVec.ofBool (decide (a ≠ 0)) = 1#1 at h
  rwa [StableHlo.Predicate.ofBool_eq_one_iff, decide_eq_true_eq] at h

section
variable {s : Shape} {axes : List (Fin s.rank)}

/-- all(|x| < +∞), read back at an index. -/
theorem all_fin (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (e : Host.reduce IntOp.andi
          (cmpf .olt (Host.absf x) (broadcastInDim s ![] hb (constant (F := Ideal) (⟨0, ![]⟩ : Shape) .f32 0x7F800000#32)))
          init hr hu j = 1#1) (i : s.Idx) : Cert.Spec.Fin' (x i) :=
  fin_of_abs_lt (x i) (Host.reduce_andi_all _ init hr hu j e i)

/-- all(v ≠ 0), read back at an index. -/
theorem all_ne (v : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (e : Host.reduce IntOp.andi
          (cmpf .une v (broadcastInDim s ![] hb (constant (F := Ideal) (⟨0, ![]⟩ : Shape) .f32 0x00000000#32)))
          init hr hu j = 1#1) (i : s.Idx) : (v i : EReal) ≠ 0 :=
  ne_zero_of_une (v i) (Host.reduce_andi_all _ init hr hu j e i)
end

open Cert.Pre_finite_inputs in
/-- The predicate, as the conjunction it is: the two "no divisor vanishes" tests on the reference's own
    hyperedge degrees and softmax denominators, then the seven "every entry is a real number" tests. -/
theorem fn_eq (x0 : FVec Ideal Cert.Pre_finite_inputs.S16384x256 .f32) (x1 : FVec Ideal Cert.Pre_finite_inputs.S16384x8192 .f32)
    (x2 x3 x4 : FVec Ideal Cert.Pre_finite_inputs.S256x256 .f32) (x5 x6 : FVec Ideal Cert.Pre_finite_inputs.S256x1 .f32) :
    Cert.Pre_finite_inputs.fn (F := Ideal) x0 x1 x2 x3 x4 x5 x6 =
      andi (andi (andi (andi (andi (andi (andi (andi
        (Host.reduce IntOp.andi (cmpf .une (Cert.ReferenceIdeal.Read.val_main_v4 (F := Ideal) x1) (broadcastInDim S8192x1 ![] Facts.bcast_S_S8192x1 (constant (F := Ideal) S_ .f32 0x00000000#32))) (constantI S_ 1 1#1) Facts.reducesTo_S8192x1_S_d0_1 Facts.h_S_)
        (Host.reduce IntOp.andi (cmpf .une (Cert.ReferenceIdeal.Read.val_main_v28 (F := Ideal) x0 x1 x2 x3 x4 x5 x6) (broadcastInDim S16384x1 ![] Facts.bcast_S_S16384x1 (constant (F := Ideal) S_ .f32 0x00000000#32))) (constantI S_ 1 1#1) Facts.reducesTo_S16384x1_S_d0_1 Facts.h_S_))
        (Host.reduce IntOp.andi (cmpf .olt (Host.absf x0) (broadcastInDim S16384x256 ![] Facts.bcast_S_S16384x256 (constant (F := Ideal) S_ .f32 0x7F800000#32))) (constantI S_ 1 1#1) Facts.reducesTo_S16384x256_S_d0_1 Facts.h_S_))
        (Host.reduce IntOp.andi (cmpf .olt (Host.absf x1) (broadcastInDim S16384x8192 ![] Facts.bcast_S_S16384x8192 (constant (F := Ideal) S_ .f32 0x7F800000#32))) (constantI S_ 1 1#1) Facts.reducesTo_S16384x8192_S_d0_1 Facts.h_S_))
        (Host.reduce IntOp.andi (cmpf .olt (Host.absf x2) (broadcastInDim S256x256 ![] Facts.bcast_S_S256x256 (constant (F := Ideal) S_ .f32 0x7F800000#32))) (constantI S_ 1 1#1) Facts.reducesTo_S256x256_S_d0_1 Facts.h_S_))
        (Host.reduce IntOp.andi (cmpf .olt (Host.absf x3) (broadcastInDim S256x256 ![] Facts.bcast_S_S256x256 (constant (F := Ideal) S_ .f32 0x7F800000#32))) (constantI S_ 1 1#1) Facts.reducesTo_S256x256_S_d0_1 Facts.h_S_))
        (Host.reduce IntOp.andi (cmpf .olt (Host.absf x4) (broadcastInDim S256x256 ![] Facts.bcast_S_S256x256 (constant (F := Ideal) S_ .f32 0x7F800000#32))) (constantI S_ 1 1#1) Facts.reducesTo_S256x256_S_d0_1 Facts.h_S_))
        (Host.reduce IntOp.andi (cmpf .olt (Host.absf x5) (broadcastInDim S256x1 ![] Facts.bcast_S_S256x1 (constant (F := Ideal) S_ .f32 0x7F800000#32))) (constantI S_ 1 1#1) Facts.reducesTo_S256x1_S_d0_1 Facts.h_S_))
        (Host.reduce IntOp.andi (cmpf .olt (Host.absf x6) (broadcastInDim S256x1 ![] Facts.bcast_S_S256x1 (constant (F := Ideal) S_ .f32 0x7F800000#32))) (constantI S_ 1 1#1) Facts.reducesTo_S256x1_S_d0_1 Facts.h_S_) := rfl

/-- A conjunction of two i1 arrays that is 1 at an index has both 1 there. -/
theorem andi_split {s : Shape} (a b : IVec s 1) (j : s.Idx) (h : andi a b j = 1#1) : a j = 1#1 ∧ b j = 1#1 :=
  IntOp.andi_eq_one.1 h

/-- THE PRECONDITION DECODED: every entry of the seven arguments is a real number, no hyperedge degree of the
    reference vanishes and no softmax denominator of the reference vanishes. -/
theorem pre_facts (x0 : FVec Ideal Cert.Pre_finite_inputs.S16384x256 .f32) (x1 : FVec Ideal Cert.Pre_finite_inputs.S16384x8192 .f32)
    (x2 x3 x4 : FVec Ideal Cert.Pre_finite_inputs.S256x256 .f32) (x5 x6 : FVec Ideal Cert.Pre_finite_inputs.S256x1 .f32)
    (h : Cert.Pre_finite_inputs.fn (F := Ideal) x0 x1 x2 x3 x4 x5 x6 = fun _ => 1#1) :
    (∀ i, Cert.Spec.Fin' (x0 i)) ∧ (∀ i, Cert.Spec.Fin' (x1 i)) ∧ (∀ i, Cert.Spec.Fin' (x2 i))
      ∧ (∀ i, Cert.Spec.Fin' (x3 i)) ∧ (∀ i, Cert.Spec.Fin' (x4 i)) ∧ (∀ i, Cert.Spec.Fin' (x5 i))
      ∧ (∀ i, Cert.Spec.Fin' (x6 i))
      ∧ (∀ i, (Cert.ReferenceIdeal.Read.val_main_v4 (F := Ideal) x1 i : EReal) ≠ 0)
      ∧ (∀ i, (Cert.ReferenceIdeal.Read.val_main_v28 (F := Ideal) x0 x1 x2 x3 x4 x5 x6 i : EReal) ≠ 0) := by
  have e := congrFun h ix0
  rw [fn_eq] at e
  obtain ⟨e, e6⟩ := andi_split _ _ _ e
  obtain ⟨e, e5⟩ := andi_split _ _ _ e
  obtain ⟨e, e4⟩ := andi_split _ _ _ e
  obtain ⟨e, e3⟩ := andi_split _ _ _ e
  obtain ⟨e, e2⟩ := andi_split _ _ _ e
  obtain ⟨e, e1⟩ := andi_split _ _ _ e
  obtain ⟨e, e0⟩ := andi_split _ _ _ e
  obtain ⟨edeg, eden⟩ := andi_split _ _ _ e
  exact ⟨all_fin x0 _ _ _ _ _ e0, all_fin x1 _ _ _ _ _ e1, all_fin x2 _ _ _ _ _ e2, all_fin x3 _ _ _ _ _ e3,
    all_fin x4 _ _ _ _ _ e4, all_fin x5 _ _ _ _ _ e5, all_fin x6 _ _ _ _ _ e6,
    all_ne _ _ _ _ _ _ edeg, all_ne _ _ _ _ _ _ eden⟩

end Cert.PreFacts

end
-- ==== Proof.KI.Shared.lean ====
/-
  What the two kernels' point-by-point accounts share. Both kernels sweep an inner grid axis of 16 steps per
  outer block: at the first step (inner index 0) they reset their two scratch accumulators, at every step
  they add the step's contribution, and at the last step (inner index 15) they store the accumulated values
  into the output blocks. So every point falls in one of three cases: FIRST (reset, accumulate; outputs
  untouched), MIDDLE (accumulate; outputs untouched), LAST (accumulate, store the outputs). This module
  decides over the two grids which points are which, where the output windows are idle, and names the
  staging and scratch memrefs the kernels are called with.
-/
import proofs.«421873_j14499809591691_3_alg».proof.Proof.Gen.KernelIdeal.Launch
import proofs.«421873_j14499809591691_3_alg».proof.Proof.Gen.KernelIdeal.Skeleton
import proofs.«421873_j14499809591691_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## First kernel (grid 4 × 16, point t = 16·(edge block) + (node step)) -/

/-- The node step is 0: the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The node step is 15: the accumulated block is stored to the outputs. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last step both outputs are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last step both outputs are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
/-- The two accumulators: the [2048, 256] numerator block and the [1, 2048] degree row. -/
abbrev scM0_0 : Memref sig .tc .vmem S2048x256 .f32 := Memref.whole cc0_scratch0
abbrev scM0_1 : Memref sig .tc .vmem S1x2048 .f32 := Memref.whole cc0_scratch1
abbrev VS0_0 : View sig .tc .vmem S2048x256 .f32 := scM0_0.view
abbrev VS0_1 : View sig .tc .vmem S1x2048 .f32 := scM0_1.view
abbrev VO0_2 : View sig .tc .vmem S2048x256 .f32 := (Memref.whole cc0_stg2_0 : Memref sig .tc .vmem S2048x256 .f32).view
abbrev VO0_3 : View sig .tc .vmem S1x2048 .f32 := (Memref.whole cc0_stg3_0 : Memref sig .tc .vmem S1x2048 .f32).view

/-- The scoped buffers the first kernel does not name, at anything. -/
abbrev others0 (c : Dev nD) : sProp 𝕄 :=
  Pipeline.scopedRestBut (Ix := Unit) (Name := ℕ) (U := UR sig nD τ) (Lvl := ℕ) (Val := Elt F) spec0 c [cc0_scratch0, cc0_scratch1]

/-- What the region hands its body besides the windows: the two accumulators at anything, the other scoped buffers,
    the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ others0 c) ∗ (∃ r, prngReg c r)) := by
  unfold Pipeline.ΦA
  rw [Pipeline.scopedRest_split_of_list spec0 c [cc0_scratch0, cc0_scratch1] (by decide) (by decide)]
  simp only [scM0_0, scM0_1, owns_whole, bigSepL]
  rfl

/-! ## Second kernel (grid 8 × 16, point t = 16·(node block) + (edge step)) -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x256 .f32 := win1_4.stage (cfg1.slots t 4)
abbrev hs1_4 (t : Fin cfg1.N) : (ms1_4 t).IsWhole := hstage1_4 ((cfg1.slots t 4).cast nbuf1_4)
/-- The two accumulators: the [2048, 256] weighted aggregate and the [2048, 1] row sum of the weights. -/
abbrev scM1_0 : Memref sig .tc .vmem S2048x256 .f32 := Memref.whole cc1_scratch0
abbrev scM1_1 : Memref sig .tc .vmem S2048x1 .f32 := Memref.whole cc1_scratch1
abbrev VS1_0 : View sig .tc .vmem S2048x256 .f32 := scM1_0.view
abbrev VS1_1 : View sig .tc .vmem S2048x1 .f32 := scM1_1.view
abbrev VO1_4 : View sig .tc .vmem S2048x256 .f32 := (Memref.whole cc1_stg4_0 : Memref sig .tc .vmem S2048x256 .f32).view

abbrev others1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ others1 c) ∗ (∃ r, prngReg c r)) := by
  unfold Pipeline.ΦA
  rw [Pipeline.scopedRest_split_of_list spec1 c [cc1_scratch0, cc1_scratch1] (by decide) (by decide)]
  simp only [scM1_0, scM1_1, owns_whole, bigSepL]
  rfl

end Cert.KernelIdeal.Hand

end
-- ==== Proof.KI.Run0A.lean ====
/-
  The first kernel's body at the FIRST point of a sweep (node step 0): it zeroes both accumulators, then adds the
  step's contribution — the contraction of the incidence block with the projected-feature block over the block's
  1024 nodes, and the incidence block's column sums — and touches neither output.
  Stated on any whole memrefs: the inputs keep their contents, an untouched output is handed back as found, and
  each buffer the body stores into ends with the pieces its stores wrote (found by running the body).
-/
import proofs.«421873_j14499809591691_3_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i)
    (x0 : Vec F S1024x2048 .f32) (x1 : Vec F S1024x256 .bf16) :
    Σ' (LS0 : List (View.Piece (Elt F) S2048x256 .f32)), { LS1 : List (View.Piece (Elt F) S1x2048 .f32) //
      ∀ (xi2 : Vec F S2048x256 .f32) (xi3 : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, ?_, fun xi2 xi3 E K => ?run⟩
  case run =>
    simp only [cc0__kernel1_eq_skeleton]; unfold cc0__kernel1_skel
    unfold owns
    iintro ⟨⟨%fi0, %hfi0, HI0⟩, ⟨%fi1, %hfi1, HI1⟩, ⟨%fo2, %hfo2, HO2⟩, ⟨%fo3, %hfo3, HO3⟩, ⟨%ds0, %fs0, -, HS0⟩, ⟨%ds1, %fs1, -, HS1⟩, Hk⟩
    obtain rfl := harg2.eq_unread hfi0; obtain rfl := harg3.eq_unread hfi1; obtain rfl := harg4.eq_unread hfo2; obtain rfl := harg5.eq_unread hfo3
    sl_exec (disch := first | exact hc0 | exact hc1)
    sl_step
    iapply Hk
    isplitl [HI0]
    · iexists _; isplitr; · ipureintro; exact harg2.read_unread _
      iexact HI0
    isplitl [HI1]
    · iexists _; isplitr; · ipureintro; exact harg3.read_unread _
      iexact HI1
    isplitl [HO2]
    · iexists _; isplitr; · ipureintro; exact harg4.read_unread _
      iexact HO2
    isplitl [HO3]
    · iexists _; isplitr; · ipureintro; exact harg5.read_unread _
      iexact HO3
    isplitl [HS0]
    · iexists _; iexact HS0
    iexists _; iexact HS1

end Cert.KernelIdeal.Hand

end
-- ==== Proof.KI.Run0B.lean ====
/-
  The first kernel's body at a MIDDLE point of a sweep (node step strictly between 0 and 15): it adds the step's
  contribution to both accumulators over what the point before left and touches neither output.
  Stated on any whole memrefs: the inputs keep their contents, an untouched output is handed back as found, and
  each buffer the body stores into ends with the pieces its stores wrote (found by running the body).
-/
import proofs.«421873_j14499809591691_3_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i)
    (x0 : Vec F S1024x2048 .f32) (x1 : Vec F S1024x256 .bf16) (xs0 : Vec F S2048x256 .f32) (xs1 : Vec F S1x2048 .f32) :
    Σ' (LS0 : List (View.Piece (Elt F) S2048x256 .f32)), { LS1 : List (View.Piece (Elt F) S1x2048 .f32) //
      ∀ (xi2 : Vec F S2048x256 .f32) (xi3 : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, ?_, fun xi2 xi3 E K => ?run⟩
  case run =>
    simp only [cc0__kernel1_eq_skeleton]; unfold cc0__kernel1_skel
    unfold owns
    iintro ⟨⟨%fi0, %hfi0, HI0⟩, ⟨%fi1, %hfi1, HI1⟩, ⟨%fo2, %hfo2, HO2⟩, ⟨%fo3, %hfo3, HO3⟩, ⟨%fs0, %hfs0, HS0⟩, ⟨%fs1, %hfs1, HS1⟩, Hk⟩
    obtain rfl := harg2.eq_unread hfi0; obtain rfl := harg3.eq_unread hfi1; obtain rfl := harg4.eq_unread hfo2; obtain rfl := harg5.eq_unread hfo3; obtain rfl := harg6.eq_unread hfs0; obtain rfl := harg7.eq_unread hfs1
    sl_exec (disch := first | exact hc0 | exact hc1)
    sl_step
    iapply Hk
    isplitl [HI0]
    · iexists _; isplitr; · ipureintro; exact harg2.read_unread _
      iexact HI0
    isplitl [HI1]
    · iexists _; isplitr; · ipureintro; exact harg3.read_unread _
      iexact HI1
    isplitl [HO2]
    · iexists _; isplitr; · ipureintro; exact harg4.read_unread _
      iexact HO2
    isplitl [HO3]
    · iexists _; isplitr; · ipureintro; exact harg5.read_unread _
      iexact HO3
    isplitl [HS0]
    · iexists _; iexact HS0
    iexists _; iexact HS1

end Cert.KernelIdeal.Hand

end
-- ==== Proof.KI.Run0C.lean ====
/-
  The first kernel's body at the LAST point of a sweep (node step 15): it adds the step's contribution to both
  accumulators over what the point before left, then copies the numerator accumulator into the numerator output
  block and the degree accumulator into the degree output block.
  Stated on any whole memrefs: the inputs keep their contents, an untouched output is handed back as found, and
  each buffer the body stores into ends with the pieces its stores wrote (found by running the body).
-/
import proofs.«421873_j14499809591691_3_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) :
    Σ' (L2 : List (View.Piece (Elt F) S2048x256 .f32)), Σ' (L3 : List (View.Piece (Elt F) S1x2048 .f32)), Σ' (LS0 : List (View.Piece (Elt F) S2048x256 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, ?_, ?_, ?_, fun E K => ?run⟩
  case run =>
    simp only [cc0__kernel1_eq_skeleton]; unfold cc0__kernel1_skel
    unfold owns
    iintro ⟨⟨%fi0, %hfi0, HI0⟩, ⟨%fi1, %hfi1, HI1⟩, ⟨%do2, %fo2, -, HO2⟩, ⟨%do3, %fo3, -, HO3⟩, ⟨%fs0, %hfs0, HS0⟩, ⟨%fs1, %hfs1, HS1⟩, Hk⟩
    obtain rfl := harg2.eq_unread hfi0; obtain rfl := harg3.eq_unread hfi1; obtain rfl := harg6.eq_unread hfs0; obtain rfl := harg7.eq_unread hfs1
    sl_exec (disch := first | exact hc0 | exact hc1)
    sl_step
    iapply Hk
    isplitl [HI0]
    · iexists _; isplitr; · ipureintro; exact harg2.read_unread _
      iexact HI0
    isplitl [HI1]
    · iexists _; isplitr; · ipureintro; exact harg3.read_unread _
      iexact HI1
    isplitl [HO2]
    · iexists _; iexact HO2
    isplitl [HO3]
    · iexists _; iexact HO3
    isplitl [HS0]
    · iexists _; iexact HS0
    iexists _; iexact HS1

end Cert.KernelIdeal.Hand

end
-- ==== Proof.KI.Region0.lean ====
/-
  The first kernel's region, point by point. What its two accumulators hold after each point of the grid is
  defined by recursion on the point (`outsAt0`): at the first step of a sweep what the reset-and-accumulate run
  leaves, afterwards what the accumulate run leaves over the previous point's contents; at the last step of a
  sweep the output blocks take what the run stores there. With these contents named, the region's invariant
  (`PhiS0`) carries the accumulators from one point to the next, the proof data (`dat0`) say what every window's
  buffer holds after the body at every point, and the body obligation holds at every point by the three runs.
  Everything is stated at arbitrary region-entry contents `V` of the core's unscoped buffers.
-/
import proofs.«421873_j14499809591691_3_alg».proof.Proof.KI.Run0A
import proofs.«421873_j14499809591691_3_alg».proof.Proof.KI.Run0B
import proofs.«421873_j14499809591691_3_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the found pieces cover their buffers, and read back as contents -/

theorem scover0_A_0 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i)
    (x0 : Vec F S1024x2048 .f32) (x1 : Vec F S1024x256 .bf16) (y : S2048x256.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S2048x256.size (by sl_kernel_rfl) y
/-- What case A leaves in accumulator 0. -/
def sout0_A_0 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i)
    (x0 : Vec F S1024x2048 .f32) (x1 : Vec F S1024x256 .bf16) : Vec F S2048x256 .f32 :=
  VS0_0.read (Elt F) (VS0_0.writes (Elt F) VS0_0.junk (kernelRun0_A c i arg2 harg2 arg3 harg3 arg4 harg4 arg5 harg5 arg6 harg6 arg7 harg7 hc0 hc1 x0 x1).1)

theorem scover0_A_1 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i)
    (x0 : Vec F S1024x2048 .f32) (x1 : Vec F S1024x256 .bf16) (y : S1x2048.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1x2048.size (by sl_kernel_rfl) y
/-- What case A leaves in accumulator 1. -/
def sout0_A_1 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i)
    (x0 : Vec F S1024x2048 .f32) (x1 : Vec F S1024x256 .bf16) : Vec F S1x2048 .f32 :=
  VS0_1.read (Elt F) (VS0_1.writes (Elt F) VS0_1.junk (kernelRun0_A c i arg2 harg2 arg3 harg3 arg4 harg4 arg5 harg5 arg6 harg6 arg7 harg7 hc0 hc1 x0 x1).2.1)

theorem scover0_B_0 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i)
    (x0 : Vec F S1024x2048 .f32) (x1 : Vec F S1024x256 .bf16) (xs0 : Vec F S2048x256 .f32) (xs1 : Vec F S1x2048 .f32) (y : S2048x256.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S2048x256.size (by sl_kernel_rfl) y
/-- What case B leaves in accumulator 0. -/
def sout0_B_0 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i)
    (x0 : Vec F S1024x2048 .f32) (x1 : Vec F S1024x256 .bf16) (xs0 : Vec F S2048x256 .f32) (xs1 : Vec F S1x2048 .f32) : Vec F S2048x256 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)

theorem scover0_B_1 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i)
    (x0 : Vec F S1024x2048 .f32) (x1 : Vec F S1024x256 .bf16) (xs0 : Vec F S2048x256 .f32) (xs1 : Vec F S1x2048 .f32) (y : S1x2048.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S1x2048.size (by sl_kernel_rfl) y
/-- What case B leaves in accumulator 1. -/
def sout0_B_1 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i)
    (x0 : Vec F S1024x2048 .f32) (x1 : Vec F S1024x256 .bf16) (xs0 : Vec F S2048x256 .f32) (xs1 : Vec F S1x2048 .f32) : Vec F S1x2048 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)

theorem cover0_C_2 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) (y : S2048x256.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S2048x256.size (by sl_kernel_rfl) y
/-- What the last step stores into output window 2's buffer. -/
def out0_C_2 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) : Vec F S2048x256 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)

theorem cover0_C_3 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) (y : S1x2048.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x2048.size (by sl_kernel_rfl) y
/-- What the last step stores into output window 3's buffer. -/
def out0_C_3 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) : Vec F S1x2048 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)

theorem scover0_C_0 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) (y : S2048x256.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S2048x256.size (by sl_kernel_rfl) y
/-- What case C leaves in accumulator 0. -/
def sout0_C_0 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) : Vec F S2048x256 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)

theorem scover0_C_1 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) (y : S1x2048.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S1x2048.size (by sl_kernel_rfl) y
/-- What case C leaves in accumulator 1. -/
def sout0_C_1 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) : Vec F S1x2048 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-- A placeholder for output window 2's buffer at the points where the body does not touch it (nothing consults it there). -/
def idleO0_2 : Vec F S2048x256 .f32 := VO0_2.read (Elt F) VO0_2.junk

/-- A placeholder for output window 3's buffer at the points where the body does not touch it (nothing consults it there). -/
def idleO0_3 : Vec F S1x2048 .f32 := VO0_3.read (Elt F) VO0_3.junk

/-! ## What the buffers hold after each point -/

/-- After the body at position `n`: the output buffers (in window order), then the two accumulators. At the first step
    of a sweep the reset-and-accumulate run's contents; otherwise the accumulate run's over what position `n - 1` left;
    at the last step the outputs as stored. -/
def outsAt0 (c : Dev nD) : (n : ℕ) → n < cfg0.N → Vec F S2048x256 .f32 × Vec F S1x2048 .f32 × Vec F S2048x256 .f32 × Vec F S1x2048 .f32
  | 0, hn => (idleO0_2, idleO0_3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h' => by (try dsimp only at h'); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h' => by (try dsimp only at h'); omega) ((hcond0_1 ⟨0, hn⟩).mp h)) (iblk0 V c 0 ⟨0, hn⟩) (iblk0 V c 1 ⟨0, hn⟩))
  | n + 1, hn =>
    if h0 : (n + 1) % 16 = 0 then
      (idleO0_2, idleO0_3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (fun h' => by (try dsimp only at h'); omega) ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (fun h' => by (try dsimp only at h'); omega) ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        (idleO0_2, idleO0_3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 16 = 0) :
    outsAt0 V c t.val t.isLt = (idleO0_2, idleO0_3, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (fun h' => by (try dsimp only at h'); omega) ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (fun h' => by (try dsimp only at h'); omega) ((hcond0_1 t).mp h)) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = (idleO0_2, idleO0_3, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant and proof data -/

/-- Before position `n`: at the region's start the scoped buffers at anything; afterwards the two accumulators at what
    the point before left, the other scoped buffers at anything, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ others0 c) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ others0 c) ∗ (∃ r, prngReg c r)) := by
  cases n with
  | zero => exact absurd rfl hz
  | succ n => rfl

/-- The proof data on core `c`: the arrays as the region finds them; after the body at point `t` each input's buffer at
    its block and each output's at `outsAt0`'s component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position in its sweep says which of the
    three runs applies; the invariant hands the run the accumulators (at anything at a sweep's first step, at what the
    point before left otherwise) and takes them back at this point's contents; an output the run does not touch is handed
    back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 16 = 0
  · -- the first step of a sweep
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => absurd ((hcond0_1 t).mp h) (by omega))) (noFlush0_2 t (fun h => absurd ((hcond0_1 t).mp h) (by omega)))]
      rw [Dat.leavesExact_idle (dat0 V c) 3 t (idleAt0_3 t (fun h => absurd ((hcond0_1 t).mp h) (by omega))) (noFlush0_3 t (fun h => absurd ((hcond0_1 t).mp h) (by omega)))]
      rw [outsAt0_A V c t h0]
      unfold sout0_A_0 sout0_A_1; (try dsimp only)
      by_cases hz : t.val = 0
      · rw [PhiS0_castSucc V c t, PhiS0_zero V c _ _ hz, PhiA0_eq]
        iintro ⟨⟨⟨⟨HS0, HS1⟩, Hoth⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => (fun h' => by (try dsimp only at h'); omega) ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _)
              · unfold owns; iexists _; isplitr
                swap; · iexact HS1
                ipureintro; exact View.read_writes_of_cover _ _ _ _ _ (scover0_A_1 c _ _ _ _ _ _ _ _ _ _ _ _ _ _ _ _ _)
            iexact Hoth
          iexact Hg
        isplitl [Ho]; · iexact Ho
        isplitl [H0]; · iexact H0
        isplitl [H1]; · iexact H1
        isplitl [H2]; · iexists _; iexact H2
        iexists _; iexact H3
      · rw [PhiS0_castSucc V c t, PhiS0_pos V c _ _ hz]
        iintro ⟨⟨⟨⟨HS0, HS1⟩, Hoth⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => (fun h' => by (try dsimp only at h'); omega) ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _)
              · unfold owns; iexists _; isplitr
                swap; · iexact HS1
                ipureintro; exact View.read_writes_of_cover _ _ _ _ _ (scover0_A_1 c _ _ _ _ _ _ _ _ _ _ _ _ _ _ _ _ _)
            iexact Hoth
          iexact Hg
        isplitl [Ho]; · iexact Ho
        isplitl [H0]; · iexact H0
        isplitl [H1]; · iexact H1
        isplitl [H2]; · iexists _; iexact H2
        iexists _; iexact H3
  · have hz : t.val ≠ 0 := fun e => h0 (by rw [e])
    by_cases h1 : t.val % 16 = 15
    · -- the last step of a sweep
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_2 out0_C_3 sout0_C_0 sout0_C_1; (try dsimp only)
      rw [PhiS0_castSucc V c t, PhiS0_pos V c _ _ hz]
      · iintro ⟨⟨⟨⟨HS0, HS1⟩, Hoth⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _)
              · unfold owns; iexists _; isplitr
                swap; · iexact HS1
                ipureintro; exact View.read_writes_of_cover _ _ _ _ _ (scover0_C_1 c _ _ _ _ _ _ _ _ _ _ _ _ _ _ _ _ _ _ _)
            iexact Hoth
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _)
        · unfold owns; iexists _; isplitr
          swap; · iexact H3
          ipureintro; exact View.read_writes_of_cover _ _ _ _ _ (cover0_C_3 c _ _ _ _ _ _ _ _ _ _ _ _ _ _ _ _ _ _ _)
    · -- a middle step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      rw [PhiS0_castSucc V c t, PhiS0_pos V c _ _ hz]
      · iintro ⟨⟨⟨⟨HS0, HS1⟩, Hoth⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _)
              · unfold owns; iexists _; isplitr
                swap; · iexact HS1
                ipureintro; exact View.read_writes_of_cover _ _ _ _ _ (scover0_B_1 c _ _ _ _ _ _ _ _ _ _ _ _ _ _ _ _ _ _ _)
            iexact Hoth
          iexact Hg
        isplitl [Ho]; · iexact Ho
        isplitl [H0]; · iexact H0
        isplitl [H1]; · iexact H1
        isplitl [H2]; · iexists _; iexact H2
        iexists _; iexact H3

/-- The body obligation of the region's proof data, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back at anything: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hoth⟩, Hg⟩
  isplitl [HS0 HS1 Hoth]
  · isplitl [HS0 HS1]
    · isplitl [HS0]
      · iexists _; iexact HS0
      · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KI.Run1A.lean ====
/-
  The second kernel's body at the FIRST point of a sweep (edge step 0): it zeroes the aggregate and the row-sum
  accumulators, then adds the step's contribution — the masked exponential weights of the block, their row sums,
  and their product with the step's 512 rows of the hyperedge features — and leaves the output untouched.
  Stated on any whole memrefs: the inputs keep their contents, an untouched output is handed back as found, and
  each buffer the body stores into ends with the pieces its stores wrote (found by running the body).
-/
import proofs.«421873_j14499809591691_3_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : cond1_0 i) (hc1 : ¬cond1_1 i)
    (x0 : Vec F S2048x512 .f32) (x1 : Vec F S8192x256 .bf16) (x2 : Vec F S1x512 .f32) (x3 : Vec F S2048x1 .f32) :
    Σ' (LS0 : List (View.Piece (Elt F) S2048x256 .f32)), { LS1 : List (View.Piece (Elt F) S2048x1 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__kernel2 i arg2 harg2 arg3 harg3 arg4 harg4 arg5 harg5 arg6 harg6 arg7 harg7 arg8 harg8) K } := by
  refine ⟨?_, ?_, fun xi4 E K => ?run⟩
  case run =>
    simp only [cc1__kernel2_eq_skeleton]; unfold cc1__kernel2_skel
    simp only [k1_part1_eq_skeleton]
    unfold owns
    iintro ⟨⟨%fi0, %hfi0, HI0⟩, ⟨%fi1, %hfi1, HI1⟩, ⟨%fi2, %hfi2, HI2⟩, ⟨%fi3, %hfi3, HI3⟩, ⟨%fo4, %hfo4, HO4⟩, ⟨%ds0, %fs0, -, HS0⟩, ⟨%ds1, %fs1, -, HS1⟩, Hk⟩
    obtain rfl := harg2.eq_unread hfi0; obtain rfl := harg3.eq_unread hfi1; obtain rfl := harg4.eq_unread hfi2; obtain rfl := harg5.eq_unread hfi3; obtain rfl := harg6.eq_unread hfo4
    sl_exec (disch := first | exact hc0 | exact hc1)
    sl_step
    iapply Hk
    isplitl [HI0]
    · iexists _; isplitr; · ipureintro; exact harg2.read_unread _
      iexact HI0
    isplitl [HI1]
    · iexists _; isplitr; · ipureintro; exact harg3.read_unread _
      iexact HI1
    isplitl [HI2]
    · iexists _; isplitr; · ipureintro; exact harg4.read_unread _
      iexact HI2
    isplitl [HI3]
    · iexists _; isplitr; · ipureintro; exact harg5.read_unread _
      iexact HI3
    isplitl [HO4]
    · iexists _; isplitr; · ipureintro; exact harg6.read_unread _
      iexact HO4
    isplitl [HS0]
    · iexists _; iexact HS0
    iexists _; iexact HS1

end Cert.KernelIdeal.Hand

end
-- ==== Proof.KI.Run1B.lean ====
/-
  The second kernel's body at a MIDDLE point of a sweep (edge step strictly between 0 and 15): it adds the step's
  contribution to both accumulators over what the point before left and leaves the output untouched.
  Stated on any whole memrefs: the inputs keep their contents, an untouched output is handed back as found, and
  each buffer the body stores into ends with the pieces its stores wrote (found by running the body).
-/
import proofs.«421873_j14499809591691_3_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : ¬cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) :
    Σ' (LS0 : List (View.Piece (Elt F) S2048x256 .f32)), { LS1 : List (View.Piece (Elt F) S2048x1 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__kernel2 i arg2 harg2 arg3 harg3 arg4 harg4 arg5 harg5 arg6 harg6 arg7 harg7 arg8 harg8) K } := by
  refine ⟨?_, ?_, fun xi4 E K => ?run⟩
  case run =>
    simp only [cc1__kernel2_eq_skeleton]; unfold cc1__kernel2_skel
    simp only [k1_part1_eq_skeleton]
    unfold owns
    iintro ⟨⟨%fi0, %hfi0, HI0⟩, ⟨%fi1, %hfi1, HI1⟩, ⟨%fi2, %hfi2, HI2⟩, ⟨%fi3, %hfi3, HI3⟩, ⟨%fo4, %hfo4, HO4⟩, ⟨%fs0, %hfs0, HS0⟩, ⟨%fs1, %hfs1, HS1⟩, Hk⟩
    obtain rfl := harg2.eq_unread hfi0; obtain rfl := harg3.eq_unread hfi1; obtain rfl := harg4.eq_unread hfi2; obtain rfl := harg5.eq_unread hfi3; obtain rfl := harg6.eq_unread hfo4; obtain rfl := harg7.eq_unread hfs0; obtain rfl := harg8.eq_unread hfs1
    sl_exec (disch := first | exact hc0 | exact hc1)
    sl_step
    iapply Hk
    isplitl [HI0]
    · iexists _; isplitr; · ipureintro; exact harg2.read_unread _
      iexact HI0
    isplitl [HI1]
    · iexists _; isplitr; · ipureintro; exact harg3.read_unread _
      iexact HI1
    isplitl [HI2]
    · iexists _; isplitr; · ipureintro; exact harg4.read_unread _
      iexact HI2
    isplitl [HI3]
    · iexists _; isplitr; · ipureintro; exact harg5.read_unread _
      iexact HI3
    isplitl [HO4]
    · iexists _; isplitr; · ipureintro; exact harg6.read_unread _
      iexact HO4
    isplitl [HS0]
    · iexists _; iexact HS0
    iexists _; iexact HS1

end Cert.KernelIdeal.Hand

end
-- ==== Proof.KI.Run1C.lean ====
/-
  The second kernel's body at the LAST point of a sweep (edge step 15): it adds the step's contribution to both
  accumulators, then stores into the output block the rectified quotient of the aggregate by the row sums.
  Stated on any whole memrefs: the inputs keep their contents, an untouched output is handed back as found, and
  each buffer the body stores into ends with the pieces its stores wrote (found by running the body).
-/
import proofs.«421873_j14499809591691_3_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) :
    Σ' (L4 : List (View.Piece (Elt F) S2048x256 .f32)), Σ' (LS0 : List (View.Piece (Elt F) S2048x256 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__kernel2 i arg2 harg2 arg3 harg3 arg4 harg4 arg5 harg5 arg6 harg6 arg7 harg7 arg8 harg8) K } := by
  refine ⟨?_, ?_, ?_, fun E K => ?run⟩
  case run =>
    simp only [cc1__kernel2_eq_skeleton]; unfold cc1__kernel2_skel
    simp only [k1_part1_eq_skeleton]
    unfold owns
    iintro ⟨⟨%fi0, %hfi0, HI0⟩, ⟨%fi1, %hfi1, HI1⟩, ⟨%fi2, %hfi2, HI2⟩, ⟨%fi3, %hfi3, HI3⟩, ⟨%do4, %fo4, -, HO4⟩, ⟨%fs0, %hfs0, HS0⟩, ⟨%fs1, %hfs1, HS1⟩, Hk⟩
    obtain rfl := harg2.eq_unread hfi0; obtain rfl := harg3.eq_unread hfi1; obtain rfl := harg4.eq_unread hfi2; obtain rfl := harg5.eq_unread hfi3; obtain rfl := harg7.eq_unread hfs0; obtain rfl := harg8.eq_unread hfs1
    sl_exec (disch := first | exact hc0 | exact hc1)
    sl_step
    iapply Hk
    isplitl [HI0]
    · iexists _; isplitr; · ipureintro; exact harg2.read_unread _
      iexact HI0
    isplitl [HI1]
    · iexists _; isplitr; · ipureintro; exact harg3.read_unread _
      iexact HI1
    isplitl [HI2]
    · iexists _; isplitr; · ipureintro; exact harg4.read_unread _
      iexact HI2
    isplitl [HI3]
    · iexists _; isplitr; · ipureintro; exact harg5.read_unread _
      iexact HI3
    isplitl [HO4]
    · iexists _; iexact HO4
    isplitl [HS0]
    · iexists _; iexact HS0
    iexists _; iexact HS1

end Cert.KernelIdeal.Hand

end
-- ==== Proof.KI.Region1.lean ====
/-
  The second kernel's region, point by point. What its two accumulators hold after each point of the grid is
  defined by recursion on the point (`outsAt1`): at the first step of a sweep what the reset-and-accumulate run
  leaves, afterwards what the accumulate run leaves over the previous point's contents; at the last step of a
  sweep the output block takes what the run stores there. With these contents named, the region's invariant
  (`PhiS1`) carries the accumulators from one point to the next, the proof data (`dat1`) say what every window's
  buffer holds after the body at every point, and the body obligation holds at every point by the three runs.
  Everything is stated at arbitrary region-entry contents `V` of the core's unscoped buffers.
-/
import proofs.«421873_j14499809591691_3_alg».proof.Proof.KI.Run1A
import proofs.«421873_j14499809591691_3_alg».proof.Proof.KI.Run1B
import proofs.«421873_j14499809591691_3_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: the found pieces cover their buffers, and read back as contents -/

theorem scover1_A_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : cond1_0 i) (hc1 : ¬cond1_1 i)
    (x0 : Vec F S2048x512 .f32) (x1 : Vec F S8192x256 .bf16) (x2 : Vec F S1x512 .f32) (x3 : Vec F S2048x1 .f32) (y : S2048x256.Idx) :
    ∃ pc ∈ (kernelRun1_A c i arg2 harg2 arg3 harg3 arg4 harg4 arg5 harg5 arg6 harg6 arg7 harg7 arg8 harg8 hc0 hc1 x0 x1 x2 x3).1, y ∈ pc.1.set :=
  View.cover_of_tiledL (kernelRun1_A c i arg2 harg2 arg3 harg3 arg4 harg4 arg5 harg5 arg6 harg6 arg7 harg7 arg8 harg8 hc0 hc1 x0 x1 x2 x3).1 S2048x256.size (by sl_kernel_rfl) y
/-- What case A leaves in accumulator 0. -/
def sout1_A_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : cond1_0 i) (hc1 : ¬cond1_1 i)
    (x0 : Vec F S2048x512 .f32) (x1 : Vec F S8192x256 .bf16) (x2 : Vec F S1x512 .f32) (x3 : Vec F S2048x1 .f32) : Vec F S2048x256 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).1)

theorem scover1_A_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : cond1_0 i) (hc1 : ¬cond1_1 i)
    (x0 : Vec F S2048x512 .f32) (x1 : Vec F S8192x256 .bf16) (x2 : Vec F S1x512 .f32) (x3 : Vec F S2048x1 .f32) (y : S2048x1.Idx) :
    ∃ pc ∈ (kernelRun1_A c i arg2 harg2 arg3 harg3 arg4 harg4 arg5 harg5 arg6 harg6 arg7 harg7 arg8 harg8 hc0 hc1 x0 x1 x2 x3).2.1, y ∈ pc.1.set :=
  View.cover_of_tiledL (kernelRun1_A c i arg2 harg2 arg3 harg3 arg4 harg4 arg5 harg5 arg6 harg6 arg7 harg7 arg8 harg8 hc0 hc1 x0 x1 x2 x3).2.1 S2048x1.size (by sl_kernel_rfl) y
/-- What case A leaves in accumulator 1. -/
def sout1_A_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : cond1_0 i) (hc1 : ¬cond1_1 i)
    (x0 : Vec F S2048x512 .f32) (x1 : Vec F S8192x256 .bf16) (x2 : Vec F S1x512 .f32) (x3 : Vec F S2048x1 .f32) : Vec F S2048x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2 x3).2.1)

theorem scover1_B_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : ¬cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) (y : S2048x256.Idx) :
    ∃ pc ∈ (kernelRun1_B c i arg2 harg2 arg3 harg3 arg4 harg4 arg5 harg5 arg6 harg6 arg7 harg7 arg8 harg8 hc0 hc1 x0 x1 x2 x3 xs0 xs1).1, y ∈ pc.1.set :=
  View.cover_of_tiledL (kernelRun1_B c i arg2 harg2 arg3 harg3 arg4 harg4 arg5 harg5 arg6 harg6 arg7 harg7 arg8 harg8 hc0 hc1 x0 x1 x2 x3 xs0 xs1).1 S2048x256.size (by sl_kernel_rfl) y
/-- What case B leaves in accumulator 0. -/
def sout1_B_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : ¬cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) : Vec F S2048x256 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0 xs1).1)

theorem scover1_B_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : ¬cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) (y : S2048x1.Idx) :
    ∃ pc ∈ (kernelRun1_B c i arg2 harg2 arg3 harg3 arg4 harg4 arg5 harg5 arg6 harg6 arg7 harg7 arg8 harg8 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.1 S2048x1.size (by sl_kernel_rfl) y
/-- What case B leaves in accumulator 1. -/
def sout1_B_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : ¬cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) : Vec F S2048x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 x3 xs0 xs1).2.1)

theorem cover1_C_4 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) (y : S2048x256.Idx) :
    ∃ pc ∈ (kernelRun1_C c i arg2 harg2 arg3 harg3 arg4 harg4 arg5 harg5 arg6 harg6 arg7 harg7 arg8 harg8 hc0 hc1 x0 x1 x2 x3 xs0 xs1).1, y ∈ pc.1.set :=
  View.cover_of_tiledL (kernelRun1_C c i arg2 harg2 arg3 harg3 arg4 harg4 arg5 harg5 arg6 harg6 arg7 harg7 arg8 harg8 hc0 hc1 x0 x1 x2 x3 xs0 xs1).1 S2048x256.size (by sl_kernel_rfl) y
/-- What the last step stores into output window 4's buffer. -/
def out1_C_4 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) : Vec F S2048x256 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0 xs1).1)

theorem scover1_C_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) (y : S2048x256.Idx) :
    ∃ pc ∈ (kernelRun1_C c i arg2 harg2 arg3 harg3 arg4 harg4 arg5 harg5 arg6 harg6 arg7 harg7 arg8 harg8 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.1 S2048x256.size (by sl_kernel_rfl) y
/-- What case C leaves in accumulator 0. -/
def sout1_C_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) : Vec F S2048x256 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0 xs1).2.1)

theorem scover1_C_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) (y : S2048x1.Idx) :
    ∃ pc ∈ (kernelRun1_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.2.1 S2048x1.size (by sl_kernel_rfl) y
/-- What case C leaves in accumulator 1. -/
def sout1_C_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) : Vec F S2048x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 x3 xs0 xs1).2.2.1)

/-- A placeholder for output window 4's buffer at the points where the body does not touch it (nothing consults it there). -/
def idleO1_4 : Vec F S2048x256 .f32 := VO1_4.read (Elt F) VO1_4.junk

/-! ## What the buffers hold after each point -/

/-- After the body at position `n`: the output buffer (in window order), then the two accumulators. At the first step
    of a sweep the reset-and-accumulate run's contents; otherwise the accumulate run's over what position `n - 1` left;
    at the last step the output as stored. -/
def outsAt1 (c : Dev nD) : (n : ℕ) → n < cfg1.N → Vec F S2048x256 .f32 × Vec F S2048x256 .f32 × Vec F S2048x1 .f32
  | 0, hn => (idleO1_4, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      (idleO1_4, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => (fun h' => by (try dsimp only at h'); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => (fun h' => by (try dsimp only at h'); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 16 = 15 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)
      else
        (idleO1_4, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)

theorem outsAt1_A (c : Dev nD) (t : Fin cfg1.N) (h0 : t.val % 16 = 0) :
    outsAt1 V c t.val t.isLt = (idleO1_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => (fun h' => by (try dsimp only at h'); omega) ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => (fun h' => by (try dsimp only at h'); omega) ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = (idleO1_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant and proof data -/

/-- Before position `n`: at the region's start the scoped buffers at anything; afterwards the two accumulators at what
    the point before left, the other scoped buffers at anything, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2)) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2)) ∗ others1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2)) ∗ others1 c) ∗ (∃ r, prngReg c r)) := by
  cases n with
  | zero => exact absurd rfl hz
  | succ n => rfl

/-- The proof data on core `c`: the arrays as the region finds them; after the body at point `t` each input's buffer at
    its block and each output's at `outsAt1`'s component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's position in its sweep says which of the
    three runs applies; the invariant hands the run the accumulators (at anything at a sweep's first step, at what the
    point before left otherwise) and takes them back at this point's contents; an output the run does not touch is handed
    back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 16 = 0
  · -- the first step of a sweep
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => absurd ((hcond1_1 t).mp h) (by omega))) (noFlush1_4 t (fun h => absurd ((hcond1_1 t).mp h) (by omega)))]
      rw [outsAt1_A V c t h0]
      unfold sout1_A_0 sout1_A_1; (try dsimp only)
      by_cases hz : t.val = 0
      · rw [PhiS1_castSucc V c t, PhiS1_zero V c _ _ hz, PhiA1_eq]
        iintro ⟨⟨⟨⟨HS0, HS1⟩, Hoth⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ ((hcond1_0 t).mpr h0) (fun h => (fun h' => by (try dsimp only at h'); omega) ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _)
              · unfold owns; iexists _; isplitr
                swap; · iexact HS1
                ipureintro; exact View.read_writes_of_cover _ _ _ _ _ (scover1_A_1 c _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨⟨HS0, HS1⟩, Hoth⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ ((hcond1_0 t).mpr h0) (fun h => (fun h' => by (try dsimp only at h'); omega) ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _)
              · unfold owns; iexists _; isplitr
                swap; · iexact HS1
                ipureintro; exact View.read_writes_of_cover _ _ _ _ _ (scover1_A_1 c _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · -- the last step of a sweep
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0 sout1_C_1; (try dsimp only)
      rw [PhiS1_castSucc V c t, PhiS1_pos V c _ _ hz]
      · iintro ⟨⟨⟨⟨HS0, HS1⟩, Hoth⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _)
              · unfold owns; iexists _; isplitr
                swap; · iexact HS1
                ipureintro; exact View.read_writes_of_cover _ _ _ _ _ (scover1_C_1 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        · unfold owns; iexists _; isplitr
          swap; · iexact H4
          ipureintro; exact View.read_writes_of_cover _ _ _ _ _ (cover1_C_4 c _ _ _ _ _ _ _ _ _ _ _ _ _ _ _ _ _ _ _ _ _ _ _)
    · -- a middle step
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0 sout1_B_1; (try dsimp only)
      rw [PhiS1_castSucc V c t, PhiS1_pos V c _ _ hz]
      · iintro ⟨⟨⟨⟨HS0, HS1⟩, Hoth⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _)
              · unfold owns; iexists _; isplitr
                swap; · iexact HS1
                ipureintro; exact View.read_writes_of_cover _ _ _ _ _ (scover1_B_1 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4

/-- The body obligation of the region's proof data, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back at anything: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hoth⟩, Hg⟩
  isplitl [HS0 HS1 Hoth]
  · isplitl [HS0 HS1]
    · isplitl [HS0]
      · iexists _; iexact HS0
      · iexists _; iexact HS1
    iexact Hoth
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KI.Main.lean ====
/-
  The whole program: two host stretches and the two pallas calls, run in order. The contents of the core's unscoped
  buffers at each boundary are a fold through @main: the launch memory; after the first host stretch; after the first
  call (its two result arrays at what its write-backs leave, everything else unchanged); after the second host
  stretch; after the second call (the result array at what its write-backs leave). Every weakly fair execution
  terminates, and the final memory holds every unscoped buffer at the last of these; no step writes an argument.
-/
import proofs.«421873_j14499809591691_3_alg».proof.Proof.KI.Region0
import proofs.«421873_j14499809591691_3_alg».proof.Proof.KI.Region1
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family, the thread state, the segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Pallas call 0 over the thread state: entered from every unscoped buffer at the contents before it, left with its
    windows' arrays at what the pipeline's write-backs leave and every other buffer as entered. Its arrays are split
    out of the unscoped buffers on entry and put back on exit; the scoped buffers and the generator register go into
    the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at the contents before it, left with its
    windows' arrays at what the pipeline's write-backs leave and every other buffer as entered. Its arrays are split
    out of the unscoped buffers on entry and put back on exit; the scoped buffers and the generator register go into
    the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer of the core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.KernelIdeal.Hand

end
-- ==== Proof.KI.KHost.lean ====
/-
  The host operations of the kernel's program, read index by index over the extended reals.

  Before the first region: xw n d = Σ_k x n k · w1 k d (a product of the node features with the first weight matrix; the
  narrowing of its result to bf16 is the identity on extended reals).

  Between the regions, from the two arrays the first region wrote — the aggregate num e d and the degree row deg e —:
    en e d  = num e d / deg e              the degree row re-read as a column and repeated along the feature axis
    ev e d  = Σ_k en e k · w2 k d
    esc e   = Σ_k en e k · (Σ_j w2 k j · a2 j)      written as a row
    xsc n   = Σ_k x n k · (Σ_j w3 k j · a1 j)       written as a column
  A product [M, K] × [K, N] at (r, c) is the sum over the one contracted axis of left (r, k) times right (k, c); a sum
  from the zero word is the plain sum. Neither stretch writes the incidence array.
-/
import proofs.«421873_j14499809591691_3_alg».proof.Proof.Gen.KernelIdeal.Launch
import proofs.«421873_j14499809591691_3_alg».proof.Proof.Gen.KernelIdeal.Regions
import proofs.«421873_j14499809591691_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.TcCoe Idealize.SL.Sem Idealize.ShloMosaic.StableHlo Idealize.ShloMosaic.ValueIdx

/-! ### The product [16384, 256] × [256, 256] → [16384, 256] (xw) at an index -/

theorem lhs_xw_0 (i : S16384x256.Idx) (q : dot_S16384x256_S256x256_S16384x256_1_0_0_1_n_n.contr.Idx) :
    (dot_S16384x256_S256x256_S16384x256_1_0_0_1_n_n.lhsIdx i q 0).val = (i 0).val := by
  unfold DotDims.lhsIdx
  rw [dif_neg (show ¬(0 : Fin S16384x256.rank) ∈ dot_S16384x256_S256x256_S16384x256_1_0_0_1_n_n.lhsBatch by decide), dif_pos (show (0 : Fin S16384x256.rank) ∈ dot_S16384x256_S256x256_S16384x256_1_0_0_1_n_n.lhsNonContracting by decide)]
  rfl
theorem lhs_xw_1 (i : S16384x256.Idx) (q : dot_S16384x256_S256x256_S16384x256_1_0_0_1_n_n.contr.Idx) :
    (dot_S16384x256_S256x256_S16384x256_1_0_0_1_n_n.lhsIdx i q 1).val = (q ⟨0, by decide⟩).val :=
  dot_S16384x256_S256x256_S16384x256_1_0_0_1_n_n.lhsIdx_val_of_single rfl i q
theorem rhs_xw_0 (i : S16384x256.Idx) (q : dot_S16384x256_S256x256_S16384x256_1_0_0_1_n_n.contr.Idx) :
    (dot_S16384x256_S256x256_S16384x256_1_0_0_1_n_n.rhsIdx i q 0).val = (q ⟨0, by decide⟩).val :=
  dot_S16384x256_S256x256_S16384x256_1_0_0_1_n_n.rhsIdx_val_of_single rfl i q
theorem rhs_xw_1 (i : S16384x256.Idx) (q : dot_S16384x256_S256x256_S16384x256_1_0_0_1_n_n.contr.Idx) :
    (dot_S16384x256_S256x256_S16384x256_1_0_0_1_n_n.rhsIdx i q 1).val = (i 1).val := by
  unfold DotDims.rhsIdx
  rw [dif_neg (show ¬(1 : Fin S256x256.rank) ∈ dot_S16384x256_S256x256_S16384x256_1_0_0_1_n_n.rhsBatch by decide), dif_pos (show (1 : Fin S256x256.rank) ∈ dot_S16384x256_S256x256_S16384x256_1_0_0_1_n_n.rhsNonContracting by decide)]
  rfl
/-- The product at (r, c) is Σ_k a (r, k) · b (k, c). -/
theorem dot_xw_apply (a : FVec Ideal S16384x256 .f32) (b : FVec Ideal S256x256 .f32) (r : Fin 16384) (c : Fin 256) :
    Host.dotGeneral dot_S16384x256_S256x256_S16384x256_1_0_0_1_n_n none a b (ix2 r c) = ∑ k : Fin 256, a (ix2 r k) * b (ix2 k c) := by
  simp only [Host.dotGeneral]
  rw [Ideal.dotGeneral_apply, ← Equiv.sum_comp (ValueIdx.contrEquiv1 dot_S16384x256_S256x256_S16384x256_1_0_0_1_n_n 256 rfl rfl).symm]
  refine Finset.sum_congr rfl fun k _ => ?_
  have hk := ValueIdx.contrEquiv1_symm_val dot_S16384x256_S256x256_S16384x256_1_0_0_1_n_n 256 rfl rfl k
  have el : dot_S16384x256_S256x256_S16384x256_1_0_0_1_n_n.lhsIdx (ix2 r c) ((ValueIdx.contrEquiv1 dot_S16384x256_S256x256_S16384x256_1_0_0_1_n_n 256 rfl rfl).symm k) = ix2 r k := funext fun a => Fin.ext (by
    match a with
    | ⟨0, _⟩ => exact lhs_xw_0 _ _
    | ⟨1, _⟩ => exact (lhs_xw_1 _ _).trans hk)
  have er : dot_S16384x256_S256x256_S16384x256_1_0_0_1_n_n.rhsIdx (ix2 r c) ((ValueIdx.contrEquiv1 dot_S16384x256_S256x256_S16384x256_1_0_0_1_n_n 256 rfl rfl).symm k) = ix2 k c := funext fun a => Fin.ext (by
    match a with
    | ⟨0, _⟩ => exact (rhs_xw_0 _ _).trans hk
    | ⟨1, _⟩ => exact rhs_xw_1 _ _)
  rw [el, er]

/-! ### The product [8192, 256] × [256, 256] → [8192, 256] (ev) at an index -/

theorem lhs_ev_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem lhs_ev_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
theorem rhs_ev_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
theorem rhs_ev_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl
/-- The product at (r, c) is Σ_k a (r, k) · b (k, c). -/
theorem dot_ev_apply (a : FVec Ideal S8192x256 .f32) (b : FVec Ideal S256x256 .f32) (r : Fin 8192) (c : Fin 256) :
    Host.dotGeneral dot_S8192x256_S256x256_S8192x256_1_0_0_1_n_n none a b (ix2 r c) = ∑ k : Fin 256, a (ix2 r k) * b (ix2 k c) := by
  simp only [Host.dotGeneral]
  rw [Ideal.dotGeneral_apply, ← Equiv.sum_comp (ValueIdx.contrEquiv1 dot_S8192x256_S256x256_S8192x256_1_0_0_1_n_n 256 rfl rfl).symm]
  refine Finset.sum_congr rfl fun k _ => ?_
  have hk := ValueIdx.contrEquiv1_symm_val dot_S8192x256_S256x256_S8192x256_1_0_0_1_n_n 256 rfl rfl k
  have el : dot_S8192x256_S256x256_S8192x256_1_0_0_1_n_n.lhsIdx (ix2 r c) ((ValueIdx.contrEquiv1 dot_S8192x256_S256x256_S8192x256_1_0_0_1_n_n 256 rfl rfl).symm k) = ix2 r k := funext fun a => Fin.ext (by
    match a with
    | ⟨0, _⟩ => exact lhs_ev_0 _ _
    | ⟨1, _⟩ => exact (lhs_ev_1 _ _).trans hk)
  have er : dot_S8192x256_S256x256_S8192x256_1_0_0_1_n_n.rhsIdx (ix2 r c) ((ValueIdx.contrEquiv1 dot_S8192x256_S256x256_S8192x256_1_0_0_1_n_n 256 rfl rfl).symm k) = ix2 k c := funext fun a => Fin.ext (by
    match a with
    | ⟨0, _⟩ => exact (rhs_ev_0 _ _).trans hk
    | ⟨1, _⟩ => exact rhs_ev_1 _ _)
  rw [el, er]

/-! ### The product [256, 256] × [256, 1] → [256, 1] (wa) at an index -/

theorem lhs_wa_0 (i : S256x1.Idx) (q : dot_S256x256_S256x1_S256x1_1_0_0_1_n_n.contr.Idx) :
    (dot_S256x256_S256x1_S256x1_1_0_0_1_n_n.lhsIdx i q 0).val = (i 0).val := by
  unfold DotDims.lhsIdx
  rw [dif_neg (show ¬(0 : Fin S256x256.rank) ∈ dot_S256x256_S256x1_S256x1_1_0_0_1_n_n.lhsBatch by decide), dif_pos (show (0 : Fin S256x256.rank) ∈ dot_S256x256_S256x1_S256x1_1_0_0_1_n_n.lhsNonContracting by decide)]
  rfl
theorem lhs_wa_1 (i : S256x1.Idx) (q : dot_S256x256_S256x1_S256x1_1_0_0_1_n_n.contr.Idx) :
    (dot_S256x256_S256x1_S256x1_1_0_0_1_n_n.lhsIdx i q 1).val = (q ⟨0, by decide⟩).val :=
  dot_S256x256_S256x1_S256x1_1_0_0_1_n_n.lhsIdx_val_of_single rfl i q
theorem rhs_wa_0 (i : S256x1.Idx) (q : dot_S256x256_S256x1_S256x1_1_0_0_1_n_n.contr.Idx) :
    (dot_S256x256_S256x1_S256x1_1_0_0_1_n_n.rhsIdx i q 0).val = (q ⟨0, by decide⟩).val :=
  dot_S256x256_S256x1_S256x1_1_0_0_1_n_n.rhsIdx_val_of_single rfl i q
theorem rhs_wa_1 (i : S256x1.Idx) (q : dot_S256x256_S256x1_S256x1_1_0_0_1_n_n.contr.Idx) :
    (dot_S256x256_S256x1_S256x1_1_0_0_1_n_n.rhsIdx i q 1).val = (i 1).val := by
  unfold DotDims.rhsIdx
  rw [dif_neg (show ¬(1 : Fin S256x1.rank) ∈ dot_S256x256_S256x1_S256x1_1_0_0_1_n_n.rhsBatch by decide), dif_pos (show (1 : Fin S256x1.rank) ∈ dot_S256x256_S256x1_S256x1_1_0_0_1_n_n.rhsNonContracting by decide)]
  rfl
/-- The product at (r, c) is Σ_k a (r, k) · b (k, c). -/
theorem dot_wa_apply (a : FVec Ideal S256x256 .f32) (b : FVec Ideal S256x1 .f32) (r : Fin 256) (c : Fin 1) :
    Host.dotGeneral dot_S256x256_S256x1_S256x1_1_0_0_1_n_n none a b (ix2 r c) = ∑ k : Fin 256, a (ix2 r k) * b (ix2 k c) := by
  simp only [Host.dotGeneral]
  rw [Ideal.dotGeneral_apply, ← Equiv.sum_comp (ValueIdx.contrEquiv1 dot_S256x256_S256x1_S256x1_1_0_0_1_n_n 256 rfl rfl).symm]
  refine Finset.sum_congr rfl fun k _ => ?_
  have hk := ValueIdx.contrEquiv1_symm_val dot_S256x256_S256x1_S256x1_1_0_0_1_n_n 256 rfl rfl k
  have el : dot_S256x256_S256x1_S256x1_1_0_0_1_n_n.lhsIdx (ix2 r c) ((ValueIdx.contrEquiv1 dot_S256x256_S256x1_S256x1_1_0_0_1_n_n 256 rfl rfl).symm k) = ix2 r k := funext fun a => Fin.ext (by
    match a with
    | ⟨0, _⟩ => exact lhs_wa_0 _ _
    | ⟨1, _⟩ => exact (lhs_wa_1 _ _).trans hk)
  have er : dot_S256x256_S256x1_S256x1_1_0_0_1_n_n.rhsIdx (ix2 r c) ((ValueIdx.contrEquiv1 dot_S256x256_S256x1_S256x1_1_0_0_1_n_n 256 rfl rfl).symm k) = ix2 k c := funext fun a => Fin.ext (by
    match a with
    | ⟨0, _⟩ => exact (rhs_wa_0 _ _).trans hk
    | ⟨1, _⟩ => exact rhs_wa_1 _ _)
  rw [el, er]

/-! ### The product [8192, 256] × [256, 1] → [8192, 1] (esc) at an index -/

theorem lhs_esc_0 (i : S8192x1.Idx) (q : dot_S8192x256_S256x1_S8192x1_1_0_0_1_n_n.contr.Idx) :
    (dot_S8192x256_S256x1_S8192x1_1_0_0_1_n_n.lhsIdx i q 0).val = (i 0).val := by
  unfold DotDims.lhsIdx
  rw [dif_neg (show ¬(0 : Fin S8192x256.rank) ∈ dot_S8192x256_S256x1_S8192x1_1_0_0_1_n_n.lhsBatch by decide), dif_pos (show (0 : Fin S8192x256.rank) ∈ dot_S8192x256_S256x1_S8192x1_1_0_0_1_n_n.lhsNonContracting by decide)]
  rfl
theorem lhs_esc_1 (i : S8192x1.Idx) (q : dot_S8192x256_S256x1_S8192x1_1_0_0_1_n_n.contr.Idx) :
    (dot_S8192x256_S256x1_S8192x1_1_0_0_1_n_n.lhsIdx i q 1).val = (q ⟨0, by decide⟩).val :=
  dot_S8192x256_S256x1_S8192x1_1_0_0_1_n_n.lhsIdx_val_of_single rfl i q
theorem rhs_esc_0 (i : S8192x1.Idx) (q : dot_S8192x256_S256x1_S8192x1_1_0_0_1_n_n.contr.Idx) :
    (dot_S8192x256_S256x1_S8192x1_1_0_0_1_n_n.rhsIdx i q 0).val = (q ⟨0, by decide⟩).val :=
  dot_S8192x256_S256x1_S8192x1_1_0_0_1_n_n.rhsIdx_val_of_single rfl i q
theorem rhs_esc_1 (i : S8192x1.Idx) (q : dot_S8192x256_S256x1_S8192x1_1_0_0_1_n_n.contr.Idx) :
    (dot_S8192x256_S256x1_S8192x1_1_0_0_1_n_n.rhsIdx i q 1).val = (i 1).val := by
  unfold DotDims.rhsIdx
  rw [dif_neg (show ¬(1 : Fin S256x1.rank) ∈ dot_S8192x256_S256x1_S8192x1_1_0_0_1_n_n.rhsBatch by decide), dif_pos (show (1 : Fin S256x1.rank) ∈ dot_S8192x256_S256x1_S8192x1_1_0_0_1_n_n.rhsNonContracting by decide)]
  rfl
/-- The product at (r, c) is Σ_k a (r, k) · b (k, c). -/
theorem dot_esc_apply (a : FVec Ideal S8192x256 .f32) (b : FVec Ideal S256x1 .f32) (r : Fin 8192) (c : Fin 1) :
    Host.dotGeneral dot_S8192x256_S256x1_S8192x1_1_0_0_1_n_n none a b (ix2 r c) = ∑ k : Fin 256, a (ix2 r k) * b (ix2 k c) := by
  simp only [Host.dotGeneral]
  rw [Ideal.dotGeneral_apply, ← Equiv.sum_comp (ValueIdx.contrEquiv1 dot_S8192x256_S256x1_S8192x1_1_0_0_1_n_n 256 rfl rfl).symm]
  refine Finset.sum_congr rfl fun k _ => ?_
  have hk := ValueIdx.contrEquiv1_symm_val dot_S8192x256_S256x1_S8192x1_1_0_0_1_n_n 256 rfl rfl k
  have el : dot_S8192x256_S256x1_S8192x1_1_0_0_1_n_n.lhsIdx (ix2 r c) ((ValueIdx.contrEquiv1 dot_S8192x256_S256x1_S8192x1_1_0_0_1_n_n 256 rfl rfl).symm k) = ix2 r k := funext fun a => Fin.ext (by
    match a with
    | ⟨0, _⟩ => exact lhs_esc_0 _ _
    | ⟨1, _⟩ => exact (lhs_esc_1 _ _).trans hk)
  have er : dot_S8192x256_S256x1_S8192x1_1_0_0_1_n_n.rhsIdx (ix2 r c) ((ValueIdx.contrEquiv1 dot_S8192x256_S256x1_S8192x1_1_0_0_1_n_n 256 rfl rfl).symm k) = ix2 k c := funext fun a => Fin.ext (by
    match a with
    | ⟨0, _⟩ => exact (rhs_esc_0 _ _).trans hk
    | ⟨1, _⟩ => exact rhs_esc_1 _ _)
  rw [el, er]

/-! ### The product [16384, 256] × [256, 1] → [16384, 1] (xsc) at an index -/

theorem lhs_xsc_0 (i : S16384x1.Idx) (q : dot_S16384x256_S256x1_S16384x1_1_0_0_1_n_n.contr.Idx) :
    (dot_S16384x256_S256x1_S16384x1_1_0_0_1_n_n.lhsIdx i q 0).val = (i 0).val := by
  unfold DotDims.lhsIdx
  rw [dif_neg (show ¬(0 : Fin S16384x256.rank) ∈ dot_S16384x256_S256x1_S16384x1_1_0_0_1_n_n.lhsBatch by decide), dif_pos (show (0 : Fin S16384x256.rank) ∈ dot_S16384x256_S256x1_S16384x1_1_0_0_1_n_n.lhsNonContracting by decide)]
  rfl
theorem lhs_xsc_1 (i : S16384x1.Idx) (q : dot_S16384x256_S256x1_S16384x1_1_0_0_1_n_n.contr.Idx) :
    (dot_S16384x256_S256x1_S16384x1_1_0_0_1_n_n.lhsIdx i q 1).val = (q ⟨0, by decide⟩).val :=
  dot_S16384x256_S256x1_S16384x1_1_0_0_1_n_n.lhsIdx_val_of_single rfl i q
theorem rhs_xsc_0 (i : S16384x1.Idx) (q : dot_S16384x256_S256x1_S16384x1_1_0_0_1_n_n.contr.Idx) :
    (dot_S16384x256_S256x1_S16384x1_1_0_0_1_n_n.rhsIdx i q 0).val = (q ⟨0, by decide⟩).val :=
  dot_S16384x256_S256x1_S16384x1_1_0_0_1_n_n.rhsIdx_val_of_single rfl i q
theorem rhs_xsc_1 (i : S16384x1.Idx) (q : dot_S16384x256_S256x1_S16384x1_1_0_0_1_n_n.contr.Idx) :
    (dot_S16384x256_S256x1_S16384x1_1_0_0_1_n_n.rhsIdx i q 1).val = (i 1).val := by
  unfold DotDims.rhsIdx
  rw [dif_neg (show ¬(1 : Fin S256x1.rank) ∈ dot_S16384x256_S256x1_S16384x1_1_0_0_1_n_n.rhsBatch by decide), dif_pos (show (1 : Fin S256x1.rank) ∈ dot_S16384x256_S256x1_S16384x1_1_0_0_1_n_n.rhsNonContracting by decide)]
  rfl
/-- The product at (r, c) is Σ_k a (r, k) · b (k, c). -/
theorem dot_xsc_apply (a : FVec Ideal S16384x256 .f32) (b : FVec Ideal S256x1 .f32) (r : Fin 16384) (c : Fin 1) :
    Host.dotGeneral dot_S16384x256_S256x1_S16384x1_1_0_0_1_n_n none a b (ix2 r c) = ∑ k : Fin 256, a (ix2 r k) * b (ix2 k c) := by
  simp only [Host.dotGeneral]
  rw [Ideal.dotGeneral_apply, ← Equiv.sum_comp (ValueIdx.contrEquiv1 dot_S16384x256_S256x1_S16384x1_1_0_0_1_n_n 256 rfl rfl).symm]
  refine Finset.sum_congr rfl fun k _ => ?_
  have hk := ValueIdx.contrEquiv1_symm_val dot_S16384x256_S256x1_S16384x1_1_0_0_1_n_n 256 rfl rfl k
  have el : dot_S16384x256_S256x1_S16384x1_1_0_0_1_n_n.lhsIdx (ix2 r c) ((ValueIdx.contrEquiv1 dot_S16384x256_S256x1_S16384x1_1_0_0_1_n_n 256 rfl rfl).symm k) = ix2 r k := funext fun a => Fin.ext (by
    match a with
    | ⟨0, _⟩ => exact lhs_xsc_0 _ _
    | ⟨1, _⟩ => exact (lhs_xsc_1 _ _).trans hk)
  have er : dot_S16384x256_S256x1_S16384x1_1_0_0_1_n_n.rhsIdx (ix2 r c) ((ValueIdx.contrEquiv1 dot_S16384x256_S256x1_S16384x1_1_0_0_1_n_n 256 rfl rfl).symm k) = ix2 k c := funext fun a => Fin.ext (by
    match a with
    | ⟨0, _⟩ => exact (rhs_xsc_0 _ _).trans hk
    | ⟨1, _⟩ => exact rhs_xsc_1 _ _)
  rw [el, er]

/-! ## The host stretches, as terms of the valuation's entries -/

section Terms
variable (W : Valuation τ sig (Elt Ideal))

/-- The arguments and the two arrays the first region wrote. -/
abbrev aX : FVec Ideal S16384x256 .f32 := W (Proc.devRef .tc main_arg0)
abbrev aW1 : FVec Ideal S256x256 .f32 := W (Proc.devRef .tc main_arg2)
abbrev aW2 : FVec Ideal S256x256 .f32 := W (Proc.devRef .tc main_arg3)
abbrev aW3 : FVec Ideal S256x256 .f32 := W (Proc.devRef .tc main_arg4)
abbrev aA1 : FVec Ideal S256x1 .f32 := W (Proc.devRef .tc main_arg5)
abbrev aA2 : FVec Ideal S256x1 .f32 := W (Proc.devRef .tc main_arg6)
abbrev aNum : FVec Ideal S8192x256 .f32 := W (Proc.devRef .tc main_v2_0)
abbrev aDeg : FVec Ideal S1x8192 .f32 := W (Proc.devRef .tc main_v2_1)

/-- The first stretch's result: the projected node features (the narrowing to bf16 is the identity here). -/
theorem v1_term :
    StableHlo.after hostOps0 W (Proc.devRef .tc main_v1)
      = (truncf (F := Ideal) .bf16 (Host.dotGeneral (F := Ideal) dot_S16384x256_S256x256_S16384x256_1_0_0_1_n_n none (aX W) (aW1 W)) bitsLt_bf16_f32 : FVec Ideal S16384x256 .bf16) := by
  show StableHlo.after hostOps0 W (Proc.devRef .tc main_v1) = _
  after_results

/-- The normalised hyperedge features: the aggregate divided by the degree, the degree row re-read as a column and
    repeated along the feature axis. -/
def tEn : FVec Ideal S8192x256 .f32 :=
  Host.divf (aNum W) (broadcastInDim S8192x256 ![0, 1] bcast_S8192x1_S8192x256_0_1
    (shapeCast S8192x1 (aDeg W) shapeCasts_S1x8192_S8192x1))

theorem v7_term :
    StableHlo.after hostOps1 W (Proc.devRef .tc main_v7)
      = (truncf (F := Ideal) .bf16 (Host.dotGeneral (F := Ideal) dot_S8192x256_S256x256_S8192x256_1_0_0_1_n_n none (tEn W) (aW2 W)) bitsLt_bf16_f32 : FVec Ideal S8192x256 .bf16) := by
  show StableHlo.after hostOps1 W (Proc.devRef .tc main_v7) = _
  after_results; rfl

theorem v10_term :
    StableHlo.after hostOps1 W (Proc.devRef .tc main_v10)
      = (transpose S1x8192 [1, 0] (Host.dotGeneral (F := Ideal) dot_S8192x256_S256x1_S8192x1_1_0_0_1_n_n none (tEn W)
          (Host.dotGeneral (F := Ideal) dot_S256x256_S256x1_S256x1_1_0_0_1_n_n none (aW2 W) (aA2 W))) transposes_S8192x1_S1x8192_1_0 : FVec Ideal S1x8192 .f32) := by
  show StableHlo.after hostOps1 W (Proc.devRef .tc main_v10) = _
  after_results; rfl

theorem v12_term :
    StableHlo.after hostOps1 W (Proc.devRef .tc main_v12)
      = (Host.dotGeneral (F := Ideal) dot_S16384x256_S256x1_S16384x1_1_0_0_1_n_n none (aX W)
          (Host.dotGeneral (F := Ideal) dot_S256x256_S256x1_S256x1_1_0_0_1_n_n none (aW3 W) (aA1 W)) : FVec Ideal S16384x1 .f32) := by
  show StableHlo.after hostOps1 W (Proc.devRef .tc main_v12) = _
  after_results

end Terms

/-! ## The terms read at an index -/

section Points
variable (W : Valuation τ sig (Elt Ideal))

/-- The normalised features at (e, d): the aggregate there over the degree of hyperedge e. -/
theorem tEn_apply (e : Fin 8192) (d : Fin 256) :
    tEn W (ix2 e d) = Ideal.div (aNum W (ix2 e d)) (aDeg W (ix2 (0 : Fin 1) e)) := by
  unfold tEn
  show Ideal.div (aNum W (ix2 e d)) (broadcastInDim S8192x256 ![0, 1] bcast_S8192x1_S8192x256_0_1
    (shapeCast S8192x1 (aDeg W) shapeCasts_S1x8192_S8192x1) (ix2 e d)) = _
  rw [broadcastInDim_apply ![0, 1] bcast_S8192x1_S8192x256_0_1 _ (ix2 e d) (ix2 e (0 : Fin 1)) (fun a => match a with
      | ⟨0, _⟩ => by show e.val = if (8192 : Nat) = 1 then 0 else e.val; rw [if_neg (by decide)]
      | ⟨1, _⟩ => by show 0 = if (1 : Nat) = 1 then 0 else d.val; rw [if_pos rfl]),
    shapeCast_apply (aDeg W) shapeCasts_S1x8192_S8192x1 (ix2 e (0 : Fin 1)) (ix2 (0 : Fin 1) e) (by
      rw [Shape.rowMajor_val_two, Shape.rowMajor_val_two]
      show 0 * 8192 + e.val = e.val * 1 + 0
      omega)]

end Points

/-! ## The host results against the specification -/

section Values
variable (W : Valuation τ sig (Elt Ideal))

/-- The normalised features are the specification's, once the first region's two arrays are its aggregate and degree. -/
theorem tEn_en (H : Cert.Spec.Arr 16384 8192) (w1 : Cert.Spec.Arr 256 256)
    (hE : ∀ e d, W (Proc.devRef .tc main_v2_0) (ix2 e d) = Cert.Spec.enum (W (Proc.devRef .tc main_arg0)) H w1 e d)
    (hD : ∀ e, W (Proc.devRef .tc main_v2_1) (ix2 (0 : Fin 1) e) = Cert.Spec.deg H e) (e : Fin 8192) (k : Fin 256) :
    tEn W (ix2 e k) = Cert.Spec.en (W (Proc.devRef .tc main_arg0)) H w1 e k := by
  rw [tEn_apply]
  show Ideal.div (W (Proc.devRef .tc main_v2_0) (ix2 e k)) (W (Proc.devRef .tc main_v2_1) (ix2 (0 : Fin 1) e))
    = Ideal.div (Cert.Spec.enum (W (Proc.devRef .tc main_arg0)) H w1 e k) (Cert.Spec.deg H e)
  rw [hE, hD]

/-- The first stretch leaves the projected node features xw. -/
theorem v1_eq :
    StableHlo.after hostOps0 W (Proc.devRef .tc main_v1)
      = fun (i : S16384x256.Idx) => Cert.Spec.xw (W (Proc.devRef .tc main_arg0)) (W (Proc.devRef .tc main_arg2)) (i 0) (i 1) := by
  rw [v1_term]
  funext i
  obtain ⟨n, d, rfl⟩ : ∃ n d, i = ix2 n d := ⟨i 0, i 1, eq_ix2 i⟩
  show Host.dotGeneral (F := Ideal) dot_S16384x256_S256x256_S16384x256_1_0_0_1_n_n none (aX W) (aW1 W) (ix2 n d)
    = Cert.Spec.xw (aX W) (aW1 W) n d
  rw [dot_xw_apply]
  rfl

/-- The second stretch leaves the hyperedge values ev. -/
theorem v7_eq (H : Cert.Spec.Arr 16384 8192) (w1 : Cert.Spec.Arr 256 256)
    (hE : ∀ e d, W (Proc.devRef .tc main_v2_0) (ix2 e d) = Cert.Spec.enum (W (Proc.devRef .tc main_arg0)) H w1 e d)
    (hD : ∀ e, W (Proc.devRef .tc main_v2_1) (ix2 (0 : Fin 1) e) = Cert.Spec.deg H e) :
    StableHlo.after hostOps1 W (Proc.devRef .tc main_v7)
      = fun (i : S8192x256.Idx) => Cert.Spec.ev (W (Proc.devRef .tc main_arg0)) H w1 (W (Proc.devRef .tc main_arg3)) (i 0) (i 1) := by
  rw [v7_term]
  funext i
  obtain ⟨e, d, rfl⟩ : ∃ e d, i = ix2 e d := ⟨i 0, i 1, eq_ix2 i⟩
  show Host.dotGeneral (F := Ideal) dot_S8192x256_S256x256_S8192x256_1_0_0_1_n_n none (tEn W) (aW2 W) (ix2 e d)
    = Cert.Spec.ev (W (Proc.devRef .tc main_arg0)) H w1 (aW2 W) e d
  rw [dot_ev_apply]
  unfold Cert.Spec.ev
  refine Finset.sum_congr rfl fun k _ => ?_
  rw [tEn_en W H w1 hE hD]

/-- The second stretch leaves the hyperedge scores esc, as a row. -/
theorem v10_eq (H : Cert.Spec.Arr 16384 8192) (w1 : Cert.Spec.Arr 256 256)
    (hE : ∀ e d, W (Proc.devRef .tc main_v2_0) (ix2 e d) = Cert.Spec.enum (W (Proc.devRef .tc main_arg0)) H w1 e d)
    (hD : ∀ e, W (Proc.devRef .tc main_v2_1) (ix2 (0 : Fin 1) e) = Cert.Spec.deg H e) :
    StableHlo.after hostOps1 W (Proc.devRef .tc main_v10)
      = fun (i : S1x8192.Idx) => Cert.Spec.esc (W (Proc.devRef .tc main_arg0)) H w1 (W (Proc.devRef .tc main_arg3)) (W (Proc.devRef .tc main_arg6)) (i 1) := by
  rw [v10_term]
  funext i
  obtain ⟨u, e, rfl⟩ : ∃ u e, i = ix2 u e := ⟨i 0, i 1, eq_ix2 i⟩
  obtain rfl : u = 0 := Subsingleton.elim _ _
  rw [transpose_apply [1, 0] _ transposes_S8192x1_S1x8192_1_0 (ix2 (0 : Fin 1) e) (ix2 e (0 : Fin 1)) (fun b => match b with
    | ⟨0, _⟩ => rfl
    | ⟨1, _⟩ => rfl)]
  rw [dot_esc_apply]
  show ∑ k : Fin 256, tEn W (ix2 e k) * Host.dotGeneral (F := Ideal) dot_S256x256_S256x1_S256x1_1_0_0_1_n_n none (aW2 W) (aA2 W) (ix2 k (0 : Fin 1))
    = Cert.Spec.esc (W (Proc.devRef .tc main_arg0)) H w1 (aW2 W) (aA2 W) e
  unfold Cert.Spec.esc
  refine Finset.sum_congr rfl fun k _ => ?_
  rw [tEn_en W H w1 hE hD, dot_wa_apply]
  rfl

/-- The second stretch leaves the node scores xsc, as a column. -/
theorem v12_eq :
    StableHlo.after hostOps1 W (Proc.devRef .tc main_v12)
      = fun (i : S16384x1.Idx) => Cert.Spec.xsc (W (Proc.devRef .tc main_arg0)) (W (Proc.devRef .tc main_arg4)) (W (Proc.devRef .tc main_arg5)) (i 0) := by
  rw [v12_term]
  funext i
  obtain ⟨n, u, rfl⟩ : ∃ n u, i = ix2 n u := ⟨i 0, i 1, eq_ix2 i⟩
  obtain rfl : u = 0 := Subsingleton.elim _ _
  rw [dot_xsc_apply]
  show ∑ k : Fin 256, aX W (ix2 n k) * Host.dotGeneral (F := Ideal) dot_S256x256_S256x1_S256x1_1_0_0_1_n_n none (aW3 W) (aA1 W) (ix2 k (0 : Fin 1))
    = Cert.Spec.xsc (aX W) (aW3 W) (aA1 W) n
  unfold Cert.Spec.xsc
  refine Finset.sum_congr rfl fun k _ => ?_
  rw [dot_wa_apply]
  rfl

/-- Neither stretch writes the incidence array. -/
theorem arg1_keep0 : StableHlo.after hostOps0 W (Proc.devRef .tc main_arg1) = W (Proc.devRef .tc main_arg1) :=
  StableHlo.after_of_writes_sub hostOps0 W hostOps0_writes (by decide)
theorem arg1_keep1 : StableHlo.after hostOps1 W (Proc.devRef .tc main_arg1) = W (Proc.devRef .tc main_arg1) :=
  StableHlo.after_of_writes_sub hostOps1 W hostOps1_writes (by decide)

end Values

end Cert.KernelIdeal.HandValue

end
-- ==== Proof.KI.KPieces0.lean ====
/-
  What each of the three runs of the first kernel's body leaves in its buffers, as the body's arithmetic applied
  to the blocks it was run on: the step's update of the numerator accumulator is `k0_pay3` of the incidence block,
  the projected-feature block and the accumulator's previous contents (the zero block `k0_pay1` at the first step
  of a sweep), the update of the degree accumulator is `k0_pay4` of the incidence block and the previous contents
  (the zero row `k0_pay2` at the first step), and at the last step of a sweep the two output blocks take the
  updated accumulators. Every store covers its whole buffer, so each buffer reads back as its last store's value.
-/
import proofs.«421873_j14499809591691_3_alg».proof.Proof.KI.Region0
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat)

variable {F : FTy → Type} [FloatOps F]

/-- The zero offsets of a whole-buffer rectangle of rank 2. -/
theorem hz2 : (![0, 0] : Fin 2 → Nat) = fun _ => 0 := funext fun a => by fin_cases a <;> rfl

/-! ## The first step of a sweep: reset, then update -/

/-- The numerator accumulator after the first step: the update of the zero block. -/
theorem sout0_A_0_eq (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i)
    (x0 : Vec F S1024x2048 .f32) (x1 : Vec F S1024x256 .bf16) :
    sout0_A_0 c i arg2 harg2 arg3 harg3 arg4 harg4 arg5 harg5 arg6 harg6 arg7 harg7 hc0 hc1 x0 x1 = k0_pay3 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S2048x256) hz2, View.readCov_unit_zero (S := S2048x256) _ hz2]
  simp only [View.readAt_eq_ld, harg2.read_unread, harg3.read_unread, harg6.read_unread, harg7.read_unread,
    View.ld_unit_zero (S := S1024x2048) hz2, View.ld_unit_zero (S := S1024x256) hz2,
    View.ld_unit_zero (S := S2048x256) hz2, View.ld_unit_zero (S := S1x2048) hz2]

/-- The degree accumulator after the first step: the update of the zero row. -/
theorem sout0_A_1_eq (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i)
    (x0 : Vec F S1024x2048 .f32) (x1 : Vec F S1024x256 .bf16) :
    sout0_A_1 c i arg2 harg2 arg3 harg3 arg4 harg4 arg5 harg5 arg6 harg6 arg7 harg7 hc0 hc1 x0 x1 = k0_pay4 x0 (k0_pay2 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x2048) hz2, View.readCov_unit_zero (S := S1x2048) _ hz2]
  simp only [View.readAt_eq_ld, harg2.read_unread, harg3.read_unread, harg6.read_unread, harg7.read_unread,
    View.ld_unit_zero (S := S1024x2048) hz2, View.ld_unit_zero (S := S1024x256) hz2,
    View.ld_unit_zero (S := S2048x256) hz2, View.ld_unit_zero (S := S1x2048) hz2]

/-! ## A middle step: update -/

/-- The numerator accumulator after a middle step: the update of its previous contents. -/
theorem sout0_B_0_eq (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i)
    (x0 : Vec F S1024x2048 .f32) (x1 : Vec F S1024x256 .bf16) (xs0 : Vec F S2048x256 .f32) (xs1 : Vec F S1x2048 .f32) :
    sout0_B_0 c i arg2 harg2 arg3 harg3 arg4 harg4 arg5 harg5 arg6 harg6 arg7 harg7 hc0 hc1 x0 x1 xs0 xs1 = k0_pay3 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread,
    View.ld_unit_zero (S := S1024x2048) hz2, View.ld_unit_zero (S := S1024x256) hz2,
    View.ld_unit_zero (S := S2048x256) hz2, View.ld_unit_zero (S := S1x2048) hz2]

/-- The degree accumulator after a middle step: the update of its previous contents. -/
theorem sout0_B_1_eq (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i)
    (x0 : Vec F S1024x2048 .f32) (x1 : Vec F S1024x256 .bf16) (xs0 : Vec F S2048x256 .f32) (xs1 : Vec F S1x2048 .f32) :
    sout0_B_1 c i arg2 harg2 arg3 harg3 arg4 harg4 arg5 harg5 arg6 harg6 arg7 harg7 hc0 hc1 x0 x1 xs0 xs1 = k0_pay4 x0 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread,
    View.ld_unit_zero (S := S1024x2048) hz2, View.ld_unit_zero (S := S1024x256) hz2,
    View.ld_unit_zero (S := S2048x256) hz2, View.ld_unit_zero (S := S1x2048) hz2]

/-! ## The last step of a sweep: update, then copy out -/

/-- The numerator accumulator after the last step: the update of its previous contents. -/
theorem sout0_C_0_eq (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) :
    sout0_C_0 c i arg2 harg2 arg3 harg3 arg4 harg4 arg5 harg5 arg6 harg6 arg7 harg7 hc0 hc1 x0 x1 xs0 xs1 = k0_pay3 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread,
    View.ld_unit_zero (S := S1024x2048) hz2, View.ld_unit_zero (S := S1024x256) hz2,
    View.ld_unit_zero (S := S2048x256) hz2, View.ld_unit_zero (S := S1x2048) hz2]

/-- The degree accumulator after the last step: the update of its previous contents. -/
theorem sout0_C_1_eq (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) :
    sout0_C_1 c i arg2 harg2 arg3 harg3 arg4 harg4 arg5 harg5 arg6 harg6 arg7 harg7 hc0 hc1 x0 x1 xs0 xs1 = k0_pay4 x0 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread,
    View.ld_unit_zero (S := S1024x2048) hz2, View.ld_unit_zero (S := S1024x256) hz2,
    View.ld_unit_zero (S := S2048x256) hz2, View.ld_unit_zero (S := S1x2048) hz2]

/-- The numerator output block after the last step: the updated accumulator. -/
theorem out0_C_2_eq (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) :
    out0_C_2 c i arg2 harg2 arg3 harg3 arg4 harg4 arg5 harg5 arg6 harg6 arg7 harg7 hc0 hc1 x0 x1 xs0 xs1 = k0_pay3 x0 x1 xs0 := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz2, View.readCov_unit_zero (S := S2048x256) _ hz2]
  simp only [View.readAt_eq_ld, harg2.read_unread, harg3.read_unread, harg6.read_unread, harg7.read_unread,
    View.ld_unit_zero (S := S1024x2048) hz2, View.ld_unit_zero (S := S1024x256) hz2,
    View.ld_unit_zero (S := S2048x256) hz2, View.ld_unit_zero (S := S1x2048) hz2]

/-- The degree output block after the last step: the updated accumulator. -/
theorem out0_C_3_eq (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) :
    out0_C_3 c i arg2 harg2 arg3 harg3 arg4 harg4 arg5 harg5 arg6 harg6 arg7 harg7 hc0 hc1 x0 x1 xs0 xs1 = k0_pay4 x0 xs1 := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz2, View.readCov_unit_zero (S := S1x2048) _ hz2]
  simp only [View.readAt_eq_ld, harg2.read_unread, harg3.read_unread, harg6.read_unread, harg7.read_unread,
    View.ld_unit_zero (S := S1024x2048) hz2, View.ld_unit_zero (S := S1024x256) hz2,
    View.ld_unit_zero (S := S2048x256) hz2, View.ld_unit_zero (S := S1x2048) hz2]

end Cert.KernelIdeal.HandValue

end
-- ==== Proof.KSpec.lean ====
/-
  The second kernel's result as one function of the four arrays it reads: the incidence H [16384, 8192], the row of
  hyperedge scores er [1, 8192], the column of node scores xc [16384, 1] and the hyperedge features evA [8192, 256].
    hattK n e = exp (leaky (8 · tanh ((er e + xc n) / 8))) · H n e          the masked weight
    outK n d  = leaky ((Σ_e hattK n e · evA e d) / (Σ_e hattK n e))          one division of the raw aggregate
  With er, xc and evA the specification's scores and features this is the specification's `kerOut`.
  The first kernel's two results are the plain column sums numK (the aggregate of H against the projected features)
  and degK (the hyperedge degrees).
-/
import proofs.«421873_j14499809591691_3_alg».proof.Proof.Spec

noncomputable section

namespace Cert.Spec

open Idealize.ShloMosaic Idealize.ShloMosaic.ValueIdx

/-- The first kernel's numerator array as a function of the incidence and the projected node features. -/
def numK (H : Arr 16384 8192) (X : Arr 16384 256) : Arr 8192 256 := fun i => ∑ n : Fin 16384, H (ix2 n (i 0)) * X (ix2 n (i 1))
/-- The first kernel's degree row as a function of the incidence. -/
def degK (H : Arr 16384 8192) : Arr 1 8192 := fun i => ∑ n : Fin 16384, H (ix2 n (i 1))

def hattK (H : Arr 16384 8192) (er : Arr 1 8192) (xc : Arr 16384 1) (n : Fin 16384) (e : Fin 8192) : EReal :=
  Ideal.exp (leaky (Ideal.tanh ((er (ix2 (0 : Fin 1) e) + xc (ix2 n (0 : Fin 1))) * ((1 / 8 : ℝ) : EReal)) * ((8 : ℝ) : EReal))) * H (ix2 n e)

def outK (H : Arr 16384 8192) (er : Arr 1 8192) (xc : Arr 16384 1) (evA : Arr 8192 256) : Arr 16384 256 := fun i =>
  leaky (Ideal.div (∑ e : Fin 8192, hattK H er xc (i 0) e * evA (ix2 e (i 1))) (∑ e : Fin 8192, hattK H er xc (i 0) e))

/-- With the specification's scores and features the second kernel's function is the specification's `kerOut`. -/
theorem outK_eq (x : Arr 16384 256) (H : Arr 16384 8192) (w1 w2 w3 : Arr 256 256) (a1 a2 : Arr 256 1)
    (er : Arr 1 8192) (xc : Arr 16384 1) (evA : Arr 8192 256)
    (her : ∀ e, er (ix2 (0 : Fin 1) e) = esc x H w1 w2 a2 e) (hxc : ∀ n, xc (ix2 n (0 : Fin 1)) = xsc x w3 a1 n)
    (hev : ∀ e d, evA (ix2 e d) = ev x H w1 w2 e d) :
    outK H er xc evA = kerOut x H w1 w2 w3 a1 a2 := by
  funext i
  have hh : ∀ n e, hattK H er xc n e = hatt x H w1 w2 w3 a1 a2 n e := fun n e => by
    unfold hattK hatt sc; rw [her, hxc]
  show leaky (Ideal.div (∑ e : Fin 8192, hattK H er xc (i 0) e * evA (ix2 e (i 1))) (∑ e : Fin 8192, hattK H er xc (i 0) e))
    = leaky (Ideal.div (∑ e : Fin 8192, hatt x H w1 w2 w3 a1 a2 (i 0) e * ev x H w1 w2 e (i 1)) (∑ e : Fin 8192, hatt x H w1 w2 w3 a1 a2 (i 0) e))
  have hnum : (∑ e : Fin 8192, hattK H er xc (i 0) e * evA (ix2 e (i 1))) = ∑ e : Fin 8192, hatt x H w1 w2 w3 a1 a2 (i 0) e * ev x H w1 w2 e (i 1) :=
    Finset.sum_congr rfl fun e _ => congrArg₂ (· * ·) (hh (i 0) e) (hev e (i 1))
  have hden : (∑ e : Fin 8192, hattK H er xc (i 0) e) = ∑ e : Fin 8192, hatt x H w1 w2 w3 a1 a2 (i 0) e :=
    Finset.sum_congr rfl fun e _ => hh (i 0) e
  rw [hnum, hden]

end Cert.Spec

end
-- ==== Proof.LibTileSum.lean ====
/-
  Sums over a range of consecutive naturals cut into equal tiles.
-/
import Mathlib.Algebra.BigOperators.Fin
import Mathlib.Logic.Equiv.Fin.Basic

namespace Cert.LibTileSum

open Finset

/-- A sum over `T * B` consecutive naturals equals the sum over `T` tiles of the sum over the `B` members of
    each tile: the natural `n < T * B` is written uniquely as `j * B + k` with `j < T` and `k < B`. -/
theorem sum_tiles {M : Type*} [AddCommMonoid M] (T B : ℕ) (f : ℕ → M) :
    ∑ j : Fin T, ∑ k : Fin B, f (j.val * B + k.val) = ∑ n : Fin (T * B), f n.val := by
  rw [← Finset.sum_product', Finset.univ_product_univ, ← finProdFinEquiv.sum_comp]
  refine Finset.sum_congr rfl fun p _ => ?_
  congr 1
  simp only [finProdFinEquiv_apply_val]
  rw [Nat.mul_comm, Nat.add_comm]

/-- The same statement for a function on `Fin N` with `N = T * B`: the tile `j` holds the indices
    `j * B + k`, `k < B`, each of which is below `N`. -/
theorem sum_tiles_fin {M : Type*} [AddCommMonoid M] (T B N : ℕ) (hN : T * B = N) (g : Fin N → M) :
    ∑ j : Fin T, ∑ k : Fin B,
        g ⟨j.val * B + k.val, by
          have hj : j.val + 1 ≤ T := j.isLt
          calc j.val * B + k.val < j.val * B + B := Nat.add_lt_add_left k.isLt _
            _ = (j.val + 1) * B := (Nat.succ_mul _ _).symm
            _ ≤ T * B := Nat.mul_le_mul_right _ hj
            _ = N := hN⟩
      = ∑ n : Fin N, g n := by
  subst hN
  rw [← Finset.sum_product', Finset.univ_product_univ, ← finProdFinEquiv.sum_comp]
  refine Finset.sum_congr rfl fun p _ => ?_
  congr 1
  apply Fin.ext
  simp only [finProdFinEquiv_apply_val]
  rw [Nat.mul_comm, Nat.add_comm]

end Cert.LibTileSum
-- ==== Proof.KI.KValue0.lean ====
/-
  The first kernel's two result arrays after its region, index by index over the extended reals.

  The grid has 4 edge blocks of 16 node steps each (point t = 16·b + s). At step s of edge block b the body
  adds to the numerator accumulator, at (r, d), the block product Σ_{k<1024} H[1024 s + k, 2048 b + r] · X[1024 s + k, d]
  (both operands of the matrix product are contracted over the block's 1024 nodes; the narrowing of H to the
  product's input format is the identity on extended reals) and to the degree accumulator, at (0, r), the column
  sum Σ_{k<1024} H[1024 s + k, 2048 b + r]; the first step of a sweep starts from the zero block. So after the
  last step of edge block b the accumulators hold 0 + Σ_{s<16} (those addends), and since sixteen tiles of 1024
  consecutive nodes are the 16384 nodes this is Σ_{n<16384} H[n, 2048 b + r] · X[n, d], respectively
  Σ_{n<16384} H[n, 2048 b + r] — only the commutative-monoid laws of + on the extended reals are used. The last
  step copies the accumulators to the output blocks, which are written back to rows 2048 b … 2048 b + 2047 of the
  numerator array and to the same range of the degree row; the four edge blocks cover both arrays.
-/
import proofs.«421873_j14499809591691_3_alg».proof.Proof.KI.KPieces0
import proofs.«421873_j14499809591691_3_alg».proof.Proof.KSpec
import proofs.«421873_j14499809591691_3_alg».proof.Proof.LibTileSum
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

/-! ## The body's arithmetic at an index, over the extended reals -/

/-- The matrix product of the update: both operands are contracted over their axis 0 (the block's 1024 nodes). -/
abbrev dotHX : DotDims S1024x2048 S1024x256 S2048x256 := dot_S1024x2048_S1024x256_S2048x256_0_0_1_1_n_n

theorem lhs_dotHX_0 (j : S2048x256.Idx) (q : dot_S1024x2048_S1024x256_S2048x256_0_0_1_1_n_n.contr.Idx) :
    (dot_S1024x2048_S1024x256_S2048x256_0_0_1_1_n_n.lhsIdx j q 0).val = (q ⟨0, by decide⟩).val :=
  dot_S1024x2048_S1024x256_S2048x256_0_0_1_1_n_n.lhsIdx_val_of_single rfl j q
theorem lhs_dotHX_1 (j : S2048x256.Idx) (q : dot_S1024x2048_S1024x256_S2048x256_0_0_1_1_n_n.contr.Idx) :
    (dot_S1024x2048_S1024x256_S2048x256_0_0_1_1_n_n.lhsIdx j q 1).val = (j 0).val := by
  unfold DotDims.lhsIdx
  rw [dif_neg (show ¬(1 : Fin S1024x2048.rank) ∈ dot_S1024x2048_S1024x256_S2048x256_0_0_1_1_n_n.lhsBatch by decide), dif_pos (show (1 : Fin S1024x2048.rank) ∈ dot_S1024x2048_S1024x256_S2048x256_0_0_1_1_n_n.lhsNonContracting by decide)]
  rfl
theorem rhs_dotHX_0 (j : S2048x256.Idx) (q : dot_S1024x2048_S1024x256_S2048x256_0_0_1_1_n_n.contr.Idx) :
    (dot_S1024x2048_S1024x256_S2048x256_0_0_1_1_n_n.rhsIdx j q 0).val = (q ⟨0, by decide⟩).val :=
  dot_S1024x2048_S1024x256_S2048x256_0_0_1_1_n_n.rhsIdx_val_of_single rfl j q
theorem rhs_dotHX_1 (j : S2048x256.Idx) (q : dot_S1024x2048_S1024x256_S2048x256_0_0_1_1_n_n.contr.Idx) :
    (dot_S1024x2048_S1024x256_S2048x256_0_0_1_1_n_n.rhsIdx j q 1).val = (j 1).val := by
  unfold DotDims.rhsIdx
  rw [dif_neg (show ¬(1 : Fin S1024x256.rank) ∈ dot_S1024x2048_S1024x256_S2048x256_0_0_1_1_n_n.rhsBatch by decide), dif_pos (show (1 : Fin S1024x256.rank) ∈ dot_S1024x2048_S1024x256_S2048x256_0_0_1_1_n_n.rhsNonContracting by decide)]
  rfl

/-- The numerator update at (r, d): the previous value plus the block's Σ_k H_blk[k, r] · X_blk[k, d]
    (the narrowing of the incidence block is the identity on extended reals). -/
theorem k0_pay3_apply (x0 : Vec Ideal S1024x2048 .f32) (x1 : Vec Ideal S1024x256 .bf16) (acc : Vec Ideal S2048x256 .f32)
    (r : Fin 2048) (d : Fin 256) :
    k0_pay3 (F := Ideal) x0 x1 acc (ix2 r d) = acc (ix2 r d) + ∑ k : Fin 1024, x0 (ix2 k r) * x1 (ix2 k d) := by
  unfold k0_pay3
  simp only [shapeCast_self]
  refine congrArg (acc (ix2 r d) + ·) ?_
  refine (Ideal.matmul_constant_zero_apply (φ₁ := .bf16) (φ₂ := .bf16) dot_S1024x2048_S1024x256_S2048x256_0_0_1_1_n_n none
    (truncf .bf16 x0 bitsLt_bf16_f32) x1 (ix2 r d)).trans ?_
  rw [← Equiv.sum_comp (ValueIdx.contrEquiv1 dot_S1024x2048_S1024x256_S2048x256_0_0_1_1_n_n 1024 rfl rfl).symm]
  refine Finset.sum_congr rfl fun k _ => ?_
  have hk := ValueIdx.contrEquiv1_symm_val dot_S1024x2048_S1024x256_S2048x256_0_0_1_1_n_n 1024 rfl rfl k
  have el : dot_S1024x2048_S1024x256_S2048x256_0_0_1_1_n_n.lhsIdx (ix2 r d) ((ValueIdx.contrEquiv1 dot_S1024x2048_S1024x256_S2048x256_0_0_1_1_n_n 1024 rfl rfl).symm k) = ix2 k r := funext fun a => Fin.ext (by
    match a with
    | ⟨0, _⟩ => exact (lhs_dotHX_0 _ _).trans hk
    | ⟨1, _⟩ => exact lhs_dotHX_1 _ _)
  have er : dot_S1024x2048_S1024x256_S2048x256_0_0_1_1_n_n.rhsIdx (ix2 r d) ((ValueIdx.contrEquiv1 dot_S1024x2048_S1024x256_S2048x256_0_0_1_1_n_n 1024 rfl rfl).symm k) = ix2 k d := funext fun a => Fin.ext (by
    match a with
    | ⟨0, _⟩ => exact (rhs_dotHX_0 _ _).trans hk
    | ⟨1, _⟩ => exact rhs_dotHX_1 _ _)
  rw [el, er]
  rfl

/-- The degree update at (0, r): the previous value plus the block's column sum Σ_k H_blk[k, r]. -/
theorem k0_pay4_apply (x0 : Vec Ideal S1024x2048 .f32) (acc : Vec Ideal S1x2048 .f32) (r : Fin 2048) :
    k0_pay4 (F := Ideal) x0 acc (ix2 (0 : Fin 1) r) = acc (ix2 (0 : Fin 1) r) + ∑ k : Fin 1024, x0 (ix2 k r) := by
  unfold k0_pay4
  simp only [shapeCast_self]
  refine congrArg (acc (ix2 (0 : Fin 1) r) + ·) ?_
  refine (shapeCast_addUnit_apply ![2048] _ _ (ix2 (0 : Fin 1) r)).trans ?_
  refine (Ideal.multiReduction_add_single x0 0x00000000#32 reduces_S1024x2048_S2048 (.inl rfl) rfl _).trans ?_
  refine Finset.sum_congr rfl fun k _ => congrArg x0 (funext fun a => Fin.ext (by
    match a with
    | ⟨0, _⟩ => rfl
    | ⟨1, _⟩ => rfl))

/-- The zero block of the reset reads 0 everywhere. -/
theorem k0_pay1_apply (j : S2048x256.Idx) : k0_pay1 (F := Ideal) j = 0 := by
  unfold k0_pay1
  simp only [shapeCast_self]
  exact Ideal.ofBits_zero_f32

/-- The zero row of the reset reads 0 everywhere. -/
theorem k0_pay2_apply (j : S1x2048.Idx) : k0_pay2 (F := Ideal) j = 0 := by
  unfold k0_pay2
  simp only [shapeCast_self]
  exact Ideal.ofBits_zero_f32

/-! ## The blocks the body reads, off the arrays -/

variable (V : (c : Dev nD) → (b : Ref sig .tc) → Buf (Elt Ideal) ((c : Thread nD τ).loc b))

/-- The incidence block at point `t`. -/
abbrev hblk (c : Dev nD) (t : Fin cfg0.N) : Vec Ideal S1024x2048 .f32 := iblk0 V c 0 t
/-- The projected-feature block at point `t`. -/
abbrev xblk (c : Dev nD) (t : Fin cfg0.N) : Vec Ideal S1024x256 .bf16 := iblk0 V c 1 t
/-- The incidence array as the region finds it. -/
abbrev Harr (c : Dev nD) : Cert.Spec.Arr 16384 8192 := V c main_arg1
/-- The projected-feature array as the region finds it. -/
abbrev Xarr (c : Dev nD) : Cert.Spec.Arr 16384 256 := V c main_v1

/-- The four windows' block indices at point `t` = 16·(edge block) + (node step), decided over the grid. -/
theorem idx_facts0 : ∀ t : Fin cfg0.N, win0_0.index t (0 : Fin 2) = t.val % 16 ∧ win0_0.index t (1 : Fin 2) = t.val / 16
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val / 16 :=
  (by decide +kernel : ∀ t : Fin grid0.N, _)

/-- The incidence block at node step s and edge block b reads H at (1024 s + k, 2048 b + r). -/
theorem hblk_apply (c : Dev nD) (t : Fin cfg0.N) (k : Fin 1024) (r : Fin 2048) (n : Fin 16384) (e : Fin 8192)
    (hn : n.val = 1024 * (t.val % 16) + k.val) (he : e.val = 2048 * (t.val / 16) + r.val) :
    hblk V c t (ix2 k r) = Harr V c (ix2 n e) := by
  obtain ⟨e0, e1, -⟩ := idx_facts0 t
  unfold hblk iblk0
  rw [View.read_apply]
  show V c main_arg1 (((cfg0.win 0).blk t).view.emb (ix2 k r)) = V c main_arg1 (ix2 n e)
  refine congrArg (V c main_arg1) (funext fun a => Fin.ext ?_)
  match a with
  | ⟨0, _⟩ => show win0_0.index t (0 : Fin 2) * 1024 + 1 * k.val = n.val; rw [e0, hn]; omega
  | ⟨1, _⟩ => show win0_0.index t (1 : Fin 2) * 2048 + 1 * r.val = e.val; rw [e1, he]; omega

/-- The projected-feature block at node step s reads X at (1024 s + k, d). -/
theorem xblk_apply (c : Dev nD) (t : Fin cfg0.N) (k : Fin 1024) (d : Fin 256) (n : Fin 16384)
    (hn : n.val = 1024 * (t.val % 16) + k.val) :
    xblk V c t (ix2 k d) = Xarr V c (ix2 n d) := by
  obtain ⟨-, -, e2, e3, -⟩ := idx_facts0 t
  unfold xblk iblk0
  rw [View.read_apply]
  show V c main_v1 (((cfg0.win 1).blk t).view.emb (ix2 k d)) = V c main_v1 (ix2 n d)
  refine congrArg (V c main_v1) (funext fun a => Fin.ext ?_)
  match a with
  | ⟨0, _⟩ => show win0_1.index t (0 : Fin 2) * 1024 + 1 * k.val = n.val; rw [e2, hn]; omega
  | ⟨1, _⟩ => show win0_1.index t (1 : Fin 2) * 256 + 1 * d.val = d.val; rw [e3]; omega

/-! ## The accumulators after each point, as a fold over the sweep -/

/-- The numerator accumulator after point `n`. -/
def acc0 (c : Dev nD) (n : ℕ) (h : n < cfg0.N) : Vec Ideal S2048x256 .f32 := (outsAt0 V c n h).2.2.1
/-- The degree accumulator after point `n`. -/
def acc1 (c : Dev nD) (n : ℕ) (h : n < cfg0.N) : Vec Ideal S1x2048 .f32 := (outsAt0 V c n h).2.2.2

/-- The first step of a sweep leaves the update of the zero block; -/
def rst0 (c : Dev nD) (n : ℕ) (h : n < cfg0.N) : Vec Ideal S2048x256 .f32 :=
  k0_pay3 (hblk V c ⟨n, h⟩) (xblk V c ⟨n, h⟩) (k0_pay1 (F := Ideal))
/-- every later step the update of what the step before left. -/
def stp0 (c : Dev nD) (n : ℕ) (h : n < cfg0.N) (a : Vec Ideal S2048x256 .f32) : Vec Ideal S2048x256 .f32 :=
  k0_pay3 (hblk V c ⟨n, h⟩) (xblk V c ⟨n, h⟩) a
def rst1 (c : Dev nD) (n : ℕ) (h : n < cfg0.N) : Vec Ideal S1x2048 .f32 :=
  k0_pay4 (hblk V c ⟨n, h⟩) (k0_pay2 (F := Ideal))
def stp1 (c : Dev nD) (n : ℕ) (h : n < cfg0.N) (a : Vec Ideal S1x2048 .f32) : Vec Ideal S1x2048 .f32 :=
  k0_pay4 (hblk V c ⟨n, h⟩) a

theorem acc0_first (c : Dev nD) (t : Fin cfg0.N) (h0 : t.val % 16 = 0) : acc0 V c t.val t.isLt = rst0 V c t.val t.isLt := by
  unfold acc0 rst0
  rw [outsAt0_A V c t h0]
  dsimp only
  exact sout0_A_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk0 V c 0 t) (iblk0 V c 1 t)

theorem acc1_first (c : Dev nD) (t : Fin cfg0.N) (h0 : t.val % 16 = 0) : acc1 V c t.val t.isLt = rst1 V c t.val t.isLt := by
  unfold acc1 rst1
  rw [outsAt0_A V c t h0]
  dsimp only
  exact sout0_A_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk0 V c 0 t) (iblk0 V c 1 t)

theorem acc0_step (c : Dev nD) (t : Fin cfg0.N) (h0 : ¬t.val % 16 = 0) :
    acc0 V c t.val t.isLt = stp0 V c t.val t.isLt (acc0 V c (t.val - 1) (Nat.lt_of_le_of_lt (Nat.sub_le _ _) t.isLt)) := by
  unfold acc0 stp0
  by_cases h1 : t.val % 16 = 15
  · rw [outsAt0_C V c t h0 h1]
    dsimp only
    exact sout0_C_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2
  · rw [outsAt0_B V c t h0 h1]
    dsimp only
    exact sout0_B_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2

theorem acc1_step (c : Dev nD) (t : Fin cfg0.N) (h0 : ¬t.val % 16 = 0) :
    acc1 V c t.val t.isLt = stp1 V c t.val t.isLt (acc1 V c (t.val - 1) (Nat.lt_of_le_of_lt (Nat.sub_le _ _) t.isLt)) := by
  unfold acc1 stp1
  by_cases h1 : t.val % 16 = 15
  · rw [outsAt0_C V c t h0 h1]
    dsimp only
    exact sout0_C_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2
  · rw [outsAt0_B V c t h0 h1]
    dsimp only
    exact sout0_B_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2

/-- At the last step of a sweep the numerator output block takes the updated accumulator. -/
theorem out2_eq_acc0 (c : Dev nD) (t : Fin cfg0.N) (h15 : t.val % 16 = 15) :
    (outsAt0 V c t.val t.isLt).1 = acc0 V c t.val t.isLt := by
  have h0 : ¬t.val % 16 = 0 := by omega
  unfold acc0
  rw [outsAt0_C V c t h0 h15]
  dsimp only
  exact (out0_C_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2).trans
    (sout0_C_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2).symm

/-- At the last step of a sweep the degree output block takes the updated accumulator. -/
theorem out3_eq_acc1 (c : Dev nD) (t : Fin cfg0.N) (h15 : t.val % 16 = 15) :
    (outsAt0 V c t.val t.isLt).2.1 = acc1 V c t.val t.isLt := by
  have h0 : ¬t.val % 16 = 0 := by omega
  unfold acc1
  rw [outsAt0_C V c t h0 h15]
  dsimp only
  exact (out0_C_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2).trans
    (sout0_C_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2).symm

/-- After the last step of edge block `b` the numerator accumulator is the sweep's fold. -/
theorem acc0_at_last (c : Dev nD) (b : ℕ) (hb : 16 * b + 15 < cfg0.N) :
    acc0 V c (16 * b + 15) hb = Pipeline.accAt (rst0 V c) (stp0 V c) (16 * b) 15 hb :=
  Pipeline.eq_accAt (acc0 V c) 16 (rst0 V c) (stp0 V c)
    (fun n h hm => acc0_first V c ⟨n, h⟩ hm) (fun n h hne => acc0_step V c ⟨n + 1, h⟩ hne) b 15 (by decide) hb

theorem acc1_at_last (c : Dev nD) (b : ℕ) (hb : 16 * b + 15 < cfg0.N) :
    acc1 V c (16 * b + 15) hb = Pipeline.accAt (rst1 V c) (stp1 V c) (16 * b) 15 hb :=
  Pipeline.eq_accAt (acc1 V c) 16 (rst1 V c) (stp1 V c)
    (fun n h hm => acc1_first V c ⟨n, h⟩ hm) (fun n h hne => acc1_step V c ⟨n + 1, h⟩ hne) b 15 (by decide) hb

/-! ## The sweep's fold at an index: the sum of the sixteen steps' addends -/

/-- Point `n`'s addend to the numerator at (r, d): its blocks' Σ_k H_blk[k, r] · X_blk[k, d]. -/
def add0 (c : Dev nD) (n : ℕ) (i : S2048x256.Idx) : EReal :=
  if h : n < cfg0.N then ∑ k : Fin 1024, (hblk V c ⟨n, h⟩ (ix2 k (i 0)) : EReal) * (xblk V c ⟨n, h⟩ (ix2 k (i 1)) : EReal) else 0
/-- Point `n`'s addend to the degree at (0, r): its incidence block's column sum Σ_k H_blk[k, r]. -/
def add1 (c : Dev nD) (n : ℕ) (i : S1x2048.Idx) : EReal :=
  if h : n < cfg0.N then ∑ k : Fin 1024, (hblk V c ⟨n, h⟩ (ix2 k (i 1)) : EReal) else 0

theorem acc0_sweep (c : Dev nD) (b : ℕ) (hb : 16 * b + 15 < cfg0.N) (i : S2048x256.Idx) :
    (Pipeline.accAt (rst0 V c) (stp0 V c) (16 * b) 15 hb i : EReal) = 0 + ∑ s ∈ Finset.range 16, add0 V c (16 * b + s) i := by
  refine Pipeline.accAt_add_apply (ι := S2048x256.Idx) (β := EReal) (rst0 V c) (stp0 V c) (fun _ => (0 : EReal)) (add0 V c) (16 * b) 15 ?_ ?_ 15 le_rfl hb i
  · intro h j
    obtain ⟨r, d, rfl⟩ : ∃ (r : Fin 2048) (d : Fin 256), j = ix2 r d := ⟨j 0, j 1, eq_ix2 j⟩
    unfold rst0 add0
    rw [dif_pos h]
    exact (k0_pay3_apply (hblk V c ⟨16 * b, h⟩) (xblk V c ⟨16 * b, h⟩) (k0_pay1 (F := Ideal)) r d).trans
      (congrArg (· + _) (k0_pay1_apply (ix2 r d)))
  · intro n h a j _ _
    obtain ⟨r, d, rfl⟩ : ∃ (r : Fin 2048) (d : Fin 256), j = ix2 r d := ⟨j 0, j 1, eq_ix2 j⟩
    unfold stp0 add0
    rw [dif_pos h]
    exact k0_pay3_apply (hblk V c ⟨n, h⟩) (xblk V c ⟨n, h⟩) a r d

theorem acc1_sweep (c : Dev nD) (b : ℕ) (hb : 16 * b + 15 < cfg0.N) (i : S1x2048.Idx) :
    (Pipeline.accAt (rst1 V c) (stp1 V c) (16 * b) 15 hb i : EReal) = 0 + ∑ s ∈ Finset.range 16, add1 V c (16 * b + s) i := by
  refine Pipeline.accAt_add_apply (ι := S1x2048.Idx) (β := EReal) (rst1 V c) (stp1 V c) (fun _ => (0 : EReal)) (add1 V c) (16 * b) 15 ?_ ?_ 15 le_rfl hb i
  · intro h j
    obtain ⟨z, r, rfl⟩ : ∃ (z : Fin 1) (r : Fin 2048), j = ix2 z r := ⟨j 0, j 1, eq_ix2 j⟩
    obtain rfl : z = 0 := Subsingleton.elim _ _
    unfold rst1 add1
    rw [dif_pos h]
    exact (k0_pay4_apply (hblk V c ⟨16 * b, h⟩) (k0_pay2 (F := Ideal)) r).trans
      (congrArg (· + _) (k0_pay2_apply (ix2 (0 : Fin 1) r)))
  · intro n h a j _ _
    obtain ⟨z, r, rfl⟩ : ∃ (z : Fin 1) (r : Fin 2048), j = ix2 z r := ⟨j 0, j 1, eq_ix2 j⟩
    obtain rfl : z = 0 := Subsingleton.elim _ _
    unfold stp1 add1
    rw [dif_pos h]
    exact k0_pay4_apply (hblk V c ⟨n, h⟩) a r

/-- After the last step of edge block b the numerator accumulator holds, at (r, d), the full column sum
    Σ_n H[n, 2048 b + r] · X[n, d]: sixteen steps of 1024 nodes each are the 16384 nodes. -/
theorem acc0_last (c : Dev nD) (t : Fin cfg0.N) (h15 : t.val % 16 = 15) (r : Fin 2048) (d : Fin 256) (e : Fin 8192)
    (he : e.val = 2048 * (t.val / 16) + r.val) :
    (acc0 V c t.val t.isLt (ix2 r d) : EReal) = Cert.Spec.numK (Harr V c) (Xarr V c) (ix2 e d) := by
  have hN : cfg0.N = 64 := N_0
  have hlt : t.val < 64 := lt_of_lt_of_eq t.isLt hN
  have hb : 16 * (t.val / 16) + 15 < cfg0.N := lt_of_lt_of_eq (by omega : 16 * (t.val / 16) + 15 < 64) hN.symm
  have same : ∀ (u : ℕ) (hu : u < cfg0.N), u = t.val → acc0 V c u hu = acc0 V c t.val t.isLt := fun u hu e => by subst e; rfl
  rw [← same _ hb (by omega), acc0_at_last V c _ hb, acc0_sweep V c _ hb (ix2 r d), zero_add, Finset.sum_range]
  refine Eq.trans ?_ (Cert.LibTileSum.sum_tiles_fin 16 1024 16384 rfl (fun n : Fin 16384 => Harr V c (ix2 n e) * Xarr V c (ix2 n d)))
  refine Finset.sum_congr rfl fun s _ => ?_
  have hs : s.val < 16 := s.isLt
  unfold add0
  rw [dif_pos (lt_of_lt_of_eq (by omega : 16 * (t.val / 16) + s.val < 64) hN.symm)]
  refine Finset.sum_congr rfl fun k _ => ?_
  beta_reduce
  refine congrArg₂ (· * ·) (hblk_apply V c _ k r _ e ?_ ?_) (xblk_apply V c _ k d _ ?_)
  · show s.val * 1024 + k.val = 1024 * ((16 * (t.val / 16) + s.val) % 16) + k.val
    omega
  · show e.val = 2048 * ((16 * (t.val / 16) + s.val) / 16) + r.val
    omega
  · show s.val * 1024 + k.val = 1024 * ((16 * (t.val / 16) + s.val) % 16) + k.val
    omega

/-- After the last step of edge block b the degree accumulator holds, at (0, r), the full column sum Σ_n H[n, 2048 b + r]. -/
theorem acc1_last (c : Dev nD) (t : Fin cfg0.N) (h15 : t.val % 16 = 15) (r : Fin 2048) (e : Fin 8192)
    (he : e.val = 2048 * (t.val / 16) + r.val) :
    (acc1 V c t.val t.isLt (ix2 (0 : Fin 1) r) : EReal) = Cert.Spec.degK (Harr V c) (ix2 (0 : Fin 1) e) := by
  have hN : cfg0.N = 64 := N_0
  have hlt : t.val < 64 := lt_of_lt_of_eq t.isLt hN
  have hb : 16 * (t.val / 16) + 15 < cfg0.N := lt_of_lt_of_eq (by omega : 16 * (t.val / 16) + 15 < 64) hN.symm
  have same : ∀ (u : ℕ) (hu : u < cfg0.N), u = t.val → acc1 V c u hu = acc1 V c t.val t.isLt := fun u hu e => by subst e; rfl
  rw [← same _ hb (by omega), acc1_at_last V c _ hb, acc1_sweep V c _ hb (ix2 (0 : Fin 1) r), zero_add, Finset.sum_range]
  refine Eq.trans ?_ (Cert.LibTileSum.sum_tiles_fin 16 1024 16384 rfl (fun n : Fin 16384 => Harr V c (ix2 n e)))
  refine Finset.sum_congr rfl fun s _ => ?_
  have hs : s.val < 16 := s.isLt
  unfold add1
  rw [dif_pos (lt_of_lt_of_eq (by omega : 16 * (t.val / 16) + s.val < 64) hN.symm)]
  refine Finset.sum_congr rfl fun k _ => ?_
  beta_reduce
  refine hblk_apply V c _ k r _ e ?_ ?_
  · show s.val * 1024 + k.val = 1024 * ((16 * (t.val / 16) + s.val) % 16) + k.val
    omega
  · show e.val = 2048 * ((16 * (t.val / 16) + s.val) / 16) + r.val
    omega

/-! ## From the blocks to the arrays -/

/-- Contents of the numerator's staging block that agree with an array function on edge block b's rows are
    block b of that function, read through the window. -/
theorem cut_eq_read2 (t : Fin cfg0.N) (X : Vec Ideal S2048x256 .f32) (G : Cert.Spec.Arr 8192 256)
    (h : ∀ (r : Fin 2048) (d : Fin 256) (e : Fin 8192), e.val = 2048 * (t.val / 16) + r.val → (X (ix2 r d) : EReal) = G (ix2 e d)) :
    (cfg0.win 2).cut (grid0.coords t) X = ((cfg0.win 2).blk t).view.read (Elt Ideal) G := by
  have hN : cfg0.N = 64 := N_0
  have hlt : t.val < 64 := lt_of_lt_of_eq t.isLt hN
  obtain ⟨-, -, -, -, e4, e5, -⟩ := idx_facts0 t
  funext j
  obtain ⟨r, d, rfl⟩ : ∃ (r : Fin 2048) (d : Fin 256), j = ix2 r d := ⟨j 0, j 1, eq_ix2 j⟩
  rw [View.read_apply]
  show (X (ix2 r d) : EReal) = G (((cfg0.win 2).blk t).view.emb (ix2 r d))
  have hr : r.val < 2048 := r.isLt
  refine (h r d ⟨2048 * (t.val / 16) + r.val, by omega⟩ rfl).trans ?_
  refine congrArg G (funext fun a => Fin.ext ?_)
  match a with
  | ⟨0, _⟩ => show 2048 * (t.val / 16) + r.val = win0_2.index t (0 : Fin 2) * 2048 + 1 * r.val; rw [e4]; omega
  | ⟨1, _⟩ => show d.val = win0_2.index t (1 : Fin 2) * 256 + 1 * d.val; rw [e5]; omega

/-- The same for the degree row. -/
theorem cut_eq_read3 (t : Fin cfg0.N) (X : Vec Ideal S1x2048 .f32) (G : Cert.Spec.Arr 1 8192)
    (h : ∀ (r : Fin 2048) (e : Fin 8192), e.val = 2048 * (t.val / 16) + r.val → (X (ix2 (0 : Fin 1) r) : EReal) = G (ix2 (0 : Fin 1) e)) :
    (cfg0.win 3).cut (grid0.coords t) X = ((cfg0.win 3).blk t).view.read (Elt Ideal) G := by
  have hN : cfg0.N = 64 := N_0
  have hlt : t.val < 64 := lt_of_lt_of_eq t.isLt hN
  obtain ⟨-, -, -, -, -, -, e6, e7⟩ := idx_facts0 t
  funext j
  obtain ⟨z, r, rfl⟩ : ∃ (z : Fin 1) (r : Fin 2048), j = ix2 z r := ⟨j 0, j 1, eq_ix2 j⟩
  obtain rfl : z = 0 := Subsingleton.elim _ _
  rw [View.read_apply]
  show (X (ix2 (0 : Fin 1) r) : EReal) = G (((cfg0.win 3).blk t).view.emb (ix2 (0 : Fin 1) r))
  have hr : r.val < 2048 := r.isLt
  refine (h r ⟨2048 * (t.val / 16) + r.val, by omega⟩ rfl).trans ?_
  refine congrArg G (funext fun a => Fin.ext ?_)
  match a with
  | ⟨0, _⟩ => show 0 = win0_3.index t (0 : Fin 2) * 1 + 1 * 0; rw [e6]
  | ⟨1, _⟩ => show 2048 * (t.val / 16) + r.val = win0_3.index t (1 : Fin 2) * 2048 + 1 * r.val; rw [e7]; omega

/-- What the last step of edge block b writes back to the numerator array is block b of the column sums. -/
theorem flushed2_eq (c : Dev nD) (t : Fin cfg0.N) (hf : (cfg0.win 2).flush t = true) :
    (dat0 V c).flushed 2 t = ((cfg0.win 2).blk t).view.read (Elt Ideal) (Cert.Spec.numK (Harr V c) (Xarr V c)) := by
  have h15 : t.val % 16 = 15 := (flush0_2 t).mp hf
  show (cfg0.win 2).cut (grid0.coords t) ((dat0 V c).after 2 t) = _
  rw [after0_2, out2_eq_acc0 V c t h15]
  exact cut_eq_read2 t (acc0 V c t.val t.isLt) (Cert.Spec.numK (Harr V c) (Xarr V c))
    (fun r d e he => acc0_last V c t h15 r d e he)

/-- What the last step of edge block b writes back to the degree row is block b of the column sums. -/
theorem flushed3_eq (c : Dev nD) (t : Fin cfg0.N) (hf : (cfg0.win 3).flush t = true) :
    (dat0 V c).flushed 3 t = ((cfg0.win 3).blk t).view.read (Elt Ideal) (Cert.Spec.degK (Harr V c)) := by
  have h15 : t.val % 16 = 15 := (flush0_3 t).mp hf
  show (cfg0.win 3).cut (grid0.coords t) ((dat0 V c).after 3 t) = _
  rw [after0_3, out3_eq_acc1 V c t h15]
  exact cut_eq_read3 t (acc1 V c t.val t.isLt) (Cert.Spec.degK (Harr V c))
    (fun r e he => acc1_last V c t h15 r e he)

/-- An index of the numerator array is in point `t`'s block iff each coordinate is in the block's range on its axis. -/
theorem mem_blk2 (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v2_0).slice (win0_2.rect t)).set ↔ _
  rw [View.set_slice_whole, Rect.mem_set_unit]
  exact Iff.rfl

theorem mem_blk3 (t : Fin cfg0.N) (i : S1x8192.Idx) :
    i ∈ ((cfg0.win 3).blk t).view.set ↔ ∀ a : Fin 2, win0_3.index t a * S1x2048.size a ≤ (i a).val ∧ (i a).val < win0_3.index t a * S1x2048.size a + S1x2048.size a := by
  show i ∈ ((View.whole main_v2_1).slice (win0_3.rect t)).set ↔ _
  rw [View.set_slice_whole, Rect.mem_set_unit]
  exact Iff.rfl

/-- Every row of the numerator array lies in the block some sweep's last step writes back: row e in edge block e / 2048. -/
theorem cover2 (i : S8192x256.Idx) : ∃ t : Fin cfg0.N, (cfg0.win 2).flush t = true ∧ i ∈ ((cfg0.win 2).blk t).view.set := by
  have hN : cfg0.N = 64 := N_0
  have hi0 : (i 0).val < 8192 := (i 0).isLt
  have hi1 : (i 1).val < 256 := (i 1).isLt
  have ht : 16 * ((i 0).val / 2048) + 15 < cfg0.N := lt_of_lt_of_eq (by omega : 16 * ((i 0).val / 2048) + 15 < 64) hN.symm
  refine ⟨⟨16 * ((i 0).val / 2048) + 15, ht⟩, (flush0_2 _).mpr (by show (16 * ((i 0).val / 2048) + 15) % 16 = 15; omega), ?_⟩
  obtain ⟨-, -, -, -, e4, e5, -⟩ := idx_facts0 ⟨16 * ((i 0).val / 2048) + 15, ht⟩
  rw [mem_blk2]
  intro a
  match a with
  | ⟨0, _⟩ =>
    show win0_2.index _ (0 : Fin 2) * 2048 ≤ (i 0).val ∧ (i 0).val < win0_2.index _ (0 : Fin 2) * 2048 + 2048
    rw [e4]
    show (16 * ((i 0).val / 2048) + 15) / 16 * 2048 ≤ (i 0).val ∧ (i 0).val < (16 * ((i 0).val / 2048) + 15) / 16 * 2048 + 2048
    omega
  | ⟨1, _⟩ =>
    show win0_2.index _ (1 : Fin 2) * 256 ≤ (i 1).val ∧ (i 1).val < win0_2.index _ (1 : Fin 2) * 256 + 256
    rw [e5]
    omega

/-- Every entry of the degree row lies in the block some sweep's last step writes back. -/
theorem cover3 (i : S1x8192.Idx) : ∃ t : Fin cfg0.N, (cfg0.win 3).flush t = true ∧ i ∈ ((cfg0.win 3).blk t).view.set := by
  have hN : cfg0.N = 64 := N_0
  have hi0 : (i 0).val < 1 := (i 0).isLt
  have hi1 : (i 1).val < 8192 := (i 1).isLt
  have ht : 16 * ((i 1).val / 2048) + 15 < cfg0.N := lt_of_lt_of_eq (by omega : 16 * ((i 1).val / 2048) + 15 < 64) hN.symm
  refine ⟨⟨16 * ((i 1).val / 2048) + 15, ht⟩, (flush0_3 _).mpr (by show (16 * ((i 1).val / 2048) + 15) % 16 = 15; omega), ?_⟩
  obtain ⟨-, -, -, -, -, -, e6, e7⟩ := idx_facts0 ⟨16 * ((i 1).val / 2048) + 15, ht⟩
  rw [mem_blk3]
  intro a
  match a with
  | ⟨0, _⟩ =>
    show win0_3.index _ (0 : Fin 2) * 1 ≤ (i 0).val ∧ (i 0).val < win0_3.index _ (0 : Fin 2) * 1 + 1
    rw [e6]
    omega
  | ⟨1, _⟩ =>
    show win0_3.index _ (1 : Fin 2) * 2048 ≤ (i 1).val ∧ (i 1).val < win0_3.index _ (1 : Fin 2) * 2048 + 2048
    rw [e7]
    show (16 * ((i 1).val / 2048) + 15) / 16 * 2048 ≤ (i 1).val ∧ (i 1).val < (16 * ((i 1).val / 2048) + 15) / 16 * 2048 + 2048
    omega

/-- After the region the numerator array holds, at (e, d), Σ_n H[n, e] · X[n, d]. -/
theorem final0_2 (c : Dev nD) : (dat0 (F := Ideal) V c).arrAt 2 cfg0.N = Cert.Spec.numK (V c main_arg1) (V c main_v1) :=
  (dat0 V c).arrAt_eq_of_cover 2 (Cert.Spec.numK (Harr V c) (Xarr V c)) (flushed2_eq V c) cover2

/-- After the region the degree row holds, at (0, e), Σ_n H[n, e]. -/
theorem final0_3 (c : Dev nD) : (dat0 (F := Ideal) V c).arrAt 3 cfg0.N = Cert.Spec.degK (V c main_arg1) :=
  (dat0 V c).arrAt_eq_of_cover 3 (Cert.Spec.degK (Harr V c)) (flushed3_eq V c) cover3

end Cert.KernelIdeal.HandValue

end
-- ==== Proof.KI.KPieces1.lean ====
/-
  What each run of the second kernel's body leaves in its buffers, as the payload terms of the printed kernel:
  a sweep's first step stores the zero blocks and then adds the step's contribution to them, a later step adds
  to what the step before left, and the last step moreover stores the rectified quotient of the two accumulators.
-/
import proofs.«421873_j14499809591691_3_alg».proof.Proof.KI.Region1
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]

theorem hz2 : (![0, 0] : Fin 2 → Nat) = fun _ => 0 := funext fun a => by fin_cases a <;> rfl

/-- The 512 rows of the staged hyperedge features the step multiplies by: rows `512·(edge step) …` of the whole array. -/
abbrev evSlice (i : grid1.Coords) (x1 : Vec F S8192x256 .bf16) : Vec F S512x256 .bf16 :=
  View.ld x1 (Rect.unit (s := S8192x256) (k1_off1 i) S512x256.size (k1_off1_inb i))

/-! ## A middle step: each accumulator takes its update over what it held -/

theorem sout_B_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : ¬cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) :
    sout1_B_0 c i arg2 harg2 arg3 harg3 arg4 harg4 arg5 harg5 arg6 harg6 arg7 harg7 arg8 harg8 hc0 hc1 x0 x1 x2 x3 xs0 xs1
      = k1_pay1 (k1_pay6 x0 x2 x3) (k1_pay8 (evSlice i x1)) xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 xs0 xs1)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S2048x512) hz2, View.ld_unit_zero (S := S1x512) hz2, View.ld_unit_zero (S := S2048x1) hz2, View.ld_unit_zero (S := S2048x256) hz2, View.readCov_unit_zero (S := S2048x256) _ hz2, View.readCov_unit_zero (S := S2048x1) _ hz2] <;> rfl

theorem sout_B_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : ¬cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) :
    sout1_B_1 c i arg2 harg2 arg3 harg3 arg4 harg4 arg5 harg5 arg6 harg6 arg7 harg7 arg8 harg8 hc0 hc1 x0 x1 x2 x3 xs0 xs1
      = k1_pay7 x0 x2 x3 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 x3 xs0 xs1)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S2048x512) hz2, View.ld_unit_zero (S := S1x512) hz2, View.ld_unit_zero (S := S2048x1) hz2, View.ld_unit_zero (S := S2048x256) hz2, View.readCov_unit_zero (S := S2048x256) _ hz2, View.readCov_unit_zero (S := S2048x1) _ hz2] <;> rfl

/-! ## The first step of a sweep: the zero blocks, then the update over them -/

theorem sout_A_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : cond1_0 i) (hc1 : ¬cond1_1 i)
    (x0 : Vec F S2048x512 .f32) (x1 : Vec F S8192x256 .bf16) (x2 : Vec F S1x512 .f32) (x3 : Vec F S2048x1 .f32) :
    sout1_A_0 c i arg2 harg2 arg3 harg3 arg4 harg4 arg5 harg5 arg6 harg6 arg7 harg7 arg8 harg8 hc0 hc1 x0 x1 x2 x3
      = k1_pay1 (k1_pay6 x0 x2 x3) (k1_pay8 (evSlice i x1)) (k1_pay3 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3)]
  unfold kernelRun1_A
  dsimp only
  sl_unfold_words
  rw [View.canon_cons_unit_zero (S := S2048x256) hz2, View.readCov_unit_zero (S := S2048x256) _ hz2]
  simp only [View.readAt_eq_ld, harg2.read_unread, harg3.read_unread, harg4.read_unread, harg5.read_unread, harg6.read_unread, harg7.read_unread, harg8.read_unread, View.ld_unit_zero (S := S2048x512) hz2, View.ld_unit_zero (S := S1x512) hz2, View.ld_unit_zero (S := S2048x1) hz2, View.ld_unit_zero (S := S2048x256) hz2, View.readCov_unit_zero (S := S2048x256) _ hz2, View.readCov_unit_zero (S := S2048x1) _ hz2] <;> rfl

theorem sout_A_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : cond1_0 i) (hc1 : ¬cond1_1 i)
    (x0 : Vec F S2048x512 .f32) (x1 : Vec F S8192x256 .bf16) (x2 : Vec F S1x512 .f32) (x3 : Vec F S2048x1 .f32) :
    sout1_A_1 c i arg2 harg2 arg3 harg3 arg4 harg4 arg5 harg5 arg6 harg6 arg7 harg7 arg8 harg8 hc0 hc1 x0 x1 x2 x3
      = k1_pay7 x0 x2 x3 (k1_pay4 (F := F)) := by
  unfold sout1_A_1
  rw [View.read_writes_eq_canon _ _ _ (scover1_A_1 c i arg2 harg2 arg3 harg3 arg4 harg4 arg5 harg5 arg6 harg6 arg7 harg7 arg8 harg8 hc0 hc1 x0 x1 x2 x3)]
  unfold kernelRun1_A
  dsimp only
  sl_unfold_words
  rw [View.canon_cons_unit_zero (S := S2048x1) hz2, View.readCov_unit_zero (S := S2048x1) _ hz2]
  simp only [View.readAt_eq_ld, harg2.read_unread, harg3.read_unread, harg4.read_unread, harg5.read_unread, harg6.read_unread, harg7.read_unread, harg8.read_unread, View.ld_unit_zero (S := S2048x512) hz2, View.ld_unit_zero (S := S1x512) hz2, View.ld_unit_zero (S := S2048x1) hz2, View.ld_unit_zero (S := S2048x256) hz2, View.readCov_unit_zero (S := S2048x256) _ hz2, View.readCov_unit_zero (S := S2048x1) _ hz2] <;> rfl

/-! ## The last step: the updates as at a middle step, and the output block from the two updated accumulators -/

theorem sout_C_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) :
    sout1_C_0 c i arg2 harg2 arg3 harg3 arg4 harg4 arg5 harg5 arg6 harg6 arg7 harg7 arg8 harg8 hc0 hc1 x0 x1 x2 x3 xs0 xs1
      = k1_pay1 (k1_pay6 x0 x2 x3) (k1_pay8 (evSlice i x1)) xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 xs0 xs1)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S2048x512) hz2, View.ld_unit_zero (S := S1x512) hz2, View.ld_unit_zero (S := S2048x1) hz2, View.ld_unit_zero (S := S2048x256) hz2, View.readCov_unit_zero (S := S2048x256) _ hz2, View.readCov_unit_zero (S := S2048x1) _ hz2] <;> rfl

theorem sout_C_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) :
    sout1_C_1 c i arg2 harg2 arg3 harg3 arg4 harg4 arg5 harg5 arg6 harg6 arg7 harg7 arg8 harg8 hc0 hc1 x0 x1 x2 x3 xs0 xs1
      = k1_pay7 x0 x2 x3 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 x3 xs0 xs1)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S2048x512) hz2, View.ld_unit_zero (S := S1x512) hz2, View.ld_unit_zero (S := S2048x1) hz2, View.ld_unit_zero (S := S2048x256) hz2, View.readCov_unit_zero (S := S2048x256) _ hz2, View.readCov_unit_zero (S := S2048x1) _ hz2] <;> rfl

theorem out_C_4 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) :
    out1_C_4 c i arg2 harg2 arg3 harg3 arg4 harg4 arg5 harg5 arg6 harg6 arg7 harg7 arg8 harg8 hc0 hc1 x0 x1 x2 x3 xs0 xs1
      = k1_pay2 (k1_pay1 (k1_pay6 x0 x2 x3) (k1_pay8 (evSlice i x1)) xs0) (k1_pay7 x0 x2 x3 xs1) := by
  unfold out1_C_4
  rw [View.read_writes_eq_canon _ _ _ (cover1_C_4 c i arg2 harg2 arg3 harg3 arg4 harg4 arg5 harg5 arg6 harg6 arg7 harg7 arg8 harg8 hc0 hc1 x0 x1 x2 x3 xs0 xs1)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S2048x512) hz2, View.ld_unit_zero (S := S1x512) hz2, View.ld_unit_zero (S := S2048x1) hz2, View.ld_unit_zero (S := S2048x256) hz2, View.readCov_unit_zero (S := S2048x256) _ hz2, View.readCov_unit_zero (S := S2048x1) _ hz2] <;> rfl

end Cert.KernelIdeal.HandValue

end
-- ==== Proof.KI.KPay1.lean ====
/-
  The second kernel's payloads read at an index over the extended reals. The weight block is
  exp (leaky (8 · tanh ((er + xc) / 8))) · H entry by entry; one step adds to the aggregate accumulator the product
  of the weight block with 512 rows of the hyperedge features, and to the row-sum accumulator the weights' row
  sums; the last step stores the rectified quotient of the aggregate by the row sums.
-/
import proofs.«421873_j14499809591691_3_alg».proof.Proof.Gen.KernelIdeal.Skeleton
import proofs.«421873_j14499809591691_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PayValue

open Cert.KernelIdeal Cert.KernelIdeal.Gen
open Idealize.ShloMosaic Idealize.ShloMosaic.ValueIdx

/-! ## Constants -/

/-- The pattern of `8.0` denotes the real number 8. -/
theorem ofBits_eight : Ideal.ofBits .f32 0x41000000#32 = ((8 : ℝ) : EReal) := by
  simp [Ideal.ofBits, Ideal.ieee, -EReal.coe_mul]; norm_num

/-- The pattern of `0.125` denotes the real number 1/8. -/
theorem ofBits_eighth : Ideal.ofBits .f32 0x3E000000#32 = ((1 / 8 : ℝ) : EReal) := by
  simp [Ideal.ofBits, Ideal.ieee, -EReal.coe_mul]; norm_num

/-! ## A column broadcast over many columns -/

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The weights -/

/-- The weight at row `r`, column `q` of a step's blocks: the incidence entry times the exponential of the
    rectified clamped logit of the hyperedge score at `q` and the node score at `r`. -/
def wgt (h : Vec Ideal S2048x512 .f32) (er : Vec Ideal S1x512 .f32) (xc : Vec Ideal S2048x1 .f32) (r : Fin 2048) (q : Fin 512) : EReal :=
  Ideal.exp (Spec.leaky (Ideal.tanh ((er (ix2 (0 : Fin 1) q) + xc (ix2 r (0 : Fin 1))) * ((1 / 8 : ℝ) : EReal)) * ((8 : ℝ) : EReal))) * h (ix2 r q)

theorem pay5_apply (h : Vec Ideal S2048x512 .f32) (er : Vec Ideal S1x512 .f32) (xc : Vec Ideal S2048x1 .f32) (r : Fin 2048) (q : Fin 512) :
    k1_pay5 (F := Ideal) h er xc (ix2 r q) = wgt h er xc r q := by
  unfold k1_pay5
  simp only [shapeCast_self]
  have e1 : broadcastTo S2048x512 er broadcasts_S1x512_S2048x512 (ix2 r q) = er (ix2 (0 : Fin 1) q) :=
    broadcastTo_1b_ab_apply er broadcasts_S1x512_S2048x512 r q
  have e2 : broadcastTo S2048x512 xc broadcasts_S2048x1_S2048x512 (ix2 r q) = xc (ix2 r (0 : Fin 1)) :=
    broadcastTo_a1_ab_apply xc broadcasts_S2048x1_S2048x512 r q
  show Ideal.exp (Spec.leaky (Ideal.tanh ((broadcastTo S2048x512 er broadcasts_S1x512_S2048x512 (ix2 r q)
      + broadcastTo S2048x512 xc broadcasts_S2048x1_S2048x512 (ix2 r q)) * Ideal.ofBits .f32 0x3E000000#32)
      * Ideal.ofBits .f32 0x41000000#32)) * h (ix2 r q) = _
  rw [e1, e2, ofBits_eighth, ofBits_eight]
  rfl

/-- The rounding to bf16 before the matrix unit is the identity on the extended reals. -/
theorem pay6_apply (h : Vec Ideal S2048x512 .f32) (er : Vec Ideal S1x512 .f32) (xc : Vec Ideal S2048x1 .f32) (r : Fin 2048) (q : Fin 512) :
    k1_pay6 (F := Ideal) h er xc (ix2 r q) = wgt h er xc r q :=
  pay5_apply h er xc r q

theorem pay8_eq (evb : Vec Ideal S512x256 .bf16) : k1_pay8 (F := Ideal) evb = evb := by
  unfold k1_pay8
  exact shapeCast_self evb _

/-! ## The product with the feature rows -/

theorem lhs_mm_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_mm_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_mm_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_mm_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The matrix product onto zero, at `(r, d)`: the sum over the 512 contracted columns. -/
theorem mm_apply (a : FVec Ideal S2048x512 .bf16) (b : FVec Ideal S512x256 .bf16) (r : Fin 2048) (d : Fin 256) :
    FloatOps.matmul dot_S2048x512_S512x256_S2048x256_1_0_0_1_n_n none a b (constant (F := Ideal) S2048x256 .f32 0x00000000#32) (ix2 r d)
      = ∑ k : Fin 512, a (ix2 r k) * b (ix2 k d) := by
  rw [Ideal.matmul_constant_zero_apply, ← Equiv.sum_comp (ValueIdx.contrEquiv1 dot_S2048x512_S512x256_S2048x256_1_0_0_1_n_n 512 rfl rfl).symm]
  refine Finset.sum_congr rfl fun k _ => ?_
  have hk := ValueIdx.contrEquiv1_symm_val dot_S2048x512_S512x256_S2048x256_1_0_0_1_n_n 512 rfl rfl k
  have el : dot_S2048x512_S512x256_S2048x256_1_0_0_1_n_n.lhsIdx (ix2 r d) ((ValueIdx.contrEquiv1 dot_S2048x512_S512x256_S2048x256_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S2048x512_S512x256_S2048x256_1_0_0_1_n_n.rhsIdx (ix2 r d) ((ValueIdx.contrEquiv1 dot_S2048x512_S512x256_S2048x256_1_0_0_1_n_n 512 rfl rfl).symm k) = ix2 k d := funext fun a => Fin.ext (by
    match a with
    | ⟨0, _⟩ => exact (rhs_mm_0 _ _).trans hk
    | ⟨1, _⟩ => exact rhs_mm_1 _ _)
  rw [el, er]

/-- The aggregate's update at `(r, d)`: what it held plus the step's products. -/
theorem pay1_apply (w : FVec Ideal S2048x512 .bf16) (evb : FVec Ideal S512x256 .bf16) (acc : Vec Ideal S2048x256 .f32) (r : Fin 2048) (d : Fin 256) :
    k1_pay1 (F := Ideal) w evb acc (ix2 r d) = acc (ix2 r d) + ∑ k : Fin 512, w (ix2 r k) * evb (ix2 k d) := by
  unfold k1_pay1
  simp only [shapeCast_self]
  exact congrArg (acc (ix2 r d) + ·) (mm_apply w evb r d)

/-! ## The row sums -/

/-- The sum over the columns of a `[2048, 512]` block, at row `r`. -/
theorem rowsum_apply (src : FVec Ideal S2048x512 .f32) (hφ : FKind.Formats .f32)
    (hacc : (0x00000000#32 : BitVec 32) = FKind.add.neutral .f32 hφ) (r : Fin 2048) :
    multiReduction (F := Ideal) .add [1] S2048 src 0x00000000#32 reduces_S2048x512_S2048 hφ hacc (ix1 r)
      = ∑ q : Fin 512, src (ix2 r q) :=
  (Ideal.multiReduction_add_single src 0x00000000#32 reduces_S2048x512_S2048 hφ hacc (ix1 r)).trans
    (Finset.sum_congr rfl fun q _ => congrArg src (funext fun a => Fin.ext (by
      match a with
      | ⟨0, _⟩ => rfl
      | ⟨1, _⟩ => rfl)))

/-- The row-sum accumulator's update at row `r`: what it held plus the weights' row sum. -/
theorem pay7_apply (h : Vec Ideal S2048x512 .f32) (er : Vec Ideal S1x512 .f32) (xc : Vec Ideal S2048x1 .f32) (acc : Vec Ideal S2048x1 .f32) (r : Fin 2048) (z : Fin 1) :
    k1_pay7 (F := Ideal) h er xc acc (ix2 r z) = acc (ix2 r z) + ∑ q : Fin 512, wgt h er xc r q := by
  unfold k1_pay7
  simp only [shapeCast_self]
  refine congrArg (acc (ix2 r z) + ·) ?_
  refine (shapeCast_apply _ shapeCasts_S2048_S2048x1 (ix2 r z) (ix1 r) ?_).trans ?_
  · rw [Shape.rowMajor_val_one, Shape.rowMajor_val_two]
    show r.val = r.val * 1 + z.val
    have := z.isLt; omega
  · refine (rowsum_apply _ _ _ r).trans (Finset.sum_congr rfl fun q _ => pay5_apply h er xc r q)

/-! ## The zero blocks and the stored quotient -/

theorem pay3_apply (i : S2048x256.Idx) : k1_pay3 (F := Ideal) i = 0 := by
  unfold k1_pay3
  simp only [shapeCast_self]
  exact Ideal.ofBits_zero_f32

theorem pay4_apply (i : S2048x1.Idx) : k1_pay4 (F := Ideal) i = 0 := by
  unfold k1_pay4
  simp only [shapeCast_self]
  exact Ideal.ofBits_zero_f32

/-- The stored block at `(r, d)`: the rectified quotient of the aggregate by the row sum. -/
theorem pay2_apply (a : Vec Ideal S2048x256 .f32) (s : Vec Ideal S2048x1 .f32) (r : Fin 2048) (d : Fin 256) :
    k1_pay2 (F := Ideal) a s (ix2 r d) = Spec.leaky (Ideal.div (a (ix2 r d)) (s (ix2 r (0 : Fin 1)))) := by
  unfold k1_pay2
  have e : broadcastTo S2048x256 s broadcasts_S2048x1_S2048x256 (ix2 r d) = s (ix2 r (0 : Fin 1)) :=
    broadcastTo_a1_ab_apply s broadcasts_S2048x1_S2048x256 r d
  show Spec.leaky (Ideal.div (a (ix2 r d)) (broadcastTo S2048x256 s broadcasts_S2048x1_S2048x256 (ix2 r d))) = _
  rw [e]

end Cert.KernelIdeal.PayValue

end
-- ==== Proof.KI.KValue1.lean ====
/-
  What the second kernel leaves in its result array. At every point of a sweep each accumulator holds the sum of
  the contributions of the sweep's steps so far; a step's contribution, read through the windows' blocks, is a
  tile of the sums that define the masked weights' aggregate and their row sums; at the sweep's last step the
  stored block is the rectified quotient of the two complete sums, which is the specification's function on the
  block's rows; the eight sweeps' blocks tile the result array.
-/
import proofs.«421873_j14499809591691_3_alg».proof.Proof.KI.KPieces1
import proofs.«421873_j14499809591691_3_alg».proof.Proof.KI.KPay1
import proofs.«421873_j14499809591691_3_alg».proof.Proof.KSpec
import proofs.«421873_j14499809591691_3_alg».proof.Proof.LibTileSum
import Idealize.ShloMosaic.Lib.Pipeline.Value

set_option maxRecDepth 16384

noncomputable section

namespace Cert.KernelIdeal.HandValue1

open Cert.KernelIdeal Cert.KernelIdeal.Gen Cert.KernelIdeal.Hand Cert.KernelIdeal.HandValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The arrays the region reads and the blocks its windows hand the body -/

/-- The incidence array. -/
abbrev Harr (c : Dev nD) : Vec Ideal S16384x8192 .f32 := V c main_arg1
/-- The hyperedge features. -/
abbrev evArr (c : Dev nD) : Vec Ideal S8192x256 .bf16 := V c main_v7
/-- The row of hyperedge scores. -/
abbrev erArr (c : Dev nD) : Vec Ideal S1x8192 .f32 := V c main_v10
/-- The column of node scores. -/
abbrev xcArr (c : Dev nD) : Vec Ideal S16384x1 .f32 := V c main_v12

abbrev hblk (c : Dev nD) (t : Fin cfg1.N) : Vec Ideal S2048x512 .f32 := iblk1 V c 0 t
abbrev evst (c : Dev nD) (t : Fin cfg1.N) : Vec Ideal S8192x256 .bf16 := iblk1 V c 1 t
abbrev erblk (c : Dev nD) (t : Fin cfg1.N) : Vec Ideal S1x512 .f32 := iblk1 V c 2 t
abbrev xcblk (c : Dev nD) (t : Fin cfg1.N) : Vec Ideal S2048x1 .f32 := iblk1 V c 3 t

/-- The windows' block indices and the body's row offset into the staged features, at point
    `t = 16·(node block) + (edge step)`. -/
theorem idx_facts : ∀ t : Fin cfg1.N,
    win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = 0 ∧ win1_2.index t (1 : Fin 2) = t.val % 16
    ∧ win1_3.index t (0 : Fin 2) = t.val / 16 ∧ win1_3.index t (1 : Fin 2) = 0
    ∧ win1_4.index t (0 : Fin 2) = t.val / 16 ∧ win1_4.index t (1 : Fin 2) = 0
    ∧ k1_off1 (grid1.coords t) (0 : Fin 2) = t.val % 16 * 512 ∧ k1_off1 (grid1.coords t) (1 : Fin 2) = 0 :=
  (by decide +kernel : ∀ t : Fin grid1.N, _)

/-- The incidence block at point `t` holds rows `2048·(t / 16) …` and columns `512·(t % 16) …` of the array. -/
theorem hblk_apply (c : Dev nD) (t : Fin cfg1.N) (r : Fin 2048) (q : Fin 512) (R : Fin 16384) (Q : Fin 8192)
    (hR : R.val = t.val / 16 * 2048 + r.val) (hQ : Q.val = t.val % 16 * 512 + q.val) :
    hblk V c t (ix2 r q) = Harr V c (ix2 R Q) := by
  obtain ⟨e0, e1, -⟩ := idx_facts t
  show iblk1 V c 0 t (ix2 r q) = _
  unfold iblk1
  rw [View.read_apply]
  show V c main_arg1 _ = V c main_arg1 _
  congr 1
  funext a
  apply Fin.ext
  match a with
  | ⟨0, _⟩ => show win1_0.index t 0 * 2048 + 1 * r.val = R.val; rw [e0, hR]; omega
  | ⟨1, _⟩ => show win1_0.index t 1 * 512 + 1 * q.val = Q.val; rw [e1, hQ]; omega

/-- The score-row block holds columns `512·(t % 16) …`. -/
theorem erblk_apply (c : Dev nD) (t : Fin cfg1.N) (q : Fin 512) (Q : Fin 8192)
    (hQ : Q.val = t.val % 16 * 512 + q.val) :
    erblk V c t (ix2 (0 : Fin 1) q) = erArr V c (ix2 (0 : Fin 1) Q) := by
  obtain ⟨-, -, -, -, e0, e1, -⟩ := idx_facts t
  show iblk1 V c 2 t (ix2 (0 : Fin 1) q) = _
  unfold iblk1
  rw [View.read_apply]
  show V c main_v10 _ = V c main_v10 _
  congr 1
  funext a
  apply Fin.ext
  match a with
  | ⟨0, _⟩ => show win1_2.index t 0 * 1 + 1 * 0 = 0; rw [e0]
  | ⟨1, _⟩ => show win1_2.index t 1 * 512 + 1 * q.val = Q.val; rw [e1, hQ]; omega

/-- The score-column block holds rows `2048·(t / 16) …`. -/
theorem xcblk_apply (c : Dev nD) (t : Fin cfg1.N) (r : Fin 2048) (R : Fin 16384)
    (hR : R.val = t.val / 16 * 2048 + r.val) :
    xcblk V c t (ix2 r (0 : Fin 1)) = xcArr V c (ix2 R (0 : Fin 1)) := by
  obtain ⟨-, -, -, -, -, -, e0, e1, -⟩ := idx_facts t
  show iblk1 V c 3 t (ix2 r (0 : Fin 1)) = _
  unfold iblk1
  rw [View.read_apply]
  show V c main_v12 _ = V c main_v12 _
  congr 1
  funext a
  apply Fin.ext
  match a with
  | ⟨0, _⟩ => show win1_3.index t 0 * 2048 + 1 * r.val = R.val; rw [e0, hR]; omega
  | ⟨1, _⟩ => show win1_3.index t 1 * 1 + 1 * 0 = 0; rw [e1]

/-- The 512 feature rows the body reads at point `t` are rows `512·(t % 16) …` of the whole staged array. -/
theorem evslice_apply (c : Dev nD) (t : Fin cfg1.N) (k : Fin 512) (d : Fin 256) (K : Fin 8192)
    (hK : K.val = t.val % 16 * 512 + k.val) :
    evSlice (grid1.coords t) (evst V c t) (ix2 k d) = evArr V c (ix2 K d) := by
  obtain ⟨-, -, e2, e3, -, -, -, -, -, -, eo0, eo1⟩ := idx_facts t
  show iblk1 V c 1 t ((Rect.unit (s := S8192x256) (k1_off1 (grid1.coords t)) S512x256.size (k1_off1_inb (grid1.coords t))).emb (ix2 k d)) = _
  unfold iblk1
  rw [View.read_apply]
  show V c main_v7 _ = V c main_v7 _
  congr 1
  funext a
  apply Fin.ext
  match a with
  | ⟨0, _⟩ => show win1_1.index t 0 * 8192 + 1 * (k1_off1 (grid1.coords t) 0 + 1 * k.val) = K.val; rw [e2, eo0, hK]; omega
  | ⟨1, _⟩ => show win1_1.index t 1 * 256 + 1 * (k1_off1 (grid1.coords t) 1 + 1 * d.val) = d.val; rw [e3, eo1]; omega

/-! ## The accumulators after each point, as payloads of the blocks -/

/-- At the first step of a sweep both accumulators hold their update over the zero blocks. -/
theorem accs_first (c : Dev nD) (t : Fin cfg1.N) (h0 : t.val % 16 = 0) :
    (outsAt1 V c t.val t.isLt).2.1 = k1_pay1 (k1_pay6 (hblk V c t) (erblk V c t) (xcblk V c t)) (k1_pay8 (evSlice (grid1.coords t) (evst V c t))) (k1_pay3 (F := Ideal))
    ∧ (outsAt1 V c t.val t.isLt).2.2 = k1_pay7 (hblk V c t) (erblk V c t) (xcblk V c t) (k1_pay4 (F := Ideal)) := by
  have hc1 : ¬cond1_1 (grid1.coords t) := fun h => by have := (hcond1_1 t).mp h; omega
  rw [outsAt1_A V c t h0]
  dsimp only
  exact ⟨sout_A_0 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) hc1 (iblk1 V c 0 t) (iblk1 V c 1 t) (iblk1 V c 2 t) (iblk1 V c 3 t),
    sout_A_1 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) hc1 (iblk1 V c 0 t) (iblk1 V c 1 t) (iblk1 V c 2 t) (iblk1 V c 3 t)⟩

/-- At every later step both accumulators hold their update over what the point before left. -/
theorem accs_next (c : Dev nD) (t : Fin cfg1.N) (h0 : ¬t.val % 16 = 0) :
    (outsAt1 V c t.val t.isLt).2.1 = k1_pay1 (k1_pay6 (hblk V c t) (erblk V c t) (xcblk V c t)) (k1_pay8 (evSlice (grid1.coords t) (evst V c t))) (outsAt1 V c (t.val - 1) (Nat.lt_of_le_of_lt (Nat.sub_le _ _) t.isLt)).2.1
    ∧ (outsAt1 V c t.val t.isLt).2.2 = k1_pay7 (hblk V c t) (erblk V c t) (xcblk V c t) (outsAt1 V c (t.val - 1) (Nat.lt_of_le_of_lt (Nat.sub_le _ _) t.isLt)).2.2 := by
  have hc0 : ¬cond1_0 (grid1.coords t) := fun h => h0 ((hcond1_0 t).mp h)
  by_cases h1 : t.val % 16 = 15
  · rw [outsAt1_C V c t h0 h1]
    dsimp only
    exact ⟨sout_C_0 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      sout_C_1 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2⟩
  · rw [outsAt1_B V c t h0 h1]
    dsimp only
    exact ⟨sout_B_0 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      sout_B_1 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2⟩

/-- At the last step the output block is the rectified quotient of the two accumulators as that step leaves them. -/
theorem out_last (c : Dev nD) (t : Fin cfg1.N) (h0 : ¬t.val % 16 = 0) (h1 : t.val % 16 = 15) :
    (outsAt1 V c t.val t.isLt).1 = k1_pay2 (outsAt1 V c t.val t.isLt).2.1 (outsAt1 V c t.val t.isLt).2.2 := by
  have hc0 : ¬cond1_0 (grid1.coords t) := fun h => h0 ((hcond1_0 t).mp h)
  rw [(accs_next V c t h0).1, (accs_next V c t h0).2, outsAt1_C V c t h0 h1]
  dsimp only
  exact out_C_4 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

/-! ## One step's contributions, and the accumulators as their sums -/

/-- What the step at point `t` adds to the aggregate at row `r`, feature `d`. -/
def add0 (c : Dev nD) (t : Fin cfg1.N) (r : Fin 2048) (d : Fin 256) : EReal :=
  ∑ k : Fin 512, PayValue.wgt (hblk V c t) (erblk V c t) (xcblk V c t) r k * (evSlice (grid1.coords t) (evst V c t) (ix2 k d) : EReal)

/-- What the step at point `t` adds to the row sums at row `r`. -/
def add1 (c : Dev nD) (t : Fin cfg1.N) (r : Fin 2048) : EReal :=
  ∑ q : Fin 512, PayValue.wgt (hblk V c t) (erblk V c t) (xcblk V c t) r q

theorem acc0_first (c : Dev nD) (t : Fin cfg1.N) (h0 : t.val % 16 = 0) (r : Fin 2048) (d : Fin 256) :
    (outsAt1 V c t.val t.isLt).2.1 (ix2 r d) = add0 V c t r d := by
  rw [(accs_first V c t h0).1, PayValue.pay1_apply, PayValue.pay3_apply, zero_add]
  exact Finset.sum_congr rfl fun k _ => by rw [PayValue.pay6_apply, PayValue.pay8_eq]

theorem acc1_first (c : Dev nD) (t : Fin cfg1.N) (h0 : t.val % 16 = 0) (r : Fin 2048) (z : Fin 1) :
    (outsAt1 V c t.val t.isLt).2.2 (ix2 r z) = add1 V c t r := by
  rw [(accs_first V c t h0).2, PayValue.pay7_apply, PayValue.pay4_apply, zero_add]
  rfl

theorem acc0_next (c : Dev nD) (t : Fin cfg1.N) (h0 : ¬t.val % 16 = 0) (r : Fin 2048) (d : Fin 256) :
    (outsAt1 V c t.val t.isLt).2.1 (ix2 r d) = (outsAt1 V c (t.val - 1) (Nat.lt_of_le_of_lt (Nat.sub_le _ _) t.isLt)).2.1 (ix2 r d) + add0 V c t r d := by
  rw [(accs_next V c t h0).1, PayValue.pay1_apply]
  exact congrArg ((outsAt1 V c (t.val - 1) (Nat.lt_of_le_of_lt (Nat.sub_le _ _) t.isLt)).2.1 (ix2 r d) + ·)
    (Finset.sum_congr rfl fun k _ => by rw [PayValue.pay6_apply, PayValue.pay8_eq])

theorem acc1_next (c : Dev nD) (t : Fin cfg1.N) (h0 : ¬t.val % 16 = 0) (r : Fin 2048) (z : Fin 1) :
    (outsAt1 V c t.val t.isLt).2.2 (ix2 r z) = (outsAt1 V c (t.val - 1) (Nat.lt_of_le_of_lt (Nat.sub_le _ _) t.isLt)).2.2 (ix2 r z) + add1 V c t r := by
  rw [(accs_next V c t h0).2, PayValue.pay7_apply]
  rfl

/-- A step's contribution to the aggregate, by the point's position in the grid (zero past the grid). -/
def A0 (c : Dev nD) (r : Fin 2048) (d : Fin 256) (n : ℕ) : EReal := if h : n < cfg1.N then add0 V c ⟨n, h⟩ r d else 0
/-- A step's contribution to the row sums, by the point's position in the grid (zero past the grid). -/
def A1 (c : Dev nD) (r : Fin 2048) (n : ℕ) : EReal := if h : n < cfg1.N then add1 V c ⟨n, h⟩ r else 0

/-- After step `s` of the sweep that starts at point `16·b` the accumulators hold the sums of the contributions of
    steps `0 … s`: by induction on the step. -/
theorem fold (c : Dev nD) (b : ℕ) (r : Fin 2048) (d : Fin 256) : ∀ (s : ℕ) (_ : s < 16) (hn : 16 * b + s < cfg1.N),
    (outsAt1 V c (16 * b + s) hn).2.1 (ix2 r d) = ∑ j ∈ Finset.range (s + 1), A0 V c r d (16 * b + j)
    ∧ (outsAt1 V c (16 * b + s) hn).2.2 (ix2 r (0 : Fin 1)) = ∑ j ∈ Finset.range (s + 1), A1 V c r (16 * b + j)
  | 0, _, hn => by
    have h0 : (⟨16 * b + 0, hn⟩ : Fin cfg1.N).val % 16 = 0 := by show (16 * b + 0) % 16 = 0; omega
    rw [Finset.sum_range_one, Finset.sum_range_one]
    unfold A0 A1
    rw [dif_pos hn, dif_pos hn]
    exact ⟨acc0_first V c ⟨16 * b + 0, hn⟩ h0 r d, acc1_first V c ⟨16 * b + 0, hn⟩ h0 r 0⟩
  | s + 1, hs, hn => by
    have h0 : ¬(⟨16 * b + (s + 1), hn⟩ : Fin cfg1.N).val % 16 = 0 := by show ¬(16 * b + (s + 1)) % 16 = 0; omega
    obtain ⟨ih0, ih1⟩ := fold c b r d s (by omega) (Nat.lt_of_succ_lt hn)
    rw [Finset.sum_range_succ _ (s + 1), Finset.sum_range_succ _ (s + 1), ← ih0, ← ih1]
    unfold A0 A1
    rw [dif_pos hn, dif_pos hn]
    exact ⟨acc0_next V c ⟨16 * b + (s + 1), hn⟩ h0 r d, acc1_next V c ⟨16 * b + (s + 1), hn⟩ h0 r 0⟩

/-! ## A step's contribution is a tile of the specification's sums -/

/-- Column `k` of edge step `j`'s tile. -/
abbrev col (j : Fin 16) (k : Fin 512) : Fin 8192 := ⟨j.val * 512 + k.val, by have := j.isLt; have := k.isLt; omega⟩

/-- The weight the body computes from its blocks is the specification's masked weight at the global row and column. -/
theorem wgt_blk (c : Dev nD) (t : Fin cfg1.N) (r : Fin 2048) (q : Fin 512) (R : Fin 16384) (Q : Fin 8192)
    (hR : R.val = t.val / 16 * 2048 + r.val) (hQ : Q.val = t.val % 16 * 512 + q.val) :
    PayValue.wgt (hblk V c t) (erblk V c t) (xcblk V c t) r q = Spec.hattK (Harr V c) (erArr V c) (xcArr V c) R Q := by
  unfold PayValue.wgt Spec.hattK
  rw [hblk_apply V c t r q R Q hR hQ, erblk_apply V c t q Q hQ, xcblk_apply V c t r R hR]

theorem add0_global (c : Dev nD) (t : Fin cfg1.N) (b : ℕ) (j : Fin 16) (ht : t.val = 16 * b + j.val)
    (r : Fin 2048) (d : Fin 256) (R : Fin 16384) (hR : R.val = b * 2048 + r.val) :
    add0 V c t r d = ∑ k : Fin 512, Spec.hattK (Harr V c) (erArr V c) (xcArr V c) R (col j k) * evArr V c (ix2 (col j k) d) := by
  have hj := j.isLt
  have hq : t.val % 16 = j.val := by omega
  have hb : t.val / 16 = b := by omega
  unfold add0
  refine Finset.sum_congr rfl fun k _ => ?_
  rw [wgt_blk V c t r k R (col j k) (by rw [hb]; exact hR) (by rw [hq]),
    evslice_apply V c t k d (col j k) (by rw [hq])]

theorem add1_global (c : Dev nD) (t : Fin cfg1.N) (b : ℕ) (j : Fin 16) (ht : t.val = 16 * b + j.val)
    (r : Fin 2048) (R : Fin 16384) (hR : R.val = b * 2048 + r.val) :
    add1 V c t r = ∑ k : Fin 512, Spec.hattK (Harr V c) (erArr V c) (xcArr V c) R (col j k) := by
  have hj := j.isLt
  have hq : t.val % 16 = j.val := by omega
  have hb : t.val / 16 = b := by omega
  unfold add1
  refine Finset.sum_congr rfl fun k _ => ?_
  rw [wgt_blk V c t r k R (col j k) (by rw [hb]; exact hR) (by rw [hq])]

/-- The sixteen steps' contributions to the aggregate regroup into the sum over all 8192 hyperedges. -/
theorem sum_A0 (c : Dev nD) (b : ℕ) (hb : b < 8) (r : Fin 2048) (d : Fin 256) (R : Fin 16384) (hR : R.val = b * 2048 + r.val) :
    ∑ j ∈ Finset.range 16, A0 V c r d (16 * b + j)
      = ∑ e : Fin 8192, Spec.hattK (Harr V c) (erArr V c) (xcArr V c) R e * evArr V c (ix2 e d) := by
  have hN : cfg1.N = 128 := N_1
  rw [Finset.sum_range]
  refine Eq.trans (Finset.sum_congr rfl fun j _ => ?_)
    (Cert.LibTileSum.sum_tiles_fin 16 512 8192 rfl fun e => Spec.hattK (Harr V c) (erArr V c) (xcArr V c) R e * evArr V c (ix2 e d))
  have hj := j.isLt
  have hn : 16 * b + j.val < cfg1.N := by omega
  unfold A0
  rw [dif_pos hn]
  exact add0_global V c ⟨16 * b + j.val, hn⟩ b j rfl r d R hR

/-- The sixteen steps' contributions to the row sums regroup into the sum over all 8192 hyperedges. -/
theorem sum_A1 (c : Dev nD) (b : ℕ) (hb : b < 8) (r : Fin 2048) (R : Fin 16384) (hR : R.val = b * 2048 + r.val) :
    ∑ j ∈ Finset.range 16, A1 V c r (16 * b + j)
      = ∑ e : Fin 8192, Spec.hattK (Harr V c) (erArr V c) (xcArr V c) R e := by
  have hN : cfg1.N = 128 := N_1
  rw [Finset.sum_range]
  refine Eq.trans (Finset.sum_congr rfl fun j _ => ?_)
    (Cert.LibTileSum.sum_tiles_fin 16 512 8192 rfl fun e => Spec.hattK (Harr V c) (erArr V c) (xcArr V c) R e)
  have hj := j.isLt
  have hn : 16 * b + j.val < cfg1.N := by omega
  unfold A1
  rw [dif_pos hn]
  exact add1_global V c ⟨16 * b + j.val, hn⟩ b j rfl r R hR

/-! ## The stored block and the result array -/

/-- The accumulators' contents depend on the point's position only. -/
theorem outsAt1_congr (c : Dev nD) (u v : ℕ) (hu : u < cfg1.N) (hv : v < cfg1.N) (e : u = v) :
    outsAt1 V c u hu = outsAt1 V c v hv := by
  subst e; rfl

/-- What the last step of a sweep stores, at row `r` and feature `d` of its block, is the specification's function at
    the block's global row. -/
theorem stored_apply (c : Dev nD) (t : Fin cfg1.N) (h15 : t.val % 16 = 15) (r : Fin 2048) (d : Fin 256) (R : Fin 16384)
    (hR : R.val = t.val / 16 * 2048 + r.val) :
    (outsAt1 V c t.val t.isLt).1 (ix2 r d)
      = Spec.outK (Harr V c) (erArr V c) (xcArr V c) (evArr V c) (ix2 R d) := by
  have hN : cfg1.N = 128 := N_1
  have ht := t.isLt
  have h0 : ¬t.val % 16 = 0 := by omega
  have hb : t.val / 16 < 8 := by omega
  have hn : 16 * (t.val / 16) + 15 < cfg1.N := by omega
  obtain ⟨f0, f1⟩ := fold V c (t.val / 16) r d 15 (by omega) hn
  rw [out_last V c t h0 h15, PayValue.pay2_apply,
    outsAt1_congr V c t.val (16 * (t.val / 16) + 15) t.isLt hn (by omega), f0, f1,
    sum_A0 V c (t.val / 16) hb r d R hR, sum_A1 V c (t.val / 16) hb r R hR]
  rfl

/-! ## The result array's blocks -/

/-- An index of the result array is in point `t`'s block iff each coordinate is in the block's range. -/
theorem mem_blk (t : Fin cfg1.N) (i : S16384x256.Idx) :
    i ∈ ((cfg1.win 4).blk t).view.set ↔ ∀ a : Fin 2, win1_4.index t a * S2048x256.size a ≤ (i a).val ∧ (i a).val < win1_4.index t a * S2048x256.size a + S2048x256.size a := by
  show i ∈ ((View.whole main_v13).slice (win1_4.rect t)).set ↔ _
  rw [View.set_slice_whole, Rect.mem_set_unit]
  exact Iff.rfl

/-- What the write-back at the last step of a sweep writes is that sweep's block of the specification's function. -/
theorem flushed_eq (c : Dev nD) (t : Fin cfg1.N) (hf : (cfg1.win 4).flush t = true) :
    (dat1 V c).flushed 4 t
      = ((cfg1.win 4).blk t).view.read (Elt Ideal) (Spec.outK (Harr V c) (erArr V c) (xcArr V c) (evArr V c)) := by
  have h15 : t.val % 16 = 15 := (flush1_4 t).mp hf
  have hN : cfg1.N = 128 := N_1
  have ht := t.isLt
  obtain ⟨-, -, -, -, -, -, -, -, e0, e1, -⟩ := idx_facts t
  show (cfg1.win 4).cut (grid1.coords t) ((dat1 V c).after 4 t) = _
  rw [after1_4]
  funext j
  obtain ⟨r, d, rfl⟩ : ∃ (r : Fin 2048) (d : Fin 256), j = ix2 r d := ⟨j 0, j 1, eq_ix2 j⟩
  have hr := r.isLt
  rw [View.read_apply]
  show (outsAt1 V c t.val t.isLt).1 (ix2 r d) = Spec.outK (Harr V c) (erArr V c) (xcArr V c) (evArr V c) (((cfg1.win 4).blk t).view.emb (ix2 r d))
  have hemb : ((cfg1.win 4).blk t).view.emb (ix2 r d) = ix2 (⟨t.val / 16 * 2048 + r.val, by omega⟩ : Fin 16384) d := by
    funext a
    apply Fin.ext
    match a with
    | ⟨0, _⟩ => show win1_4.index t 0 * 2048 + 1 * r.val = t.val / 16 * 2048 + r.val; rw [e0]; omega
    | ⟨1, _⟩ => show win1_4.index t 1 * 256 + 1 * d.val = d.val; rw [e1]; omega
  rw [hemb]
  exact stored_apply V c t h15 r d _ rfl

/-- Every index of the result array is in the block the last step of its rows' sweep writes back. -/
theorem covered (i : S16384x256.Idx) :
    ∃ t : Fin cfg1.N, (cfg1.win 4).flush t = true ∧ i ∈ ((cfg1.win 4).blk t).view.set := by
  have hN : cfg1.N = 128 := N_1
  have hi0 : (i 0).val < 16384 := (i 0).isLt
  have hi1 : (i 1).val < 256 := (i 1).isLt
  have hn : 16 * ((i 0).val / 2048) + 15 < cfg1.N := by omega
  refine ⟨⟨16 * ((i 0).val / 2048) + 15, hn⟩, (flush1_4 _).mpr (by show (16 * ((i 0).val / 2048) + 15) % 16 = 15; omega), ?_⟩
  obtain ⟨-, -, -, -, -, -, -, -, e0, e1, -⟩ := idx_facts ⟨16 * ((i 0).val / 2048) + 15, hn⟩
  rw [mem_blk]
  intro a
  match a with
  | ⟨0, _⟩ =>
    show win1_4.index ⟨16 * ((i 0).val / 2048) + 15, hn⟩ 0 * 2048 ≤ (i 0).val ∧ (i 0).val < win1_4.index ⟨16 * ((i 0).val / 2048) + 15, hn⟩ 0 * 2048 + 2048
    rw [e0]
    show (16 * ((i 0).val / 2048) + 15) / 16 * 2048 ≤ (i 0).val ∧ (i 0).val < (16 * ((i 0).val / 2048) + 15) / 16 * 2048 + 2048
    omega
  | ⟨1, _⟩ =>
    show win1_4.index ⟨16 * ((i 0).val / 2048) + 15, hn⟩ 1 * 256 ≤ (i 1).val ∧ (i 1).val < win1_4.index ⟨16 * ((i 0).val / 2048) + 15, hn⟩ 1 * 256 + 256
    rw [e1]
    omega

/-- The result array after the region is the specification's function of the four arrays the region reads. -/
theorem final1_4 (c : Dev nD) :
    (dat1 (F := Ideal) V c).arrAt 4 cfg1.N = Cert.Spec.outK (V c main_arg1) (V c main_v10) (V c main_v12) (V c main_v7) :=
  (dat1 V c).arrAt_eq_of_cover 4 (Spec.outK (Harr V c) (erArr V c) (xcArr V c) (evArr V c))
    (fun t hf => flushed_eq V c t hf) covered

end Cert.KernelIdeal.HandValue1

end
-- ==== Proof.KI.KFinal.lean ====
/-
  The idealized kernel program's result, read off the run: the buffer of the second call's output at the last
  boundary is the specification's `kerOut` of the seven argument arrays. The first host stretch leaves the projected
  node features; the first call leaves their aggregate against the incidence and the hyperedge degrees (plain column
  sums once the tiles' partial sums are regrouped); the second host stretch leaves the normalised hyperedge features
  and the two score vectors; the second call leaves the rectified quotient of the weighted aggregate by the row sums.
  No finiteness is used here: only sums are regrouped.
-/
import proofs.«421873_j14499809591691_3_alg».proof.Proof.KI.Main
import proofs.«421873_j14499809591691_3_alg».proof.Proof.KI.KHost
import proofs.«421873_j14499809591691_3_alg».proof.Proof.KI.KValue0
import proofs.«421873_j14499809591691_3_alg».proof.Proof.KI.KValue1
import proofs.«421873_j14499809591691_3_alg».proof.Proof.KSpec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- A host stretch leaves a buffer it does not write as it found it. -/
theorem keep0 (W : Valuation τ sig (Elt Ideal)) (r : Ref sig .tc) (h : r ∉ hostOps0_W) :
    StableHlo.after hostOps0 W (Proc.devRef .tc r) = W (Proc.devRef .tc r) :=
  StableHlo.after_of_writes_sub hostOps0 W hostOps0_writes h
theorem keep1 (W : Valuation τ sig (Elt Ideal)) (r : Ref sig .tc) (h : r ∉ hostOps1_W) :
    StableHlo.after hostOps1 W (Proc.devRef .tc r) = W (Proc.devRef .tc r) :=
  StableHlo.after_of_writes_sub hostOps1 W hostOps1_writes h

/-- After the first call an argument no window of it stages is as launched. -/
theorem W2_arg (c : Dev nD) (r : Ref sig .tc) (h0 : r ∉ hostOps0_W) (hw : ∀ w, Pipeline.arrRef spec0 w ≠ r) :
    W2 m ρ c (Proc.devRef .tc r) = m ((c : Thread nD τ).loc r) :=
  (W2_of_ne m ρ c r hw).trans ((keep0 (W0 m ρ c) r h0).trans rfl)

/-- The incidence array reaches both calls as launched. -/
theorem V1_arg1 (c : Dev nD) : V1 m ρ c main_arg1 = m ((c : Thread nD τ).loc main_arg1) :=
  (keep0 (W0 m ρ c) main_arg1 (by decide)).trans rfl
theorem W2_arg1 (c : Dev nD) : W2 m ρ c (Proc.devRef .tc main_arg1) = m ((c : Thread nD τ).loc main_arg1) :=
  (W2_arr m ρ c 0).trans (((dat0 (V1 m ρ) c).arrAt_in 0 rfl _).trans ((A_eq0 (V1 m ρ) c 0).trans (V1_arg1 m ρ c)))
theorem V3_arg1 (c : Dev nD) : V3 m ρ c main_arg1 = m ((c : Thread nD τ).loc main_arg1) :=
  (keep1 (W2 m ρ c) main_arg1 (by decide)).trans (W2_arg1 m ρ c)

/-- The first host stretch leaves the projected node features. -/
theorem V1_v1 (c : Dev nD) : V1 m ρ c main_v1
    = fun i => Cert.Spec.xw (m ((c : Thread nD τ).loc main_arg0)) (m ((c : Thread nD τ).loc main_arg2)) (i 0) (i 1) :=
  v1_eq (W0 m ρ c)

/-- The first call leaves the aggregate of the projected features against the incidence … -/
theorem W2_num (c : Dev nD) (e : Fin 8192) (d : Fin 256) :
    W2 m ρ c (Proc.devRef .tc main_v2_0) (ix2 e d)
      = Cert.Spec.enum (W2 m ρ c (Proc.devRef .tc main_arg0)) (m ((c : Thread nD τ).loc main_arg1)) (m ((c : Thread nD τ).loc main_arg2)) e d := by
  have h2 : W2 m ρ c (Proc.devRef .tc main_v2_0) = Cert.Spec.numK (V1 m ρ c main_arg1) (V1 m ρ c main_v1) :=
    (W2_arr m ρ c 2).trans (final0_2 (V1 m ρ) c)
  rw [h2, W2_arg m ρ c main_arg0 (by decide) (by decide), V1_arg1, V1_v1]
  rfl
/-- … and the hyperedge degrees. -/
theorem W2_deg (c : Dev nD) (e : Fin 8192) :
    W2 m ρ c (Proc.devRef .tc main_v2_1) (ix2 (0 : Fin 1) e) = Cert.Spec.deg (m ((c : Thread nD τ).loc main_arg1)) e := by
  have h3 : W2 m ρ c (Proc.devRef .tc main_v2_1) = Cert.Spec.degK (V1 m ρ c main_arg1) :=
    (W2_arr m ρ c 3).trans (final0_3 (V1 m ρ) c)
  rw [h3, V1_arg1]
  rfl

/-- THE KERNEL'S RESULT: the second call's output array at the last boundary is the specification's `kerOut`. -/
theorem kernel_value (c : Dev nD) :
    W4 m ρ c (Proc.devRef .tc main_v13)
      = Cert.Spec.kerOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  have hx : W2 m ρ c (Proc.devRef .tc main_arg0) = m ((c : Thread nD τ).loc main_arg0) := W2_arg m ρ c main_arg0 (by decide) (by decide)
  have hw2 : W2 m ρ c (Proc.devRef .tc main_arg3) = m ((c : Thread nD τ).loc main_arg3) := W2_arg m ρ c main_arg3 (by decide) (by decide)
  have hw3 : W2 m ρ c (Proc.devRef .tc main_arg4) = m ((c : Thread nD τ).loc main_arg4) := W2_arg m ρ c main_arg4 (by decide) (by decide)
  have ha1 : W2 m ρ c (Proc.devRef .tc main_arg5) = m ((c : Thread nD τ).loc main_arg5) := W2_arg m ρ c main_arg5 (by decide) (by decide)
  have ha2 : W2 m ρ c (Proc.devRef .tc main_arg6) = m ((c : Thread nD τ).loc main_arg6) := W2_arg m ρ c main_arg6 (by decide) (by decide)
  have h7 := v7_eq (W2 m ρ c) (m ((c : Thread nD τ).loc main_arg1)) (m ((c : Thread nD τ).loc main_arg2)) (W2_num m ρ c) (W2_deg m ρ c)
  have h10 := v10_eq (W2 m ρ c) (m ((c : Thread nD τ).loc main_arg1)) (m ((c : Thread nD τ).loc main_arg2)) (W2_num m ρ c) (W2_deg m ρ c)
  have h12 := v12_eq (W2 m ρ c)
  rw [hx, hw2] at h7
  rw [hx, hw2, ha2] at h10
  rw [hx, hw3, ha1] at h12
  have h4 : W4 m ρ c (Proc.devRef .tc main_v13)
      = Cert.Spec.outK (V3 m ρ c main_arg1) (V3 m ρ c main_v10) (V3 m ρ c main_v12) (V3 m ρ c main_v7) :=
    (W4_arr m ρ c 4).trans (Cert.KernelIdeal.HandValue1.final1_4 (V3 m ρ) c)
  rw [h4, V3_arg1]
  exact Cert.Spec.outK_eq _ _ _ _ _ _ _ _ _ _
    (fun e => congrFun h10 (ix2 (0 : Fin 1) e)) (fun n => congrFun h12 (ix2 n (0 : Fin 1))) (fun e d => congrFun h7 (ix2 e d))

end Cert.KernelIdeal.HandValue

end
-- ==== Proof.KB.Shared.lean ====
/-
  What the two kernels' point-by-point accounts share. Both kernels sweep an inner grid axis of 16 steps per
  outer block: at the first step (inner index 0) they reset their two scratch accumulators, at every step
  they add the step's contribution, and at the last step (inner index 15) they store the accumulated values
  into the output blocks. So every point falls in one of three cases: FIRST (reset, accumulate; outputs
  untouched), MIDDLE (accumulate; outputs untouched), LAST (accumulate, store the outputs). This module
  decides over the two grids which points are which, where the output windows are idle, and names the
  staging and scratch memrefs the kernels are called with.
-/
import proofs.«421873_j14499809591691_3_alg».proof.Proof.Gen.Kernel.Launch
import proofs.«421873_j14499809591691_3_alg».proof.Proof.Gen.Kernel.Skeleton
import proofs.«421873_j14499809591691_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## First kernel (grid 4 × 16, point t = 16·(edge block) + (node step)) -/

/-- The node step is 0: the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The node step is 15: the accumulated block is stored to the outputs. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last step both outputs are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last step both outputs are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
/-- The two accumulators: the [2048, 256] numerator block and the [1, 2048] degree row. -/
abbrev scM0_0 : Memref sig .tc .vmem S2048x256 .f32 := Memref.whole cc0_scratch0
abbrev scM0_1 : Memref sig .tc .vmem S1x2048 .f32 := Memref.whole cc0_scratch1
abbrev VS0_0 : View sig .tc .vmem S2048x256 .f32 := scM0_0.view
abbrev VS0_1 : View sig .tc .vmem S1x2048 .f32 := scM0_1.view
abbrev VO0_2 : View sig .tc .vmem S2048x256 .f32 := (Memref.whole cc0_stg2_0 : Memref sig .tc .vmem S2048x256 .f32).view
abbrev VO0_3 : View sig .tc .vmem S1x2048 .f32 := (Memref.whole cc0_stg3_0 : Memref sig .tc .vmem S1x2048 .f32).view

/-- The scoped buffers the first kernel does not name, at anything. -/
abbrev others0 (c : Dev nD) : sProp 𝕄 :=
  Pipeline.scopedRestBut (Ix := Unit) (Name := ℕ) (U := UR sig nD τ) (Lvl := ℕ) (Val := Elt F) spec0 c [cc0_scratch0, cc0_scratch1]

/-- What the region hands its body besides the windows: the two accumulators at anything, the other scoped buffers,
    the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ others0 c) ∗ (∃ r, prngReg c r)) := by
  unfold Pipeline.ΦA
  rw [Pipeline.scopedRest_split_of_list spec0 c [cc0_scratch0, cc0_scratch1] (by decide) (by decide)]
  simp only [scM0_0, scM0_1, owns_whole, bigSepL]
  rfl

/-! ## Second kernel (grid 8 × 16, point t = 16·(node block) + (edge step)) -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x256 .f32 := win1_4.stage (cfg1.slots t 4)
abbrev hs1_4 (t : Fin cfg1.N) : (ms1_4 t).IsWhole := hstage1_4 ((cfg1.slots t 4).cast nbuf1_4)
/-- The two accumulators: the [2048, 256] weighted aggregate and the [2048, 1] row sum of the weights. -/
abbrev scM1_0 : Memref sig .tc .vmem S2048x256 .f32 := Memref.whole cc1_scratch0
abbrev scM1_1 : Memref sig .tc .vmem S2048x1 .f32 := Memref.whole cc1_scratch1
abbrev VS1_0 : View sig .tc .vmem S2048x256 .f32 := scM1_0.view
abbrev VS1_1 : View sig .tc .vmem S2048x1 .f32 := scM1_1.view
abbrev VO1_4 : View sig .tc .vmem S2048x256 .f32 := (Memref.whole cc1_stg4_0 : Memref sig .tc .vmem S2048x256 .f32).view

abbrev others1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ others1 c) ∗ (∃ r, prngReg c r)) := by
  unfold Pipeline.ΦA
  rw [Pipeline.scopedRest_split_of_list spec1 c [cc1_scratch0, cc1_scratch1] (by decide) (by decide)]
  simp only [scM1_0, scM1_1, owns_whole, bigSepL]
  rfl

end Cert.Kernel.Hand

end
-- ==== Proof.KB.Run0A.lean ====
/-
  The first kernel's body at the FIRST point of a sweep (node step 0): it zeroes both accumulators, then adds the
  step's contribution — the contraction of the incidence block with the projected-feature block over the block's
  1024 nodes, and the incidence block's column sums — and touches neither output.
  Stated on any whole memrefs: the inputs keep their contents, an untouched output is handed back as found, and
  each buffer the body stores into ends with the pieces its stores wrote (found by running the body).
-/
import proofs.«421873_j14499809591691_3_alg».proof.Proof.KB.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i)
    (x0 : Vec F S1024x2048 .f32) (x1 : Vec F S1024x256 .bf16) :
    Σ' (LS0 : List (View.Piece (Elt F) S2048x256 .f32)), { LS1 : List (View.Piece (Elt F) S1x2048 .f32) //
      ∀ (xi2 : Vec F S2048x256 .f32) (xi3 : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, ?_, fun xi2 xi3 E K => ?run⟩
  case run =>
    simp only [cc0__kernel1_eq_skeleton]; unfold cc0__kernel1_skel
    unfold owns
    iintro ⟨⟨%fi0, %hfi0, HI0⟩, ⟨%fi1, %hfi1, HI1⟩, ⟨%fo2, %hfo2, HO2⟩, ⟨%fo3, %hfo3, HO3⟩, ⟨%ds0, %fs0, -, HS0⟩, ⟨%ds1, %fs1, -, HS1⟩, Hk⟩
    obtain rfl := harg2.eq_unread hfi0; obtain rfl := harg3.eq_unread hfi1; obtain rfl := harg4.eq_unread hfo2; obtain rfl := harg5.eq_unread hfo3
    sl_exec (disch := first | exact hc0 | exact hc1)
    sl_step
    iapply Hk
    isplitl [HI0]
    · iexists _; isplitr; · ipureintro; exact harg2.read_unread _
      iexact HI0
    isplitl [HI1]
    · iexists _; isplitr; · ipureintro; exact harg3.read_unread _
      iexact HI1
    isplitl [HO2]
    · iexists _; isplitr; · ipureintro; exact harg4.read_unread _
      iexact HO2
    isplitl [HO3]
    · iexists _; isplitr; · ipureintro; exact harg5.read_unread _
      iexact HO3
    isplitl [HS0]
    · iexists _; iexact HS0
    iexists _; iexact HS1

end Cert.Kernel.Hand

end
-- ==== Proof.KB.Run0B.lean ====
/-
  The first kernel's body at a MIDDLE point of a sweep (node step strictly between 0 and 15): it adds the step's
  contribution to both accumulators over what the point before left and touches neither output.
  Stated on any whole memrefs: the inputs keep their contents, an untouched output is handed back as found, and
  each buffer the body stores into ends with the pieces its stores wrote (found by running the body).
-/
import proofs.«421873_j14499809591691_3_alg».proof.Proof.KB.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i)
    (x0 : Vec F S1024x2048 .f32) (x1 : Vec F S1024x256 .bf16) (xs0 : Vec F S2048x256 .f32) (xs1 : Vec F S1x2048 .f32) :
    Σ' (LS0 : List (View.Piece (Elt F) S2048x256 .f32)), { LS1 : List (View.Piece (Elt F) S1x2048 .f32) //
      ∀ (xi2 : Vec F S2048x256 .f32) (xi3 : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, ?_, fun xi2 xi3 E K => ?run⟩
  case run =>
    simp only [cc0__kernel1_eq_skeleton]; unfold cc0__kernel1_skel
    unfold owns
    iintro ⟨⟨%fi0, %hfi0, HI0⟩, ⟨%fi1, %hfi1, HI1⟩, ⟨%fo2, %hfo2, HO2⟩, ⟨%fo3, %hfo3, HO3⟩, ⟨%fs0, %hfs0, HS0⟩, ⟨%fs1, %hfs1, HS1⟩, Hk⟩
    obtain rfl := harg2.eq_unread hfi0; obtain rfl := harg3.eq_unread hfi1; obtain rfl := harg4.eq_unread hfo2; obtain rfl := harg5.eq_unread hfo3; obtain rfl := harg6.eq_unread hfs0; obtain rfl := harg7.eq_unread hfs1
    sl_exec (disch := first | exact hc0 | exact hc1)
    sl_step
    iapply Hk
    isplitl [HI0]
    · iexists _; isplitr; · ipureintro; exact harg2.read_unread _
      iexact HI0
    isplitl [HI1]
    · iexists _; isplitr; · ipureintro; exact harg3.read_unread _
      iexact HI1
    isplitl [HO2]
    · iexists _; isplitr; · ipureintro; exact harg4.read_unread _
      iexact HO2
    isplitl [HO3]
    · iexists _; isplitr; · ipureintro; exact harg5.read_unread _
      iexact HO3
    isplitl [HS0]
    · iexists _; iexact HS0
    iexists _; iexact HS1

end Cert.Kernel.Hand

end
-- ==== Proof.KB.Run0C.lean ====
/-
  The first kernel's body at the LAST point of a sweep (node step 15): it adds the step's contribution to both
  accumulators over what the point before left, then copies the numerator accumulator into the numerator output
  block and the degree accumulator into the degree output block.
  Stated on any whole memrefs: the inputs keep their contents, an untouched output is handed back as found, and
  each buffer the body stores into ends with the pieces its stores wrote (found by running the body).
-/
import proofs.«421873_j14499809591691_3_alg».proof.Proof.KB.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) :
    Σ' (L2 : List (View.Piece (Elt F) S2048x256 .f32)), Σ' (L3 : List (View.Piece (Elt F) S1x2048 .f32)), Σ' (LS0 : List (View.Piece (Elt F) S2048x256 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, ?_, ?_, ?_, fun E K => ?run⟩
  case run =>
    simp only [cc0__kernel1_eq_skeleton]; unfold cc0__kernel1_skel
    unfold owns
    iintro ⟨⟨%fi0, %hfi0, HI0⟩, ⟨%fi1, %hfi1, HI1⟩, ⟨%do2, %fo2, -, HO2⟩, ⟨%do3, %fo3, -, HO3⟩, ⟨%fs0, %hfs0, HS0⟩, ⟨%fs1, %hfs1, HS1⟩, Hk⟩
    obtain rfl := harg2.eq_unread hfi0; obtain rfl := harg3.eq_unread hfi1; obtain rfl := harg6.eq_unread hfs0; obtain rfl := harg7.eq_unread hfs1
    sl_exec (disch := first | exact hc0 | exact hc1)
    sl_step
    iapply Hk
    isplitl [HI0]
    · iexists _; isplitr; · ipureintro; exact harg2.read_unread _
      iexact HI0
    isplitl [HI1]
    · iexists _; isplitr; · ipureintro; exact harg3.read_unread _
      iexact HI1
    isplitl [HO2]
    · iexists _; iexact HO2
    isplitl [HO3]
    · iexists _; iexact HO3
    isplitl [HS0]
    · iexists _; iexact HS0
    iexists _; iexact HS1

end Cert.Kernel.Hand

end
-- ==== Proof.KB.Region0.lean ====
/-
  The first kernel's region, point by point. What its two accumulators hold after each point of the grid is
  defined by recursion on the point (`outsAt0`): at the first step of a sweep what the reset-and-accumulate run
  leaves, afterwards what the accumulate run leaves over the previous point's contents; at the last step of a
  sweep the output blocks take what the run stores there. With these contents named, the region's invariant
  (`PhiS0`) carries the accumulators from one point to the next, the proof data (`dat0`) say what every window's
  buffer holds after the body at every point, and the body obligation holds at every point by the three runs.
  Everything is stated at arbitrary region-entry contents `V` of the core's unscoped buffers.
-/
import proofs.«421873_j14499809591691_3_alg».proof.Proof.KB.Run0A
import proofs.«421873_j14499809591691_3_alg».proof.Proof.KB.Run0B
import proofs.«421873_j14499809591691_3_alg».proof.Proof.KB.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the found pieces cover their buffers, and read back as contents -/

theorem scover0_A_0 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i)
    (x0 : Vec F S1024x2048 .f32) (x1 : Vec F S1024x256 .bf16) (y : S2048x256.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S2048x256.size (by sl_kernel_rfl) y
/-- What case A leaves in accumulator 0. -/
def sout0_A_0 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i)
    (x0 : Vec F S1024x2048 .f32) (x1 : Vec F S1024x256 .bf16) : Vec F S2048x256 .f32 :=
  VS0_0.read (Elt F) (VS0_0.writes (Elt F) VS0_0.junk (kernelRun0_A c i arg2 harg2 arg3 harg3 arg4 harg4 arg5 harg5 arg6 harg6 arg7 harg7 hc0 hc1 x0 x1).1)

theorem scover0_A_1 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i)
    (x0 : Vec F S1024x2048 .f32) (x1 : Vec F S1024x256 .bf16) (y : S1x2048.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1x2048.size (by sl_kernel_rfl) y
/-- What case A leaves in accumulator 1. -/
def sout0_A_1 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i)
    (x0 : Vec F S1024x2048 .f32) (x1 : Vec F S1024x256 .bf16) : Vec F S1x2048 .f32 :=
  VS0_1.read (Elt F) (VS0_1.writes (Elt F) VS0_1.junk (kernelRun0_A c i arg2 harg2 arg3 harg3 arg4 harg4 arg5 harg5 arg6 harg6 arg7 harg7 hc0 hc1 x0 x1).2.1)

theorem scover0_B_0 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i)
    (x0 : Vec F S1024x2048 .f32) (x1 : Vec F S1024x256 .bf16) (xs0 : Vec F S2048x256 .f32) (xs1 : Vec F S1x2048 .f32) (y : S2048x256.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S2048x256.size (by sl_kernel_rfl) y
/-- What case B leaves in accumulator 0. -/
def sout0_B_0 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i)
    (x0 : Vec F S1024x2048 .f32) (x1 : Vec F S1024x256 .bf16) (xs0 : Vec F S2048x256 .f32) (xs1 : Vec F S1x2048 .f32) : Vec F S2048x256 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)

theorem scover0_B_1 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i)
    (x0 : Vec F S1024x2048 .f32) (x1 : Vec F S1024x256 .bf16) (xs0 : Vec F S2048x256 .f32) (xs1 : Vec F S1x2048 .f32) (y : S1x2048.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S1x2048.size (by sl_kernel_rfl) y
/-- What case B leaves in accumulator 1. -/
def sout0_B_1 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i)
    (x0 : Vec F S1024x2048 .f32) (x1 : Vec F S1024x256 .bf16) (xs0 : Vec F S2048x256 .f32) (xs1 : Vec F S1x2048 .f32) : Vec F S1x2048 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)

theorem cover0_C_2 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) (y : S2048x256.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S2048x256.size (by sl_kernel_rfl) y
/-- What the last step stores into output window 2's buffer. -/
def out0_C_2 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) : Vec F S2048x256 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)

theorem cover0_C_3 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) (y : S1x2048.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x2048.size (by sl_kernel_rfl) y
/-- What the last step stores into output window 3's buffer. -/
def out0_C_3 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) : Vec F S1x2048 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)

theorem scover0_C_0 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) (y : S2048x256.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S2048x256.size (by sl_kernel_rfl) y
/-- What case C leaves in accumulator 0. -/
def sout0_C_0 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) : Vec F S2048x256 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)

theorem scover0_C_1 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) (y : S1x2048.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S1x2048.size (by sl_kernel_rfl) y
/-- What case C leaves in accumulator 1. -/
def sout0_C_1 (c : Dev nD) (i : grid0.Coords) (arg2 : Memref sig .tc .vmem S1024x2048 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x2048 .f32) (x1 : Vec F S1024x256 .bf16) (xs0 : Vec F S2048x256 .f32) (xs1 : Vec F S1x2048 .f32) : Vec F S1x2048 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-- A placeholder for output window 2's buffer at the points where the body does not touch it (nothing consults it there). -/
def idleO0_2 : Vec F S2048x256 .f32 := VO0_2.read (Elt F) VO0_2.junk

/-- A placeholder for output window 3's buffer at the points where the body does not touch it (nothing consults it there). -/
def idleO0_3 : Vec F S1x2048 .f32 := VO0_3.read (Elt F) VO0_3.junk

/-! ## What the buffers hold after each point -/

/-- After the body at position `n`: the output buffers (in window order), then the two accumulators. At the first step
    of a sweep the reset-and-accumulate run's contents; otherwise the accumulate run's over what position `n - 1` left;
    at the last step the outputs as stored. -/
def outsAt0 (c : Dev nD) : (n : ℕ) → n < cfg0.N → Vec F S2048x256 .f32 × Vec F S1x2048 .f32 × Vec F S2048x256 .f32 × Vec F S1x2048 .f32
  | 0, hn => (idleO0_2, idleO0_3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h' => by (try dsimp only at h'); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h' => by (try dsimp only at h'); omega) ((hcond0_1 ⟨0, hn⟩).mp h)) (iblk0 V c 0 ⟨0, hn⟩) (iblk0 V c 1 ⟨0, hn⟩))
  | n + 1, hn =>
    if h0 : (n + 1) % 16 = 0 then
      (idleO0_2, idleO0_3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (fun h' => by (try dsimp only at h'); omega) ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (fun h' => by (try dsimp only at h'); omega) ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        (idleO0_2, idleO0_3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 16 = 0) :
    outsAt0 V c t.val t.isLt = (idleO0_2, idleO0_3, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (fun h' => by (try dsimp only at h'); omega) ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (fun h' => by (try dsimp only at h'); omega) ((hcond0_1 t).mp h)) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = (idleO0_2, idleO0_3, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant and proof data -/

/-- Before position `n`: at the region's start the scoped buffers at anything; afterwards the two accumulators at what
    the point before left, the other scoped buffers at anything, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ others0 c) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ others0 c) ∗ (∃ r, prngReg c r)) := by
  cases n with
  | zero => exact absurd rfl hz
  | succ n => rfl

/-- The proof data on core `c`: the arrays as the region finds them; after the body at point `t` each input's buffer at
    its block and each output's at `outsAt0`'s component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position in its sweep says which of the
    three runs applies; the invariant hands the run the accumulators (at anything at a sweep's first step, at what the
    point before left otherwise) and takes them back at this point's contents; an output the run does not touch is handed
    back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 16 = 0
  · -- the first step of a sweep
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => absurd ((hcond0_1 t).mp h) (by omega))) (noFlush0_2 t (fun h => absurd ((hcond0_1 t).mp h) (by omega)))]
      rw [Dat.leavesExact_idle (dat0 V c) 3 t (idleAt0_3 t (fun h => absurd ((hcond0_1 t).mp h) (by omega))) (noFlush0_3 t (fun h => absurd ((hcond0_1 t).mp h) (by omega)))]
      rw [outsAt0_A V c t h0]
      unfold sout0_A_0 sout0_A_1; (try dsimp only)
      by_cases hz : t.val = 0
      · rw [PhiS0_castSucc V c t, PhiS0_zero V c _ _ hz, PhiA0_eq]
        iintro ⟨⟨⟨⟨HS0, HS1⟩, Hoth⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => (fun h' => by (try dsimp only at h'); omega) ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _)
              · unfold owns; iexists _; isplitr
                swap; · iexact HS1
                ipureintro; exact View.read_writes_of_cover _ _ _ _ _ (scover0_A_1 c _ _ _ _ _ _ _ _ _ _ _ _ _ _ _ _ _)
            iexact Hoth
          iexact Hg
        isplitl [Ho]; · iexact Ho
        isplitl [H0]; · iexact H0
        isplitl [H1]; · iexact H1
        isplitl [H2]; · iexists _; iexact H2
        iexists _; iexact H3
      · rw [PhiS0_castSucc V c t, PhiS0_pos V c _ _ hz]
        iintro ⟨⟨⟨⟨HS0, HS1⟩, Hoth⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => (fun h' => by (try dsimp only at h'); omega) ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _)
              · unfold owns; iexists _; isplitr
                swap; · iexact HS1
                ipureintro; exact View.read_writes_of_cover _ _ _ _ _ (scover0_A_1 c _ _ _ _ _ _ _ _ _ _ _ _ _ _ _ _ _)
            iexact Hoth
          iexact Hg
        isplitl [Ho]; · iexact Ho
        isplitl [H0]; · iexact H0
        isplitl [H1]; · iexact H1
        isplitl [H2]; · iexists _; iexact H2
        iexists _; iexact H3
  · have hz : t.val ≠ 0 := fun e => h0 (by rw [e])
    by_cases h1 : t.val % 16 = 15
    · -- the last step of a sweep
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_2 out0_C_3 sout0_C_0 sout0_C_1; (try dsimp only)
      rw [PhiS0_castSucc V c t, PhiS0_pos V c _ _ hz]
      · iintro ⟨⟨⟨⟨HS0, HS1⟩, Hoth⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _)
              · unfold owns; iexists _; isplitr
                swap; · iexact HS1
                ipureintro; exact View.read_writes_of_cover _ _ _ _ _ (scover0_C_1 c _ _ _ _ _ _ _ _ _ _ _ _ _ _ _ _ _ _ _)
            iexact Hoth
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _)
        · unfold owns; iexists _; isplitr
          swap; · iexact H3
          ipureintro; exact View.read_writes_of_cover _ _ _ _ _ (cover0_C_3 c _ _ _ _ _ _ _ _ _ _ _ _ _ _ _ _ _ _ _)
    · -- a middle step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      rw [PhiS0_castSucc V c t, PhiS0_pos V c _ _ hz]
      · iintro ⟨⟨⟨⟨HS0, HS1⟩, Hoth⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _)
              · unfold owns; iexists _; isplitr
                swap; · iexact HS1
                ipureintro; exact View.read_writes_of_cover _ _ _ _ _ (scover0_B_1 c _ _ _ _ _ _ _ _ _ _ _ _ _ _ _ _ _ _ _)
            iexact Hoth
          iexact Hg
        isplitl [Ho]; · iexact Ho
        isplitl [H0]; · iexact H0
        isplitl [H1]; · iexact H1
        isplitl [H2]; · iexists _; iexact H2
        iexists _; iexact H3

/-- The body obligation of the region's proof data, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back at anything: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hoth⟩, Hg⟩
  isplitl [HS0 HS1 Hoth]
  · isplitl [HS0 HS1]
    · isplitl [HS0]
      · iexists _; iexact HS0
      · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.KB.Run1A.lean ====
/-
  The second kernel's body at the FIRST point of a sweep (edge step 0): it zeroes the aggregate and the row-sum
  accumulators, then adds the step's contribution — the masked exponential weights of the block, their row sums,
  and their product with the step's 512 rows of the hyperedge features — and leaves the output untouched.
  Stated on any whole memrefs: the inputs keep their contents, an untouched output is handed back as found, and
  each buffer the body stores into ends with the pieces its stores wrote (found by running the body).
-/
import proofs.«421873_j14499809591691_3_alg».proof.Proof.KB.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : cond1_0 i) (hc1 : ¬cond1_1 i)
    (x0 : Vec F S2048x512 .f32) (x1 : Vec F S8192x256 .bf16) (x2 : Vec F S1x512 .f32) (x3 : Vec F S2048x1 .f32) :
    Σ' (LS0 : List (View.Piece (Elt F) S2048x256 .f32)), { LS1 : List (View.Piece (Elt F) S2048x1 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__kernel2 i arg2 harg2 arg3 harg3 arg4 harg4 arg5 harg5 arg6 harg6 arg7 harg7 arg8 harg8) K } := by
  refine ⟨?_, ?_, fun xi4 E K => ?run⟩
  case run =>
    simp only [cc1__kernel2_eq_skeleton]; unfold cc1__kernel2_skel
    simp only [k1_part1_eq_skeleton]
    unfold owns
    iintro ⟨⟨%fi0, %hfi0, HI0⟩, ⟨%fi1, %hfi1, HI1⟩, ⟨%fi2, %hfi2, HI2⟩, ⟨%fi3, %hfi3, HI3⟩, ⟨%fo4, %hfo4, HO4⟩, ⟨%ds0, %fs0, -, HS0⟩, ⟨%ds1, %fs1, -, HS1⟩, Hk⟩
    obtain rfl := harg2.eq_unread hfi0; obtain rfl := harg3.eq_unread hfi1; obtain rfl := harg4.eq_unread hfi2; obtain rfl := harg5.eq_unread hfi3; obtain rfl := harg6.eq_unread hfo4
    sl_exec (disch := first | exact hc0 | exact hc1)
    sl_step
    iapply Hk
    isplitl [HI0]
    · iexists _; isplitr; · ipureintro; exact harg2.read_unread _
      iexact HI0
    isplitl [HI1]
    · iexists _; isplitr; · ipureintro; exact harg3.read_unread _
      iexact HI1
    isplitl [HI2]
    · iexists _; isplitr; · ipureintro; exact harg4.read_unread _
      iexact HI2
    isplitl [HI3]
    · iexists _; isplitr; · ipureintro; exact harg5.read_unread _
      iexact HI3
    isplitl [HO4]
    · iexists _; isplitr; · ipureintro; exact harg6.read_unread _
      iexact HO4
    isplitl [HS0]
    · iexists _; iexact HS0
    iexists _; iexact HS1

end Cert.Kernel.Hand

end
-- ==== Proof.KB.Run1B.lean ====
/-
  The second kernel's body at a MIDDLE point of a sweep (edge step strictly between 0 and 15): it adds the step's
  contribution to both accumulators over what the point before left and leaves the output untouched.
  Stated on any whole memrefs: the inputs keep their contents, an untouched output is handed back as found, and
  each buffer the body stores into ends with the pieces its stores wrote (found by running the body).
-/
import proofs.«421873_j14499809591691_3_alg».proof.Proof.KB.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : ¬cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) :
    Σ' (LS0 : List (View.Piece (Elt F) S2048x256 .f32)), { LS1 : List (View.Piece (Elt F) S2048x1 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__kernel2 i arg2 harg2 arg3 harg3 arg4 harg4 arg5 harg5 arg6 harg6 arg7 harg7 arg8 harg8) K } := by
  refine ⟨?_, ?_, fun xi4 E K => ?run⟩
  case run =>
    simp only [cc1__kernel2_eq_skeleton]; unfold cc1__kernel2_skel
    simp only [k1_part1_eq_skeleton]
    unfold owns
    iintro ⟨⟨%fi0, %hfi0, HI0⟩, ⟨%fi1, %hfi1, HI1⟩, ⟨%fi2, %hfi2, HI2⟩, ⟨%fi3, %hfi3, HI3⟩, ⟨%fo4, %hfo4, HO4⟩, ⟨%fs0, %hfs0, HS0⟩, ⟨%fs1, %hfs1, HS1⟩, Hk⟩
    obtain rfl := harg2.eq_unread hfi0; obtain rfl := harg3.eq_unread hfi1; obtain rfl := harg4.eq_unread hfi2; obtain rfl := harg5.eq_unread hfi3; obtain rfl := harg6.eq_unread hfo4; obtain rfl := harg7.eq_unread hfs0; obtain rfl := harg8.eq_unread hfs1
    sl_exec (disch := first | exact hc0 | exact hc1)
    sl_step
    iapply Hk
    isplitl [HI0]
    · iexists _; isplitr; · ipureintro; exact harg2.read_unread _
      iexact HI0
    isplitl [HI1]
    · iexists _; isplitr; · ipureintro; exact harg3.read_unread _
      iexact HI1
    isplitl [HI2]
    · iexists _; isplitr; · ipureintro; exact harg4.read_unread _
      iexact HI2
    isplitl [HI3]
    · iexists _; isplitr; · ipureintro; exact harg5.read_unread _
      iexact HI3
    isplitl [HO4]
    · iexists _; isplitr; · ipureintro; exact harg6.read_unread _
      iexact HO4
    isplitl [HS0]
    · iexists _; iexact HS0
    iexists _; iexact HS1

end Cert.Kernel.Hand

end
-- ==== Proof.KB.Run1C.lean ====
/-
  The second kernel's body at the LAST point of a sweep (edge step 15): it adds the step's contribution to both
  accumulators, then stores into the output block the rectified quotient of the aggregate by the row sums.
  Stated on any whole memrefs: the inputs keep their contents, an untouched output is handed back as found, and
  each buffer the body stores into ends with the pieces its stores wrote (found by running the body).
-/
import proofs.«421873_j14499809591691_3_alg».proof.Proof.KB.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) :
    Σ' (L4 : List (View.Piece (Elt F) S2048x256 .f32)), Σ' (LS0 : List (View.Piece (Elt F) S2048x256 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__kernel2 i arg2 harg2 arg3 harg3 arg4 harg4 arg5 harg5 arg6 harg6 arg7 harg7 arg8 harg8) K } := by
  refine ⟨?_, ?_, ?_, fun E K => ?run⟩
  case run =>
    simp only [cc1__kernel2_eq_skeleton]; unfold cc1__kernel2_skel
    simp only [k1_part1_eq_skeleton]
    unfold owns
    iintro ⟨⟨%fi0, %hfi0, HI0⟩, ⟨%fi1, %hfi1, HI1⟩, ⟨%fi2, %hfi2, HI2⟩, ⟨%fi3, %hfi3, HI3⟩, ⟨%do4, %fo4, -, HO4⟩, ⟨%fs0, %hfs0, HS0⟩, ⟨%fs1, %hfs1, HS1⟩, Hk⟩
    obtain rfl := harg2.eq_unread hfi0; obtain rfl := harg3.eq_unread hfi1; obtain rfl := harg4.eq_unread hfi2; obtain rfl := harg5.eq_unread hfi3; obtain rfl := harg7.eq_unread hfs0; obtain rfl := harg8.eq_unread hfs1
    sl_exec (disch := first | exact hc0 | exact hc1)
    sl_step
    iapply Hk
    isplitl [HI0]
    · iexists _; isplitr; · ipureintro; exact harg2.read_unread _
      iexact HI0
    isplitl [HI1]
    · iexists _; isplitr; · ipureintro; exact harg3.read_unread _
      iexact HI1
    isplitl [HI2]
    · iexists _; isplitr; · ipureintro; exact harg4.read_unread _
      iexact HI2
    isplitl [HI3]
    · iexists _; isplitr; · ipureintro; exact harg5.read_unread _
      iexact HI3
    isplitl [HO4]
    · iexists _; iexact HO4
    isplitl [HS0]
    · iexists _; iexact HS0
    iexists _; iexact HS1

end Cert.Kernel.Hand

end
-- ==== Proof.KB.Region1.lean ====
/-
  The second kernel's region, point by point. What its two accumulators hold after each point of the grid is
  defined by recursion on the point (`outsAt1`): at the first step of a sweep what the reset-and-accumulate run
  leaves, afterwards what the accumulate run leaves over the previous point's contents; at the last step of a
  sweep the output block takes what the run stores there. With these contents named, the region's invariant
  (`PhiS1`) carries the accumulators from one point to the next, the proof data (`dat1`) say what every window's
  buffer holds after the body at every point, and the body obligation holds at every point by the three runs.
  Everything is stated at arbitrary region-entry contents `V` of the core's unscoped buffers.
-/
import proofs.«421873_j14499809591691_3_alg».proof.Proof.KB.Run1A
import proofs.«421873_j14499809591691_3_alg».proof.Proof.KB.Run1B
import proofs.«421873_j14499809591691_3_alg».proof.Proof.KB.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: the found pieces cover their buffers, and read back as contents -/

theorem scover1_A_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : cond1_0 i) (hc1 : ¬cond1_1 i)
    (x0 : Vec F S2048x512 .f32) (x1 : Vec F S8192x256 .bf16) (x2 : Vec F S1x512 .f32) (x3 : Vec F S2048x1 .f32) (y : S2048x256.Idx) :
    ∃ pc ∈ (kernelRun1_A c i arg2 harg2 arg3 harg3 arg4 harg4 arg5 harg5 arg6 harg6 arg7 harg7 arg8 harg8 hc0 hc1 x0 x1 x2 x3).1, y ∈ pc.1.set :=
  View.cover_of_tiledL (kernelRun1_A c i arg2 harg2 arg3 harg3 arg4 harg4 arg5 harg5 arg6 harg6 arg7 harg7 arg8 harg8 hc0 hc1 x0 x1 x2 x3).1 S2048x256.size (by sl_kernel_rfl) y
/-- What case A leaves in accumulator 0. -/
def sout1_A_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : cond1_0 i) (hc1 : ¬cond1_1 i)
    (x0 : Vec F S2048x512 .f32) (x1 : Vec F S8192x256 .bf16) (x2 : Vec F S1x512 .f32) (x3 : Vec F S2048x1 .f32) : Vec F S2048x256 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).1)

theorem scover1_A_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : cond1_0 i) (hc1 : ¬cond1_1 i)
    (x0 : Vec F S2048x512 .f32) (x1 : Vec F S8192x256 .bf16) (x2 : Vec F S1x512 .f32) (x3 : Vec F S2048x1 .f32) (y : S2048x1.Idx) :
    ∃ pc ∈ (kernelRun1_A c i arg2 harg2 arg3 harg3 arg4 harg4 arg5 harg5 arg6 harg6 arg7 harg7 arg8 harg8 hc0 hc1 x0 x1 x2 x3).2.1, y ∈ pc.1.set :=
  View.cover_of_tiledL (kernelRun1_A c i arg2 harg2 arg3 harg3 arg4 harg4 arg5 harg5 arg6 harg6 arg7 harg7 arg8 harg8 hc0 hc1 x0 x1 x2 x3).2.1 S2048x1.size (by sl_kernel_rfl) y
/-- What case A leaves in accumulator 1. -/
def sout1_A_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : cond1_0 i) (hc1 : ¬cond1_1 i)
    (x0 : Vec F S2048x512 .f32) (x1 : Vec F S8192x256 .bf16) (x2 : Vec F S1x512 .f32) (x3 : Vec F S2048x1 .f32) : Vec F S2048x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2 x3).2.1)

theorem scover1_B_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : ¬cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) (y : S2048x256.Idx) :
    ∃ pc ∈ (kernelRun1_B c i arg2 harg2 arg3 harg3 arg4 harg4 arg5 harg5 arg6 harg6 arg7 harg7 arg8 harg8 hc0 hc1 x0 x1 x2 x3 xs0 xs1).1, y ∈ pc.1.set :=
  View.cover_of_tiledL (kernelRun1_B c i arg2 harg2 arg3 harg3 arg4 harg4 arg5 harg5 arg6 harg6 arg7 harg7 arg8 harg8 hc0 hc1 x0 x1 x2 x3 xs0 xs1).1 S2048x256.size (by sl_kernel_rfl) y
/-- What case B leaves in accumulator 0. -/
def sout1_B_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : ¬cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) : Vec F S2048x256 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0 xs1).1)

theorem scover1_B_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : ¬cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) (y : S2048x1.Idx) :
    ∃ pc ∈ (kernelRun1_B c i arg2 harg2 arg3 harg3 arg4 harg4 arg5 harg5 arg6 harg6 arg7 harg7 arg8 harg8 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.1 S2048x1.size (by sl_kernel_rfl) y
/-- What case B leaves in accumulator 1. -/
def sout1_B_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : ¬cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) : Vec F S2048x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 x3 xs0 xs1).2.1)

theorem cover1_C_4 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) (y : S2048x256.Idx) :
    ∃ pc ∈ (kernelRun1_C c i arg2 harg2 arg3 harg3 arg4 harg4 arg5 harg5 arg6 harg6 arg7 harg7 arg8 harg8 hc0 hc1 x0 x1 x2 x3 xs0 xs1).1, y ∈ pc.1.set :=
  View.cover_of_tiledL (kernelRun1_C c i arg2 harg2 arg3 harg3 arg4 harg4 arg5 harg5 arg6 harg6 arg7 harg7 arg8 harg8 hc0 hc1 x0 x1 x2 x3 xs0 xs1).1 S2048x256.size (by sl_kernel_rfl) y
/-- What the last step stores into output window 4's buffer. -/
def out1_C_4 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) : Vec F S2048x256 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0 xs1).1)

theorem scover1_C_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) (y : S2048x256.Idx) :
    ∃ pc ∈ (kernelRun1_C c i arg2 harg2 arg3 harg3 arg4 harg4 arg5 harg5 arg6 harg6 arg7 harg7 arg8 harg8 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.1 S2048x256.size (by sl_kernel_rfl) y
/-- What case C leaves in accumulator 0. -/
def sout1_C_0 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) : Vec F S2048x256 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0 xs1).2.1)

theorem scover1_C_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) (y : S2048x1.Idx) :
    ∃ pc ∈ (kernelRun1_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.2.1 S2048x1.size (by sl_kernel_rfl) y
/-- What case C leaves in accumulator 1. -/
def sout1_C_1 (c : Dev nD) (i : grid1.Coords) (arg2 : Memref sig .tc .vmem S2048x512 .f32) (harg2 : arg2.IsWhole) (arg3 : Memref sig .tc .vmem S8192x256 .bf16) (harg3 : arg3.IsWhole) (arg4 : Memref sig .tc .vmem S1x512 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1 .f32) (harg8 : arg8.IsWhole) (hc0 : ¬cond1_0 i) (hc1 : cond1_1 i)
    (x0 : Vec F S2048x512 .f32) (x1 : Vec F S8192x256 .bf16) (x2 : Vec F S1x512 .f32) (x3 : Vec F S2048x1 .f32) (xs0 : Vec F S2048x256 .f32) (xs1 : Vec F S2048x1 .f32) : Vec F S2048x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 x3 xs0 xs1).2.2.1)

/-- A placeholder for output window 4's buffer at the points where the body does not touch it (nothing consults it there). -/
def idleO1_4 : Vec F S2048x256 .f32 := VO1_4.read (Elt F) VO1_4.junk

/-! ## What the buffers hold after each point -/

/-- After the body at position `n`: the output buffer (in window order), then the two accumulators. At the first step
    of a sweep the reset-and-accumulate run's contents; otherwise the accumulate run's over what position `n - 1` left;
    at the last step the output as stored. -/
def outsAt1 (c : Dev nD) : (n : ℕ) → n < cfg1.N → Vec F S2048x256 .f32 × Vec F S2048x256 .f32 × Vec F S2048x1 .f32
  | 0, hn => (idleO1_4, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      (idleO1_4, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => (fun h' => by (try dsimp only at h'); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => (fun h' => by (try dsimp only at h'); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 16 = 15 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)
      else
        (idleO1_4, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)

theorem outsAt1_A (c : Dev nD) (t : Fin cfg1.N) (h0 : t.val % 16 = 0) :
    outsAt1 V c t.val t.isLt = (idleO1_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => (fun h' => by (try dsimp only at h'); omega) ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => (fun h' => by (try dsimp only at h'); omega) ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = (idleO1_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant and proof data -/

/-- Before position `n`: at the region's start the scoped buffers at anything; afterwards the two accumulators at what
    the point before left, the other scoped buffers at anything, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2)) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2)) ∗ others1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2)) ∗ others1 c) ∗ (∃ r, prngReg c r)) := by
  cases n with
  | zero => exact absurd rfl hz
  | succ n => rfl

/-- The proof data on core `c`: the arrays as the region finds them; after the body at point `t` each input's buffer at
    its block and each output's at `outsAt1`'s component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's position in its sweep says which of the
    three runs applies; the invariant hands the run the accumulators (at anything at a sweep's first step, at what the
    point before left otherwise) and takes them back at this point's contents; an output the run does not touch is handed
    back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 16 = 0
  · -- the first step of a sweep
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => absurd ((hcond1_1 t).mp h) (by omega))) (noFlush1_4 t (fun h => absurd ((hcond1_1 t).mp h) (by omega)))]
      rw [outsAt1_A V c t h0]
      unfold sout1_A_0 sout1_A_1; (try dsimp only)
      by_cases hz : t.val = 0
      · rw [PhiS1_castSucc V c t, PhiS1_zero V c _ _ hz, PhiA1_eq]
        iintro ⟨⟨⟨⟨HS0, HS1⟩, Hoth⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ ((hcond1_0 t).mpr h0) (fun h => (fun h' => by (try dsimp only at h'); omega) ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _)
              · unfold owns; iexists _; isplitr
                swap; · iexact HS1
                ipureintro; exact View.read_writes_of_cover _ _ _ _ _ (scover1_A_1 c _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨⟨HS0, HS1⟩, Hoth⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ ((hcond1_0 t).mpr h0) (fun h => (fun h' => by (try dsimp only at h'); omega) ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _)
              · unfold owns; iexists _; isplitr
                swap; · iexact HS1
                ipureintro; exact View.read_writes_of_cover _ _ _ _ _ (scover1_A_1 c _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · -- the last step of a sweep
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0 sout1_C_1; (try dsimp only)
      rw [PhiS1_castSucc V c t, PhiS1_pos V c _ _ hz]
      · iintro ⟨⟨⟨⟨HS0, HS1⟩, Hoth⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _)
              · unfold owns; iexists _; isplitr
                swap; · iexact HS1
                ipureintro; exact View.read_writes_of_cover _ _ _ _ _ (scover1_C_1 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        · unfold owns; iexists _; isplitr
          swap; · iexact H4
          ipureintro; exact View.read_writes_of_cover _ _ _ _ _ (cover1_C_4 c _ _ _ _ _ _ _ _ _ _ _ _ _ _ _ _ _ _ _ _ _ _ _)
    · -- a middle step
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0 sout1_B_1; (try dsimp only)
      rw [PhiS1_castSucc V c t, PhiS1_pos V c _ _ hz]
      · iintro ⟨⟨⟨⟨HS0, HS1⟩, Hoth⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _)
              · unfold owns; iexists _; isplitr
                swap; · iexact HS1
                ipureintro; exact View.read_writes_of_cover _ _ _ _ _ (scover1_B_1 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4

/-- The body obligation of the region's proof data, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back at anything: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hoth⟩, Hg⟩
  isplitl [HS0 HS1 Hoth]
  · isplitl [HS0 HS1]
    · isplitl [HS0]
      · iexists _; iexact HS0
      · iexists _; iexact HS1
    iexact Hoth
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.KB.Main.lean ====
/-
  The whole program: two host stretches and the two pallas calls, run in order. The contents of the core's unscoped
  buffers at each boundary are a fold through @main: the launch memory; after the first host stretch; after the first
  call (its two result arrays at what its write-backs leave, everything else unchanged); after the second host
  stretch; after the second call (the result array at what its write-backs leave). Every weakly fair execution
  terminates, and the final memory holds every unscoped buffer at the last of these; no step writes an argument.
-/
import proofs.«421873_j14499809591691_3_alg».proof.Proof.KB.Region0
import proofs.«421873_j14499809591691_3_alg».proof.Proof.KB.Region1
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family, the thread state, the segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Pallas call 0 over the thread state: entered from every unscoped buffer at the contents before it, left with its
    windows' arrays at what the pipeline's write-backs leave and every other buffer as entered. Its arrays are split
    out of the unscoped buffers on entry and put back on exit; the scoped buffers and the generator register go into
    the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at the contents before it, left with its
    windows' arrays at what the pipeline's write-backs leave and every other buffer as entered. Its arrays are split
    out of the unscoped buffers on entry and put back on exit; the scoped buffers and the generator register go into
    the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer of the core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.Kernel.Hand

end
-- ==== Proof.lean ====
/-
  The certificate of the two-call hypergraph-attention kernel against its jnp reference, over the extended reals.

  Both programs compute, from node features x, an incidence matrix H, three weight matrices and two attention
  vectors: the hyperedge features en = (Hᵀ (x w1)) / deg with deg the column sums of H; hyperedge and node scores;
  the clamped, rectified logits sc; the masked weights hatt = exp sc · H with row sums den; and hyperedge features
  ev = en w2. The reference normalises the weights first, leaky (Σ_e (hatt / den) · ev); the kernel accumulates the raw
  aggregate and the row sums tile by tile over a grid and divides once, leaky ((Σ_e hatt · ev) / den). The two agree
  wherever no divisor vanishes and every entry is a real number — which the precondition states: every float input is
  finite, every hyperedge degree and every softmax denominator is nonzero (outside that domain the reference itself
  divides by zero). Where a divisor vanishes they differ (all-zero inputs: the reference ends at 0, the kernel at −∞),
  so the precondition is needed.

  The pieces: Spec (the mathematics), SpecLaw (the two results agree on admissible inputs), RefSpec (the reference,
  read operation by operation, is the specification), PreFacts (the precondition decoded), KI/… (the idealized kernel
  program: its two regions point by point, its run, and its result read as the specification's), KB/… (the word-level
  kernel program's frame, the same text at the other namespace).
-/
import proofs.«421873_j14499809591691_3_alg».proof.Defs
import proofs.«421873_j14499809591691_3_alg».proof.Proof.Gen.Kernel
import proofs.«421873_j14499809591691_3_alg».proof.Proof.Gen.KernelIdeal
import proofs.«421873_j14499809591691_3_alg».proof.Proof.Gen.ReferenceIdeal
import proofs.«421873_j14499809591691_3_alg».proof.Proof.Gen.ReferenceIdeal.Run
import proofs.«421873_j14499809591691_3_alg».proof.Proof.Gen.ReferenceIdeal.Read
import proofs.«421873_j14499809591691_3_alg».proof.Proof.Gen.Pre_finite_inputs
import proofs.«421873_j14499809591691_3_alg».proof.Proof.SpecLaw
import proofs.«421873_j14499809591691_3_alg».proof.Proof.RefSpec
import proofs.«421873_j14499809591691_3_alg».proof.Proof.PreFacts
import proofs.«421873_j14499809591691_3_alg».proof.Proof.KI.KFinal
import proofs.«421873_j14499809591691_3_alg».proof.Proof.KB.Main
import Idealize.ShloMosaic.Adequacy
import Idealize.ShloMosaic.Init

noncomputable section

namespace Cert.Proof

open Idealize.ShloMosaic Idealize.ShloMosaic.TcCoe Idealize.SL.Sem Idealize.ShloMosaic.ValueIdx

/-- The precondition makes the arguments admissible: finite entries (decoded from the printed predicate), and the
    predicate's two divisor arrays are the specification's degrees and denominators. -/
theorem admissible_of_pre (x0 : FVec Ideal Cert.Pre_finite_inputs.S16384x256 .f32) (x1 : FVec Ideal Cert.Pre_finite_inputs.S16384x8192 .f32)
    (x2 x3 x4 : FVec Ideal Cert.Pre_finite_inputs.S256x256 .f32) (x5 x6 : FVec Ideal Cert.Pre_finite_inputs.S256x1 .f32)
    (h : Cert.Pre_finite_inputs.fn (F := Ideal) x0 x1 x2 x3 x4 x5 x6 = fun _ => 1#1) :
    Cert.Spec.Admissible x0 x1 x2 x3 x4 x5 x6 := by
  obtain ⟨h0, h1, h2, h3, h4, h5, h6, hd, hn⟩ := Cert.PreFacts.pre_facts x0 x1 x2 x3 x4 x5 x6 h
  refine ⟨h0, h1, h2, h3, h4, h5, h6, fun e => ?_, fun n => ?_⟩
  · have := hd (ix2 e (0 : Fin 1)); rw [Cert.RefSpec.deg_eq] at this; exact this
  · have := hn (ix2 n (0 : Fin 1)); rw [Cert.RefSpec.den_eq] at this; exact this

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: a value narrowed to bf16 and widened back is itself at the extended reals. -/
theorem preserves : Cert.preserves_Kernel_KernelIdeal :=
  IdealRules.truncf_extf.statement Cert.KernelIdeal.S2048x512 .f32 .bf16

/-- The idealized kernel ends at the specification's `kerOut` of its arguments, the reference at `refOut` of the same
    arguments; on admissible arguments these are one array. -/
theorem algebraic : Cert.algebraic_KernelIdeal_ReferenceIdeal := by
  intro m ρ m' ρ' hpre hagree
  refine ⟨fun c => Cert.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨?_, ?_⟩) (Cert.KernelIdeal.Hand.run_all (F := Ideal) m ρ)
    · exact (h c _ (Cert.KernelIdeal.Hand.mem_uc Cert.KernelIdeal.main_v13 (by decide))).trans (Cert.KernelIdeal.HandValue.kernel_value m ρ c)
    · exact ⟨(h c _ (Cert.KernelIdeal.Hand.mem_uc Cert.KernelIdeal.main_arg0 (by decide))).trans (Cert.KernelIdeal.Hand.W4_main_arg0 m ρ c),
        (h c _ (Cert.KernelIdeal.Hand.mem_uc Cert.KernelIdeal.main_arg1 (by decide))).trans (Cert.KernelIdeal.Hand.W4_main_arg1 m ρ c),
        (h c _ (Cert.KernelIdeal.Hand.mem_uc Cert.KernelIdeal.main_arg2 (by decide))).trans (Cert.KernelIdeal.Hand.W4_main_arg2 m ρ c),
        (h c _ (Cert.KernelIdeal.Hand.mem_uc Cert.KernelIdeal.main_arg3 (by decide))).trans (Cert.KernelIdeal.Hand.W4_main_arg3 m ρ c),
        (h c _ (Cert.KernelIdeal.Hand.mem_uc Cert.KernelIdeal.main_arg4 (by decide))).trans (Cert.KernelIdeal.Hand.W4_main_arg4 m ρ c),
        (h c _ (Cert.KernelIdeal.Hand.mem_uc Cert.KernelIdeal.main_arg5 (by decide))).trans (Cert.KernelIdeal.Hand.W4_main_arg5 m ρ c),
        (h c _ (Cert.KernelIdeal.Hand.mem_uc Cert.KernelIdeal.main_arg6 (by decide))).trans (Cert.KernelIdeal.Hand.W4_main_arg6 m ρ c)⟩
  · refine (θ_run Cert.ReferenceIdeal.defs _ _).mono (fun _ h c => ⟨?_, (h c).2⟩) (Cert.ReferenceIdeal.Value.run (F := Ideal) m' ρ')
    rw [(h c).1, Cert.ReferenceIdeal.Read.val_main_v37_eq, Cert.RefSpec.ref_eq,
      (hagree c).1, (hagree c).2.1, (hagree c).2.2.1, (hagree c).2.2.2.1, (hagree c).2.2.2.2.1, (hagree c).2.2.2.2.2.1, (hagree c).2.2.2.2.2.2]
    exact (Cert.Spec.kerOut_eq_refOut _ _ _ _ _ _ _ (admissible_of_pre _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
